-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "eps_sq" .f32 0x179ABE15#32 ((5316911940649 / 5316911983139663491615228241121378304 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S5000x128 : Shape := ⟨2, ![5000, 128]⟩
abbrev S5000x1 : Shape := ⟨2, ![5000, 1]⟩
abbrev S1700000x128 : Shape := ⟨2, ![1700000, 128]⟩
abbrev S1x128 : Shape := ⟨2, ![1, 128]⟩
abbrev S20x1x5000 : Shape := ⟨3, ![20, 1, 5000]⟩
abbrev S1x1x5000 : Shape := ⟨3, ![1, 1, 5000]⟩
abbrev S5000 : Shape := ⟨1, ![5000]⟩
abbrev S1x5000 : Shape := ⟨2, ![1, 5000]⟩
abbrev S128x5000 : Shape := ⟨2, ![128, 5000]⟩
abbrev S128x1 : Shape := ⟨2, ![128, 1]⟩

abbrev nBuf : Space → Nat
  | .hbm => 59
  | .vmem => 17
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x128, .bf16⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000x128, .bf16⟩
  | .hbm, ⟨38, _⟩ => ⟨S1700000x128, .f32⟩
  | .hbm, ⟨39, _⟩ => ⟨S_, .f32⟩
  | .hbm, ⟨40, _⟩ => ⟨S100000x128, .f32⟩
  | .hbm, ⟨41, _⟩ => ⟨S1700000x1, .i32⟩
  | .hbm, ⟨42, _⟩ => ⟨S100000x128, .f32⟩
  | .hbm, ⟨43, _⟩ => ⟨S1x128, .f32⟩
  | .hbm, ⟨44, _⟩ => ⟨S1x128, .f32⟩
  | .hbm, ⟨45, _⟩ => ⟨S20x1x5000, .i32⟩
  | .hbm, ⟨46, _⟩ => ⟨S128x128, .f32⟩
  | .hbm, ⟨47, _⟩ => ⟨S_, .f32⟩
  | .hbm, ⟨48, _⟩ => ⟨S100000, .f32⟩
  | .hbm, ⟨49, _⟩ => ⟨S_, .f32⟩
  | .hbm, ⟨50, _⟩ => ⟨S128, .f32⟩
  | .hbm, ⟨51, _⟩ => ⟨S100000x1, .i32⟩
  | .hbm, ⟨52, _⟩ => ⟨S128, .f32⟩
  | .hbm, ⟨53, _⟩ => ⟨S_, .f32⟩
  | .hbm, ⟨54, _⟩ => ⟨S128, .f32⟩
  | .hbm, ⟨55, _⟩ => ⟨S128, .f32⟩
  | .hbm, ⟨56, _⟩ => ⟨S128x1, .f32⟩
  | .hbm, ⟨57, _⟩ => ⟨S128x128, .f32⟩
  | .hbm, ⟨58, _⟩ => ⟨S128x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .bf16⟩
  | .local _ .vmem, ⟨6, _⟩ => ⟨S5000x128, .bf16⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S1x128, .f32⟩
  | .local _ .vmem, ⟨13, _⟩ => ⟨S1x1x5000, .i32⟩
  | .local _ .vmem, ⟨14, _⟩ => ⟨S1x1x5000, .i32⟩
  | .local _ .vmem, ⟨15, _⟩ => ⟨S128x128, .f32⟩
  | .local _ .vmem, ⟨16, _⟩ => ⟨S128x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc1_sem5_0 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def k1_cond2 (i : grid1.Coords) : BitVec 1 :=
  let arg0 : BitVec 32 := BitVec.ofNat 32 (i 0).val
  let c19_i32 : BitVec 32 := 19#32
  let v45 : BitVec 1 := Scalar.cmpi .eq arg0 c19_i32
  let v46 : BitVec 32 := Scalar.extui v45
  let c0_i32_18 : BitVec 32 := 0#32
  let v47 : BitVec 1 := Scalar.cmpi .ne v46 c0_i32_18
  v47

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x1x5000 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  packedbf16_S5000x128_S5000x128_0_0 : (Rect.unit (s := S5000x128) ![0, 0] S5000x128.size inb_S5000x128_S5000x128_0_0).PackedRows (EltTy.packing .bf16)
  bcast_S_S100000x128 : S_.BroadcastsInDim S100000x128 (![] : Fin 0 → Fin S100000x128.rank)
  shapeCasts_S128_S1x128 : S128.ShapeCasts S1x128
  shapeCasts_S100000_S20x1x5000 : S100000.ShapeCasts S20x1x5000
  shapeCasts_S128x128_S128x128 : S128x128.ShapeCasts S128x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  inb_S1x1x5000_S1x1x5000_0_0_0 : ∀ a, (![0, 0, 0] : Fin 3 → Nat) a + S1x1x5000.size a ≤ S1x1x5000.size a
  h_S1x1x5000 : 0 < S1x1x5000.numel
  shapeCasts_S1x1x5000_S1x1x5000 : S1x1x5000.ShapeCasts S1x1x5000
  shapeCasts_S1x1x5000_S1x5000 : S1x1x5000.ShapeCasts S1x5000
  iota_S128x5000_d0_w32 : S128x5000.Iotas .tc 32 [0]
  shapeCasts_S1x5000_S1x5000 : S1x5000.ShapeCasts S1x5000
  broadcasts_S1x5000_S128x5000 : S1x5000.Broadcasts S128x5000
  natLt_1_32 : 1 < 32
  bcast_S_S128 : S_.BroadcastsInDim S128 (![] : Fin 0 → Fin S128.rank)
  bcast_S100000_S100000x1_0 : S100000.BroadcastsInDim S100000x1 (![0] : Fin 1 → Fin S100000x1.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  scatter_S100000_S1700000x1_S1700000_n_0_0_1_wf : ScatterDims.WF S100000 S1700000x1 S1700000 [] [0] [0] 1
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S128x5000_S5000x128_S128x128_1_0_0_1_n_n_wf : DotDims.WF S128x5000 S5000x128 S128x128 [1] [0] [0] [1] [] []
  scatter_S128_S100000x1_S100000_n_0_0_1_wf : ScatterDims.WF S128 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .bf16 = 32 ∨ (Rect.block (s := S100000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x5000.size a ≤ S20x1x5000.size a
  hwx1_4 : ∀ i : grid1.Coords, EltTy.bits .i32 = 32 ∨ (Rect.block (s := S20x1x5000) S1x1x5000.size (cc1_transform_4 i) (hinb1_4 i)).WholeWords (EltTy.packing .i32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S128x5000_S5000x128_S128x128_1_0_0_1_n_n : DotDims S128x5000 S5000x128 S128x128 where
  lhsContracting := [1]
  rhsContracting := [0]
  lhsNonContracting := [0]
  rhsNonContracting := [1]
  lhsBatch := []
  rhsBatch := []
  wf := dot_S128x5000_S5000x128_S128x128_1_0_0_1_n_n_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S1x1x5000.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v31) S128x128.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x1 : Shape := ⟨2, ![100000, 1]⟩
abbrev S128x1 : Shape := ⟨2, ![128, 1]⟩

abbrev nBuf : Space → Nat
  | .hbm => 99
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S100000x128, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .i1⟩
  | .hbm, ⟨69, _⟩ => ⟨S1x128, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S_, .f32⟩
  | .hbm, ⟨75, _⟩ => ⟨S100000, .f32⟩
  | .hbm, ⟨76, _⟩ => ⟨S100000x1, .f32⟩
  | .hbm, ⟨77, _⟩ => ⟨S100000x1, .f32⟩
  | .hbm, ⟨78, _⟩ => ⟨S_, .f32⟩
  | .hbm, ⟨79, _⟩ => ⟨S100000x1, .f32⟩
  | .hbm, ⟨80, _⟩ => ⟨S100000x1, .f32⟩
  | .hbm, ⟨81, _⟩ => ⟨S100000x128, .f32⟩
  | .hbm, ⟨82, _⟩ => ⟨S100000x128, .f32⟩
  | .hbm, ⟨83, _⟩ => ⟨S_, .f32⟩
  | .hbm, ⟨84, _⟩ => ⟨S100000, .f32⟩
  | .hbm, ⟨85, _⟩ => ⟨S_, .f32⟩
  | .hbm, ⟨86, _⟩ => ⟨S128, .f32⟩
  | .hbm, ⟨87, _⟩ => ⟨S100000x1, .i32⟩
  | .hbm, ⟨88, _⟩ => ⟨S128, .f32⟩
  | .hbm, ⟨89, _⟩ => ⟨S_, .f32⟩
  | .hbm, ⟨90, _⟩ => ⟨S128x128, .f32⟩
  | .hbm, ⟨91, _⟩ => ⟨S100000x1, .i32⟩
  | .hbm, ⟨92, _⟩ => ⟨S128x128, .f32⟩
  | .hbm, ⟨93, _⟩ => ⟨S_, .f32⟩
  | .hbm, ⟨94, _⟩ => ⟨S128, .f32⟩
  | .hbm, ⟨95, _⟩ => ⟨S128, .f32⟩
  | .hbm, ⟨96, _⟩ => ⟨S128x1, .f32⟩
  | .hbm, ⟨97, _⟩ => ⟨S128x128, .f32⟩
  | .hbm, ⟨98, _⟩ => ⟨S128x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_12 : Ref sig .tc := ⟨.hbm, 83, rfl⟩
abbrev main_v61 : Ref sig .tc := ⟨.hbm, 84, rfl⟩
abbrev main_cst_13 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_14 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_15 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S_S128 : S_.BroadcastsInDim S128 (![] : Fin 0 → Fin S128.rank)
  bcast_S_S128x128 : S_.BroadcastsInDim S128x128 (![] : Fin 0 → Fin S128x128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S128_S100000x1_S100000_n_0_0_1_wf : ScatterDims.WF S128 S100000x1 S100000 [] [0] [0] 1
  scatter_S128x128_S100000x1_S100000x128_1_0_0_1_wf : ScatterDims.WF S128x128 S100000x1 S100000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def scatter_S128x128_S100000x1_S100000x128_1_0_0_1 : ScatterDims S128x128 S100000x1 S100000x128 where
  updateWindowDims := [1]
  insertedWindowDims := [0]
  scatterDimsToOperandDims := [0]
  indexVectorDim := 1
  wf := scatter_S128x128_S100000x1_S100000x128_1_0_0_1_wf

class Facts : Prop extends Facts₀ where

variable [Facts]
-- ==== Proof.K.Dat0.lean ====
/- Region 0 of the program (the linear kernel: three input windows x, W, dinv and one bf16 output window over a grid
   of 20 points): the proof data of its pipeline and the body obligation. The body's triple — on four whole staging
   buffers it runs to its return, leaving the inputs' contents and the output's at the payload of its one covering
   store — is lifted to every grid point: an input's current buffer holds the array's block there whether or not the
   point fetches it, and the output's buffer is overwritten whole. -/
import proofs.«402121_j67808943669372_2_alg».proof.Proof.Gen.Kernel.Launch
import proofs.«402121_j67808943669372_2_alg».proof.Proof.Gen.Kernel.Skeleton
import proofs.«402121_j67808943669372_2_alg».proof.Proof.Gen.Kernel.Points
import Idealize.ShloMosaic.Lib.Pipeline.FrameBody
import Idealize.ShloMosaic.Lib.Tactic
import Idealize.ShloMosaic.Lib.Pipeline.Value

set_option maxRecDepth 16384

noncomputable section

namespace Cert.GcnPool.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole-buffer rectangle -/

/-- The zero offsets of a rank-two rectangle, as the constant function. -/
theorem off2_zero : (![0, 0] : Fin 2 → Nat) = fun _ => 0 := funext fun a => by fin_cases a <;> rfl

/-! ## The body's triple -/

/-- The body on four whole staging buffers, the three inputs' at contents `x0`, `w`, `dv` and the output's at
    anything, runs to its return with the inputs' unchanged and the output's at the payload of its one
    covering store, computed from the inputs' contents read whole. -/
theorem run0 (c : Dev nD) (E : Set ℕ) (i : grid0.Coords)
    (arg1 : Memref sig .tc .vmem S5000x128 .f32) (harg1 : arg1.IsWhole)
    (arg2 : Memref sig .tc .vmem S128x128 .f32) (harg2 : arg2.IsWhole)
    (arg3 : Memref sig .tc .vmem S5000x1 .f32) (harg3 : arg3.IsWhole)
    (arg4 : Memref sig .tc .vmem S5000x128 .bf16) (harg4 : arg4.IsWhole)
    (x0 : Vec F S5000x128 .f32) (w : Vec F S128x128 .f32) (dv : Vec F S5000x1 .f32) (K : PUnit → sProp 𝕄) :
    iprop(owns (c : Thread nD τ) arg1 fullShare x0 ∗ owns (c : Thread nD τ) arg2 fullShare w
        ∗ owns (c : Thread nD τ) arg3 fullShare dv ∗ (∃ o, owns (c : Thread nD τ) arg4 fullShare o)
        ∗ (iprop(owns (c : Thread nD τ) arg1 fullShare x0 ∗ owns (c : Thread nD τ) arg2 fullShare w
            ∗ owns (c : Thread nD τ) arg3 fullShare dv ∗ owns (c : Thread nD τ) arg4 fullShare (k0_pay1 x0 w dv)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (View.read_writes_eq_canon _ _ _ (fun y => ⟨_, List.mem_singleton_self _, View.mem_set_unit_zero off2_zero inb_S5000x128_S5000x128_0_0 y⟩)).trans ?_
  rw [View.canon_unit_zero off2_zero inb_S5000x128_S5000x128_0_0]
  exact congr (congr (congrArg k0_pay1 (View.ld_unit_zero off2_zero inb_S5000x128_S5000x128_0_0 _)) (View.ld_unit_zero off2_zero inb_S128x128_S128x128_0_0 _)) (View.ld_unit_zero off2_zero inb_S5000x1_S5000x1_0_0 _)

/-! ## The proof data -/

/-- Window `w`'s block of its array at point `t`, the arrays at the contents `V`. -/
abbrev iblk0 (V : Valuation τ sig (Elt F)) (w : Fin cfg0.W) (t : Fin cfg0.N) :
    ((cfg0.win w).xblock (cfg0.grid.coords t)).Idx → Elt F (cfg0.win w).elt :=
  ((cfg0.win w).blk t).view.read (Elt F) (V (Pipeline.arrRef spec0 w))

/-- The proof data of region 0 on core `c`, the arrays at `V c`: after the body each input's buffer holds its
    block still, and the output's the payload over the three input blocks; the invariant is the scoped
    buffers no window stages; nothing owed; full shares. -/
def dat0 (V : Dev nD → Valuation τ sig (Elt F)) (c : Dev nD) : Dat τ (Elt F) Unit ℕ (UR sig nD τ) ℕ cfg0 c where
  A w := V c (Pipeline.arrRef spec0 w)
  after w t := match w with
    | ⟨0, _⟩ => iblk0 (V c) 0 t
    | ⟨1, _⟩ => iblk0 (V c) 1 t
    | ⟨2, _⟩ => iblk0 (V c) 2 t
    | ⟨3, _⟩ => k0_pay1 (iblk0 (V c) 0 t) (iblk0 (V c) 1 t) (iblk0 (V c) 2 t)
  Φ _ := Pipeline.scopedRest (Ix := Unit) (Name := ℕ) (U := UR sig nD τ) (Lvl := ℕ) (Val := Elt F) spec0 c
  q _ := fullShare
  owed _ := 0

/-- The proof data's arrays are `V c`'s. -/
theorem dat0_A (V : Dev nD → Valuation τ sig (Elt F)) (c : Dev nD) (w : Fin cfg0.W) :
    (dat0 V c).A w = V c (Pipeline.arrRef spec0 w) := by
  dsimp only [dat0]

/-- What the body leaves, window by window. -/
theorem dat0_after_0 (V : Dev nD → Valuation τ sig (Elt F)) (c : Dev nD) (t : Fin cfg0.N) :
    (dat0 V c).after 0 t = iblk0 (V c) 0 t := by dsimp only [dat0]
theorem dat0_after_1 (V : Dev nD → Valuation τ sig (Elt F)) (c : Dev nD) (t : Fin cfg0.N) :
    (dat0 V c).after 1 t = iblk0 (V c) 1 t := by dsimp only [dat0]
theorem dat0_after_2 (V : Dev nD → Valuation τ sig (Elt F)) (c : Dev nD) (t : Fin cfg0.N) :
    (dat0 V c).after 2 t = iblk0 (V c) 2 t := by dsimp only [dat0]
theorem dat0_after_3 (V : Dev nD → Valuation τ sig (Elt F)) (c : Dev nD) (t : Fin cfg0.N) :
    (dat0 V c).after 3 t = k0_pay1 (iblk0 (V c) 0 t) (iblk0 (V c) 1 t) (iblk0 (V c) 2 t) := by dsimp only [dat0]

/-- The invariant and the tallies do not depend on the point. -/
theorem dat0_Φ (V : Dev nD → Valuation τ sig (Elt F)) (c : Dev nD) (t : Fin (cfg0.N + 1)) :
    (dat0 V c).Φ t = Pipeline.scopedRest (Ix := Unit) (Name := ℕ) (U := UR sig nD τ) (Lvl := ℕ) (Val := Elt F) spec0 c := rfl
theorem dat0_owed (V : Dev nD → Valuation τ sig (Elt F)) (c : Dev nD) (t : Fin (cfg0.N + 1)) : (dat0 V c).owed t = 0 := rfl
theorem dat0_share (V : Dev nD → Valuation τ sig (Elt F)) (c : Dev nD) : ∀ w, (dat0 V c).share w = fullShare :=
  (dat0 V c).share_full fun _ => rfl

/-! ## What the body finds in each input's buffer -/

/-- An input's current buffer holds the array's block at every point, fetched there or not: unfetched, the block
    index has not moved and the body left the block in place. -/
theorem before0_0 (V : Dev nD → Valuation τ sig (Elt F)) (c : Dev nD) (t : Fin cfg0.N) (d) :
    (dat0 V c).before 0 t d = iblk0 (V c) 0 t :=
  ((dat0 V c).before_in_eq_fetched 0 rfl (fun _ => rfl) (fun _ _ _ => rfl)
      (fun t => by rw [dat0_after_0]; unfold Dat.blockOf; rw [dat0_A]) t d).trans
    (by unfold Dat.fetched Dat.blockOf; rw [dat0_A]; rfl)
theorem before0_1 (V : Dev nD → Valuation τ sig (Elt F)) (c : Dev nD) (t : Fin cfg0.N) (d) :
    (dat0 V c).before 1 t d = iblk0 (V c) 1 t :=
  ((dat0 V c).before_in_eq_fetched 1 rfl (fun _ => rfl) (fun _ _ _ => rfl)
      (fun t => by rw [dat0_after_1]; unfold Dat.blockOf; rw [dat0_A]) t d).trans
    (by unfold Dat.fetched Dat.blockOf; rw [dat0_A]; rfl)
theorem before0_2 (V : Dev nD → Valuation τ sig (Elt F)) (c : Dev nD) (t : Fin cfg0.N) (d) :
    (dat0 V c).before 2 t d = iblk0 (V c) 2 t :=
  ((dat0 V c).before_in_eq_fetched 2 rfl (fun _ => rfl) (fun _ _ _ => rfl)
      (fun t => by rw [dat0_after_2]; unfold Dat.blockOf; rw [dat0_A]) t d).trans
    (by unfold Dat.fetched Dat.blockOf; rw [dat0_A]; rfl)

/-! ## The body obligation -/

/-- What the body is handed at point `t`: the invariant, the tallies, and each window's current buffer at what
    it then holds. -/
def pre0 (V : Dev nD → Valuation τ sig (Elt F)) (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it hands back: the same at the next point, each current buffer at what the body leaves. -/
def post0 (V : Dev nD → Valuation τ sig (Elt F)) (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and
    the tallies pass through unread. -/
theorem sound0 (V : Dev nD → Valuation τ sig (Elt F)) (c : Dev nD) (t : Fin cfg0.N) :
    pre0 V c t ⊢ wp frame (wpE (defs₀ (F := F)) Variants.none c none) Set.univ (bodyAt0 t) (fun _ => post0 V c t) := by
  unfold pre0 post0 bodyAt0
  simp only [before0_0, before0_1, before0_2]
  rw [show (dat0 V c).Φ t.succ = (dat0 V c).Φ t.castSucc from rfl,
    show (dat0 V c).owesAt () t.succ = (dat0 V c).owesAt () t.castSucc from rfl,
    dat0_after_0, dat0_after_1, dat0_after_2, dat0_after_3]
  iintro ⟨HΦ, Ho, ⟨%d0, H0⟩, ⟨%d1, H1⟩, ⟨%d2, H2⟩, ⟨%d3, H3⟩⟩
  iapply (run0 c Set.univ (grid0.coords t) _ _ _ _ _ _ _ _ (iblk0 (V c) 0 t) (iblk0 (V c) 1 t) (iblk0 (V c) 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for region 0, at every point. -/
theorem body0 (V : Dev nD → Valuation τ sig (Elt F)) (c : Dev nD) :
    Pipeline.BodyObligation (dat0 V c) (defs₀ (F := F)) Variants.none () Set.univ := fun t => by
  rw [bigSep_W0, bigSep_W0]
  exact sound0 V c t

end Cert.GcnPool.K

end
-- ==== Proof.K.Dat1.lean ====
/-
  Region 1 of the program: the proof data and the body obligation.

  The region's body runs at the twenty points of a one-dimensional grid. It carries one 128×128 buffer from
  point to point: at the first point it fills it with zeros; at every point it adds to it the contribution of
  the five input blocks loaded there (rows scaled, shifted, passed through the leaky map, normalised, and
  pooled by their group labels through a one-hot product); at the last point it copies it to the output
  window's buffer, which is written back there and nowhere else. So the carried buffer after point `n` holds
  the running sum `acc1 V n`, zero plus the contributions of points `0 … n` added in order, and the output
  array ends at `acc1 V 19`.

  Stated here: the blocks (`iblk1`), a point's contribution (`contrib1`), the running sum (`acc1`), the
  invariant over the carried buffer (`Phi1`), the proof data (`dat1`) with its two ends (`dat1_in`,
  `dat1_out`), the body's run in its three control cases (`run1_A`, `run1_B`, `run1_C`), and the body
  obligation (`body1`). Everything is generic in the float family.
-/
import proofs.«402121_j67808943669372_2_alg».proof.Proof.Gen.Kernel.Launch
import proofs.«402121_j67808943669372_2_alg».proof.Proof.Gen.Kernel.Skeleton
import proofs.«402121_j67808943669372_2_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.WritesUnit
import Idealize.ShloMosaic.Lib.Tactic

set_option maxRecDepth 16384

noncomputable section

namespace Cert.GcnPool.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Reading whole buffers -/

/-- A load of a whole buffer held at the contents that read `X` reads `X`. -/
theorem readAt_unread_whole {sp : Space} {s : Shape} {e : EltTy} (m : Memref sig .tc sp s e) (h : m.IsWhole) (X : s.Idx → Elt F e)
    {off : Fin s.rank → ℕ} (ho : off = fun _ => 0) (inb : ∀ a, off a + s.size a ≤ s.size a) :
    View.readAt (Elt F) m.view (Rect.unit (s := s) off s.size inb).toLoadRect (h.unread X) = X := by
  rw [View.readAt_eq_ld, h.read_unread, View.ld_unit_zero ho]

/-- A whole-buffer store, last, leaves its payload. -/
theorem read_writes_whole {κ : Kind} {sp : Space} {s : Shape} {e : EltTy} (v : View sig κ sp s e) (f : v.ty.Contents (Elt F))
    {off : Fin s.rank → ℕ} (ho : off = fun _ => 0) (inb : ∀ a, off a + s.size a ≤ s.size a)
    (w : (Rect.unit (s := s) off s.size inb).shape.Idx → Elt F e) (L : List (View.Piece (Elt F) s e)) :
    v.read (Elt F) (v.writes (Elt F) f ((⟨Rect.unit (s := s) off s.size inb, w⟩ : View.Piece (Elt F) s e) :: L)) = w :=
  funext fun y => View.read_writes_cons_unit_of_mem v f inb w L y y ho fun a => (Nat.zero_add _).symm

theorem off2 : (![0, 0] : Fin 2 → ℕ) = fun _ => 0 := by funext a; fin_cases a <;> rfl
theorem off3 : (![0, 0, 0] : Fin 3 → ℕ) = fun _ => 0 := by funext a; fin_cases a <;> rfl

/-! ## The body's two branch conditions, decided over the grid -/

/-- The first branch condition of the body, as the body computes it: the grid coordinate is zero. -/
abbrev cond1_0 (i : grid1.Coords) : Prop := (Scalar.cmpi .ne (Scalar.extui (Scalar.cmpi .eq (BitVec.ofNat 32 (i 0).val) 0#32)) 0#32) = 1#1

/-- It holds at the first point only. -/
theorem hcond1_0 : ∀ t : Fin cfg1.N, cond1_0 (grid1.coords t) ↔ t.val = 0 :=
  (by decide +kernel : ∀ t : Fin grid1.N, cond1_0 (grid1.coords t) ↔ t.val = 0)

/-- The second branch condition holds at the last point only. -/
theorem hcond1_1 : ∀ t : Fin cfg1.N, k1_cond2 (grid1.coords t) = 1#1 ↔ t.val = 19 :=
  (by decide +kernel : ∀ t : Fin grid1.N, k1_cond2 (grid1.coords t) = 1#1 ↔ t.val = 19)

/-! ## The body's run, case by case, on any whole buffers -/

set_option maxHeartbeats 1000000 in
/-- The body at the first point: the carried buffer reset, then the point's contribution added. -/
theorem run1_A (c : Dev nD) (i : grid1.Coords)
    (arg1 : Memref sig .tc .vmem S5000x128 .f32) (harg1 : arg1.IsWhole) (arg2 : Memref sig .tc .vmem S5000x1 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x1x5000 .i32) (harg5 : arg5.IsWhole) (arg6 : Memref sig .tc .vmem S128x128 .f32) (harg6 : arg6.IsWhole)
    (arg7 : Memref sig .tc .vmem S128x128 .f32) (harg7 : arg7.IsWhole)
    (hc0 : cond1_0 i) (hc1 : ¬ k1_cond2 i = 1#1)
    (x0 : Vec F S5000x128 .f32) (x1 : Vec F S5000x1 .f32) (x2 x3 : Vec F S1x128 .f32) (x4 : Vec F S1x1x5000 .i32)
    (y5 : Vec F S128x128 .f32) (s : Vec F S128x128 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare y5
        ∗ owns (c : Thread nD τ) arg7 fullShare s
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare (y5)
            ∗ owns (c : Thread nD τ) arg7 fullShare (k1_pay1 (k1_pay3 x0 x1 x2 x3 x4) (k1_pay2 (F := F)))) -∗ K ⟨⟩))
      ⊢ wp frame (wpE (defs₀ (F := F)) Variants.none c none) E
          (cc1__postproc_kernel i arg1 harg1 arg2 harg2 arg3 harg3 arg4 harg4 arg5 harg5 arg6 harg6 arg7 harg7) K := by
  simp only [cc1__postproc_kernel_eq_skeleton]; unfold cc1__postproc_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6
  sl_exec (disch := first | exact hc0 | exact hc1)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]
  · iexists _; isplitr; swap; · iexact H5
    ipureintro
    exact hf5
  iexists _; isplitr; swap; · iexact H6
  ipureintro
  sl_unfold_run_names
  rw [read_writes_whole _ _ off2]
  dsimp only
  rw [readAt_unread_whole arg1 harg1 x0 off2, readAt_unread_whole arg2 harg2 x1 off2, readAt_unread_whole arg3 harg3 x2 off2,
    readAt_unread_whole arg4 harg4 x3 off2, readAt_unread_whole arg5 harg5 x4 off3]
  rw [View.readCov_cons_toLoadRect]

set_option maxHeartbeats 1000000 in
/-- The body at a middle point: the point's contribution added to the carried buffer. -/
theorem run1_B (c : Dev nD) (i : grid1.Coords)
    (arg1 : Memref sig .tc .vmem S5000x128 .f32) (harg1 : arg1.IsWhole) (arg2 : Memref sig .tc .vmem S5000x1 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x1x5000 .i32) (harg5 : arg5.IsWhole) (arg6 : Memref sig .tc .vmem S128x128 .f32) (harg6 : arg6.IsWhole)
    (arg7 : Memref sig .tc .vmem S128x128 .f32) (harg7 : arg7.IsWhole)
    (hc0 : ¬ cond1_0 i) (hc1 : ¬ k1_cond2 i = 1#1)
    (x0 : Vec F S5000x128 .f32) (x1 : Vec F S5000x1 .f32) (x2 x3 : Vec F S1x128 .f32) (x4 : Vec F S1x1x5000 .i32)
    (y5 : Vec F S128x128 .f32) (s : Vec F S128x128 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare y5
        ∗ owns (c : Thread nD τ) arg7 fullShare s
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare (y5)
            ∗ owns (c : Thread nD τ) arg7 fullShare (k1_pay1 (k1_pay3 x0 x1 x2 x3 x4) s)) -∗ K ⟨⟩))
      ⊢ wp frame (wpE (defs₀ (F := F)) Variants.none c none) E
          (cc1__postproc_kernel i arg1 harg1 arg2 harg2 arg3 harg3 arg4 harg4 arg5 harg5 arg6 harg6 arg7 harg7) K := by
  simp only [cc1__postproc_kernel_eq_skeleton]; unfold cc1__postproc_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6
  sl_exec (disch := first | exact hc0 | exact hc1)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]
  · iexists _; isplitr; swap; · iexact H5
    ipureintro
    exact hf5
  iexists _; isplitr; swap; · iexact H6
  ipureintro
  sl_unfold_run_names
  rw [read_writes_whole _ _ off2]
  dsimp only
  rw [readAt_unread_whole arg1 harg1 x0 off2, readAt_unread_whole arg2 harg2 x1 off2, readAt_unread_whole arg3 harg3 x2 off2,
    readAt_unread_whole arg4 harg4 x3 off2, readAt_unread_whole arg5 harg5 x4 off3]
  rw [readAt_unread_whole arg7 harg7 s off2]

set_option maxHeartbeats 1000000 in
/-- The body at the last point: the point's contribution added, the sum copied out. -/
theorem run1_C (c : Dev nD) (i : grid1.Coords)
    (arg1 : Memref sig .tc .vmem S5000x128 .f32) (harg1 : arg1.IsWhole) (arg2 : Memref sig .tc .vmem S5000x1 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x1x5000 .i32) (harg5 : arg5.IsWhole) (arg6 : Memref sig .tc .vmem S128x128 .f32) (harg6 : arg6.IsWhole)
    (arg7 : Memref sig .tc .vmem S128x128 .f32) (harg7 : arg7.IsWhole)
    (hc0 : ¬ cond1_0 i) (hc1 : k1_cond2 i = 1#1)
    (x0 : Vec F S5000x128 .f32) (x1 : Vec F S5000x1 .f32) (x2 x3 : Vec F S1x128 .f32) (x4 : Vec F S1x1x5000 .i32)
    (y5 : Vec F S128x128 .f32) (s : Vec F S128x128 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare y5
        ∗ owns (c : Thread nD τ) arg7 fullShare s
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare (k1_pay1 (k1_pay3 x0 x1 x2 x3 x4) s)
            ∗ owns (c : Thread nD τ) arg7 fullShare (k1_pay1 (k1_pay3 x0 x1 x2 x3 x4) s)) -∗ K ⟨⟩))
      ⊢ wp frame (wpE (defs₀ (F := F)) Variants.none c none) E
          (cc1__postproc_kernel i arg1 harg1 arg2 harg2 arg3 harg3 arg4 harg4 arg5 harg5 arg6 harg6 arg7 harg7) K := by
  simp only [cc1__postproc_kernel_eq_skeleton]; unfold cc1__postproc_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6
  sl_exec (disch := first | exact hc0 | exact hc1)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]
  · iexists _; isplitr; swap; · iexact H5
    ipureintro
    sl_unfold_run_names
    rw [read_writes_whole _ _ off2]
    dsimp only
    rw [View.readCov_cons_toLoadRect]
    rw [readAt_unread_whole arg1 harg1 x0 off2, readAt_unread_whole arg2 harg2 x1 off2, readAt_unread_whole arg3 harg3 x2 off2,
    readAt_unread_whole arg4 harg4 x3 off2, readAt_unread_whole arg5 harg5 x4 off3]
    rw [readAt_unread_whole arg7 harg7 s off2]
  iexists _; isplitr; swap; · iexact H6
  ipureintro
  sl_unfold_run_names
  rw [read_writes_whole _ _ off2]
  dsimp only
  rw [readAt_unread_whole arg1 harg1 x0 off2, readAt_unread_whole arg2 harg2 x1 off2, readAt_unread_whole arg3 harg3 x2 off2,
    readAt_unread_whole arg4 harg4 x3 off2, readAt_unread_whole arg5 harg5 x4 off3]
  rw [readAt_unread_whole arg7 harg7 s off2]

/-! ## The blocks, the contribution of a point, the running sum -/

/-- Window `w`'s block at point `t`, read off its array. -/
abbrev iblk1 (V : Valuation τ sig (Elt F)) (w : Fin cfg1.W) (t : Fin cfg1.N) :=
  ((cfg1.win w).blk t).view.read (Elt F) (V (Pipeline.arrRef spec1 w))

/-- What point `t` adds to the running sum: the payload of the five blocks loaded there. -/
def contrib1 (V : Valuation τ sig (Elt F)) (t : Fin cfg1.N) : FVec F S128x128 .f32 :=
  k1_pay3 (iblk1 V 0 t) (iblk1 V 1 t) (iblk1 V 2 t) (iblk1 V 3 t) (iblk1 V 4 t)

theorem N1 : cfg1.N = 20 := N_1

/-- The running sum after point `n`: zero plus the contributions of the points up to `n`, added in order. -/
def acc1 (V : Valuation τ sig (Elt F)) : ℕ → FVec F S128x128 .f32
  | 0 => k1_pay1 (contrib1 V ⟨0, by decide⟩) (k1_pay2 (F := F))
  | n + 1 => if h : n + 1 < cfg1.N then k1_pay1 (contrib1 V ⟨n + 1, h⟩) (acc1 V n) else acc1 V n

theorem acc1_zero (V : Valuation τ sig (Elt F)) :
    acc1 V 0 = k1_pay1 (contrib1 V ⟨0, by decide⟩) (k1_pay2 (F := F)) := rfl

theorem acc1_succ (V : Valuation τ sig (Elt F)) (n : ℕ) (h : n + 1 < cfg1.N) :
    acc1 V (n + 1) = k1_pay1 (contrib1 V ⟨n + 1, h⟩) (acc1 V n) := by
  rw [acc1, dif_pos h]

/-! ## The invariant: the carried buffer between points -/

/-- The scoped buffers no window stages: the carried buffer, and the rest unopened. -/
theorem scopedRest1_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

/-- What the carried buffer holds before point `n`: anything before the first point, the running sum after
    point `n - 1` later. -/
def scr1 (V : Dev nD → Valuation τ sig (Elt F)) (c : Dev nD) : ℕ → sProp 𝕄
  | 0 => iprop(∃ f : Buf (Elt F) ((c : Thread nD τ).loc cc1_scratch0), ((c : Thread nD τ).loc cc1_scratch0) ↦{fullShare} f)
  | n + 1 => owns (c : Thread nD τ) (Memref.whole cc1_scratch0) fullShare (acc1 (V c) n)

theorem scr1_zero (V : Dev nD → Valuation τ sig (Elt F)) (c : Dev nD) :
    scr1 V c 0 = iprop(∃ f : Buf (Elt F) ((c : Thread nD τ).loc cc1_scratch0), ((c : Thread nD τ).loc cc1_scratch0) ↦{fullShare} f) := rfl

theorem scr1_succ (V : Dev nD → Valuation τ sig (Elt F)) (c : Dev nD) (n : ℕ) :
    scr1 V c (n + 1) = owns (c : Thread nD τ) (Memref.whole cc1_scratch0) fullShare (acc1 (V c) n) := rfl

/-- The invariant before point `t`: the carried buffer, beside the scoped buffers the region does not touch. -/
def Phi1 (V : Dev nD → Valuation τ sig (Elt F)) (c : Dev nD) (t : Fin (cfg1.N + 1)) : sProp 𝕄 :=
  iprop(scr1 V c t.val
    ∗ Pipeline.scopedRestBut (Ix := Unit) (Name := ℕ) (U := UR sig nD τ) (Lvl := ℕ) (Val := Elt F) spec1 c [cc1_scratch0])

/-! ## The proof data -/

/-- The proof data of region 1 on core `c`: the arrays as the region finds them; after the body each input's
    buffer at its block, the output's at the running sum (read at the last point only); the invariant; nothing
    owed; full shares. -/
def dat1 (V : Dev nD → Valuation τ sig (Elt F)) (c : Dev nD) : Dat τ (Elt F) Unit ℕ (UR sig nD τ) ℕ cfg1 c where
  A w := V c (Pipeline.arrRef spec1 w)
  after w t := match w with
    | ⟨0, _⟩ => iblk1 (V c) 0 t
    | ⟨1, _⟩ => iblk1 (V c) 1 t
    | ⟨2, _⟩ => iblk1 (V c) 2 t
    | ⟨3, _⟩ => iblk1 (V c) 3 t
    | ⟨4, _⟩ => iblk1 (V c) 4 t
    | ⟨5, _⟩ => acc1 (V c) t.val
  Φ t := Phi1 V c t
  q _ := fullShare
  owed _ := 0

theorem dat1_A (V : Dev nD → Valuation τ sig (Elt F)) (c : Dev nD) (w : Fin cfg1.W) :
    (dat1 V c).A w = V c (Pipeline.arrRef spec1 w) := by dsimp only [dat1]

theorem dat1_share (V : Dev nD → Valuation τ sig (Elt F)) (c : Dev nD) : ∀ w, (dat1 V c).share w = fullShare :=
  (dat1 V c).share_full fun _ => rfl

theorem dat1_owed (V : Dev nD → Valuation τ sig (Elt F)) (c : Dev nD) (t : Fin (cfg1.N + 1)) : (dat1 V c).owed t = 0 := rfl

theorem dat1_Phi (V : Dev nD → Valuation τ sig (Elt F)) (c : Dev nD) (t : Fin (cfg1.N + 1)) : (dat1 V c).Φ t = Phi1 V c t := rfl

theorem dat1_after0 (V : Dev nD → Valuation τ sig (Elt F)) (c : Dev nD) (t : Fin cfg1.N) : (dat1 V c).after 0 t = iblk1 (V c) 0 t := by dsimp only [dat1]
theorem dat1_after1 (V : Dev nD → Valuation τ sig (Elt F)) (c : Dev nD) (t : Fin cfg1.N) : (dat1 V c).after 1 t = iblk1 (V c) 1 t := by dsimp only [dat1]
theorem dat1_after2 (V : Dev nD → Valuation τ sig (Elt F)) (c : Dev nD) (t : Fin cfg1.N) : (dat1 V c).after 2 t = iblk1 (V c) 2 t := by dsimp only [dat1]
theorem dat1_after3 (V : Dev nD → Valuation τ sig (Elt F)) (c : Dev nD) (t : Fin cfg1.N) : (dat1 V c).after 3 t = iblk1 (V c) 3 t := by dsimp only [dat1]
theorem dat1_after4 (V : Dev nD → Valuation τ sig (Elt F)) (c : Dev nD) (t : Fin cfg1.N) : (dat1 V c).after 4 t = iblk1 (V c) 4 t := by dsimp only [dat1]
theorem dat1_after5 (V : Dev nD → Valuation τ sig (Elt F)) (c : Dev nD) (t : Fin cfg1.N) : (dat1 V c).after 5 t = acc1 (V c) t.val := by dsimp only [dat1]

/-- At the last point the output's buffer is left at the whole sum. -/
theorem dat1_after5_last (V : Dev nD → Valuation τ sig (Elt F)) (c : Dev nD) :
    (dat1 V c).after 5 ⟨19, by decide⟩ = acc1 (V c) 19 := by dsimp only [dat1]

/-- The invariant's first end: what the launch hands the region. -/
theorem dat1_in (V : Dev nD → Valuation τ sig (Elt F)) (c : Dev nD) :
    (Pipeline.scopedRest (Ix := Unit) (Name := ℕ) (U := UR sig nD τ) (Lvl := ℕ) (Val := Elt F) spec1 c : sProp 𝕄) ⊢ (dat1 V c).Φ 0 := by
  rw [scopedRest1_split, dat1_Phi]
  exact .rfl

/-- The invariant's last end: the region hands the scoped buffers back. -/
theorem dat1_out (V : Dev nD → Valuation τ sig (Elt F)) (c : Dev nD) :
    (dat1 V c).Φ (Fin.last cfg1.N) ⊢ (Pipeline.scopedRest (Ix := Unit) (Name := ℕ) (U := UR sig nD τ) (Lvl := ℕ) (Val := Elt F) spec1 c : sProp 𝕄) := by
  rw [scopedRest1_split, dat1_Phi]
  unfold Phi1
  rw [show (Fin.last cfg1.N).val = 19 + 1 from rfl, scr1_succ, owns_whole_eq]
  iintro ⟨⟨%f, -, Hs⟩, Hr⟩
  isplitl [Hs]
  · iexists f; iexact Hs
  iexact Hr

/-! ## What the body finds in each input's buffer -/

/-- An input's current buffer holds the array's block at every point, fetched there or not: unfetched, the block
    index has not moved and the body left the block in place. -/
theorem before1_0 (V : Dev nD → Valuation τ sig (Elt F)) (c : Dev nD) (t : Fin cfg1.N) (d) :
    (dat1 V c).before 0 t d = iblk1 (V c) 0 t :=
  ((dat1 V c).before_in_eq_fetched 0 rfl (fun _ => rfl) (fun _ _ _ => rfl)
      (fun t => by rw [dat1_after0]; unfold Dat.blockOf; rw [dat1_A]) t d).trans
    (by unfold Dat.fetched Dat.blockOf; rw [dat1_A]; rfl)
theorem before1_1 (V : Dev nD → Valuation τ sig (Elt F)) (c : Dev nD) (t : Fin cfg1.N) (d) :
    (dat1 V c).before 1 t d = iblk1 (V c) 1 t :=
  ((dat1 V c).before_in_eq_fetched 1 rfl (fun _ => rfl) (fun _ _ _ => rfl)
      (fun t => by rw [dat1_after1]; unfold Dat.blockOf; rw [dat1_A]) t d).trans
    (by unfold Dat.fetched Dat.blockOf; rw [dat1_A]; rfl)
theorem before1_2 (V : Dev nD → Valuation τ sig (Elt F)) (c : Dev nD) (t : Fin cfg1.N) (d) :
    (dat1 V c).before 2 t d = iblk1 (V c) 2 t :=
  ((dat1 V c).before_in_eq_fetched 2 rfl (fun _ => rfl) (fun _ _ _ => rfl)
      (fun t => by rw [dat1_after2]; unfold Dat.blockOf; rw [dat1_A]) t d).trans
    (by unfold Dat.fetched Dat.blockOf; rw [dat1_A]; rfl)
theorem before1_3 (V : Dev nD → Valuation τ sig (Elt F)) (c : Dev nD) (t : Fin cfg1.N) (d) :
    (dat1 V c).before 3 t d = iblk1 (V c) 3 t :=
  ((dat1 V c).before_in_eq_fetched 3 rfl (fun _ => rfl) (fun _ _ _ => rfl)
      (fun t => by rw [dat1_after3]; unfold Dat.blockOf; rw [dat1_A]) t d).trans
    (by unfold Dat.fetched Dat.blockOf; rw [dat1_A]; rfl)
theorem before1_4 (V : Dev nD → Valuation τ sig (Elt F)) (c : Dev nD) (t : Fin cfg1.N) (d) :
    (dat1 V c).before 4 t d = iblk1 (V c) 4 t :=
  ((dat1 V c).before_in_eq_fetched 4 rfl (fun _ => rfl) (fun _ _ _ => rfl)
      (fun t => by rw [dat1_after4]; unfold Dat.blockOf; rw [dat1_A]) t d).trans
    (by unfold Dat.fetched Dat.blockOf; rw [dat1_A]; rfl)

/-! ## Where the output window is idle, and where it is written back -/

/-- The output window is idle at every point but the last, -/
theorem idle1_5 : ∀ t : Fin cfg1.N, cfg1.idle 5 (cfg1.grid.coords t) = decide (t.val ≠ 19) :=
  (by decide +kernel : ∀ t : Fin grid1.N, idle1 5 (grid1.coords t) = decide (t.val ≠ 19))
/-- where alone it is written back. -/
theorem flush1_5_eq : ∀ t : Fin cfg1.N, (cfg1.win 5).flush t = decide (t.val = 19) :=
  (by decide +kernel : ∀ t : Fin grid1.N, win1_5.flush t = decide (t.val = 19))

/-! ## The body obligation -/

/-- What the body is handed at point `t`: the invariant, the tallies, and each window's current buffer at what
    it then holds. -/
def pre1 (V : Dev nD → Valuation τ sig (Elt F)) (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- What it hands back at a point idle for the output window: the same at the next point, each input's buffer
    at what the body leaves, the output's as it was found. -/
def postIdle1 (V : Dev nD → Valuation τ sig (Elt F)) (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ (∃ d, owns (c : Thread nD τ) (st1_5 t) fullShare ((dat1 V c).before 5 t d)))

/-- What it hands back at the point that writes the output back: every current buffer at what the body leaves. -/
def postLast1 (V : Dev nD → Valuation τ sig (Elt F)) (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The carried buffer held whole at some contents is held through its whole memref at them. -/
theorem owns_scratch_of_pt (c : Dev nD) (f : Buf (Elt F) ((c : Thread nD τ).loc cc1_scratch0)) :
    (((c : Thread nD τ).loc cc1_scratch0) ↦{fullShare} f : sProp 𝕄) ⊢ owns (c : Thread nD τ) (Memref.whole cc1_scratch0) fullShare f := by
  rw [owns_whole_eq]
  iintro H; iexists f; isplitr; · ipureintro; rfl
  iexact H

set_option maxHeartbeats 800000 in
/-- The body at the first point: the carried buffer is found at anything and left at the first running sum. -/
theorem sound1_first (V : Dev nD → Valuation τ sig (Elt F)) (c : Dev nD) (hn : 0 < cfg1.N) :
    pre1 V c ⟨0, hn⟩ ⊢ wp frame (wpE (defs₀ (F := F)) Variants.none c none) Set.univ (bodyAt1 ⟨0, hn⟩) (fun _ => postIdle1 V c ⟨0, hn⟩) := by
  unfold pre1 postIdle1 bodyAt1
  simp only [before1_0, before1_1, before1_2, before1_3, before1_4]
  rw [show (dat1 V c).owesAt () (⟨0, hn⟩ : Fin cfg1.N).succ = (dat1 V c).owesAt () (⟨0, hn⟩ : Fin cfg1.N).castSucc from rfl,
    dat1_after0, dat1_after1, dat1_after2, dat1_after3, dat1_after4, dat1_Phi, dat1_Phi]
  unfold Phi1
  rw [show ((⟨0, hn⟩ : Fin cfg1.N).castSucc).val = 0 from rfl, show ((⟨0, hn⟩ : Fin cfg1.N).succ).val = 0 + 1 from rfl,
    scr1_zero, scr1_succ, acc1_zero]
  unfold contrib1
  iintro ⟨⟨⟨%fs, Hs⟩, HR⟩, Ho, ⟨%d0, H0⟩, ⟨%d1, H1⟩, ⟨%d2, H2⟩, ⟨%d3, H3⟩, ⟨%d4, H4⟩, ⟨%d5, H5⟩⟩
  ihave Hs' := owns_scratch_of_pt c fs $$ Hs
  iapply (run1_A c (grid1.coords ⟨0, hn⟩) _ _ _ _ _ _ _ _ _ _ _ _ _ _ ((hcond1_0 ⟨0, hn⟩).mpr rfl)
    (fun h => absurd ((hcond1_1 ⟨0, hn⟩).mp h) (show ¬ (0 : ℕ) = 19 by decide))
    (iblk1 (V c) 0 ⟨0, hn⟩) (iblk1 (V c) 1 ⟨0, hn⟩) (iblk1 (V c) 2 ⟨0, hn⟩) (iblk1 (V c) 3 ⟨0, hn⟩) (iblk1 (V c) 4 ⟨0, hn⟩) _ _ Set.univ _)
  isplitl [H0]; · iexact H0
  isplitl [H1]; · iexact H1
  isplitl [H2]; · iexact H2
  isplitl [H3]; · iexact H3
  isplitl [H4]; · iexact H4
  isplitl [H5]; · iexact H5
  isplitl [Hs']; · iexact Hs'
  iintro ⟨H0, H1, H2, H3, H4, H5, Hs⟩
  isplitl [Hs HR]
  · isplitl [Hs]; · iexact Hs
    iexact HR
  isplitl [Ho]; · iexact Ho
  isplitl [H0]; · iexact H0
  isplitl [H1]; · iexact H1
  isplitl [H2]; · iexact H2
  isplitl [H3]; · iexact H3
  isplitl [H4]; · iexact H4
  iexists d5; iexact H5

set_option maxHeartbeats 800000 in
/-- The body at a later point that is not the last: the carried buffer is found at the running sum and left at the next. -/
theorem sound1_mid (V : Dev nD → Valuation τ sig (Elt F)) (c : Dev nD) (n : ℕ) (hn : n + 1 < cfg1.N) (h19 : n + 1 ≠ 19) :
    pre1 V c ⟨n + 1, hn⟩ ⊢ wp frame (wpE (defs₀ (F := F)) Variants.none c none) Set.univ (bodyAt1 ⟨n + 1, hn⟩) (fun _ => postIdle1 V c ⟨n + 1, hn⟩) := by
  unfold pre1 postIdle1 bodyAt1
  simp only [before1_0, before1_1, before1_2, before1_3, before1_4]
  rw [show (dat1 V c).owesAt () (⟨n + 1, hn⟩ : Fin cfg1.N).succ = (dat1 V c).owesAt () (⟨n + 1, hn⟩ : Fin cfg1.N).castSucc from rfl,
    dat1_after0, dat1_after1, dat1_after2, dat1_after3, dat1_after4, dat1_Phi, dat1_Phi]
  unfold Phi1
  rw [show ((⟨n + 1, hn⟩ : Fin cfg1.N).castSucc).val = n + 1 from rfl, show ((⟨n + 1, hn⟩ : Fin cfg1.N).succ).val = n + 1 + 1 from rfl,
    scr1_succ, scr1_succ, acc1_succ (V c) n hn]
  unfold contrib1
  iintro ⟨⟨Hs, HR⟩, Ho, ⟨%d0, H0⟩, ⟨%d1, H1⟩, ⟨%d2, H2⟩, ⟨%d3, H3⟩, ⟨%d4, H4⟩, ⟨%d5, H5⟩⟩
  iapply (run1_B c (grid1.coords ⟨n + 1, hn⟩) _ _ _ _ _ _ _ _ _ _ _ _ _ _
    (fun h => absurd ((hcond1_0 ⟨n + 1, hn⟩).mp h) (Nat.succ_ne_zero n))
    (fun h => h19 ((hcond1_1 ⟨n + 1, hn⟩).mp h))
    (iblk1 (V c) 0 ⟨n + 1, hn⟩) (iblk1 (V c) 1 ⟨n + 1, hn⟩) (iblk1 (V c) 2 ⟨n + 1, hn⟩) (iblk1 (V c) 3 ⟨n + 1, hn⟩) (iblk1 (V c) 4 ⟨n + 1, hn⟩)
    _ (acc1 (V c) n) Set.univ _)
  isplitl [H0]; · iexact H0
  isplitl [H1]; · iexact H1
  isplitl [H2]; · iexact H2
  isplitl [H3]; · iexact H3
  isplitl [H4]; · iexact H4
  isplitl [H5]; · iexact H5
  isplitl [Hs]; · iexact Hs
  iintro ⟨H0, H1, H2, H3, H4, H5, Hs⟩
  isplitl [Hs HR]
  · isplitl [Hs]; · iexact Hs
    iexact HR
  isplitl [Ho]; · iexact Ho
  isplitl [H0]; · iexact H0
  isplitl [H1]; · iexact H1
  isplitl [H2]; · iexact H2
  isplitl [H3]; · iexact H3
  isplitl [H4]; · iexact H4
  iexists d5; iexact H5

set_option maxHeartbeats 800000 in
/-- The body at the last point: the carried buffer is found at the running sum and left at the whole sum, which the
    output's buffer is left at too. -/
theorem sound1_last (V : Dev nD → Valuation τ sig (Elt F)) (c : Dev nD) (n : ℕ) (hn : n + 1 < cfg1.N) (h19 : n + 1 = 19) :
    pre1 V c ⟨n + 1, hn⟩ ⊢ wp frame (wpE (defs₀ (F := F)) Variants.none c none) Set.univ (bodyAt1 ⟨n + 1, hn⟩) (fun _ => postLast1 V c ⟨n + 1, hn⟩) := by
  unfold pre1 postLast1 bodyAt1
  simp only [before1_0, before1_1, before1_2, before1_3, before1_4]
  rw [show (dat1 V c).owesAt () (⟨n + 1, hn⟩ : Fin cfg1.N).succ = (dat1 V c).owesAt () (⟨n + 1, hn⟩ : Fin cfg1.N).castSucc from rfl,
    dat1_after0, dat1_after1, dat1_after2, dat1_after3, dat1_after4, dat1_after5, dat1_Phi, dat1_Phi]
  unfold Phi1
  rw [show ((⟨n + 1, hn⟩ : Fin cfg1.N).castSucc).val = n + 1 from rfl, show ((⟨n + 1, hn⟩ : Fin cfg1.N).succ).val = n + 1 + 1 from rfl,
    show ((⟨n + 1, hn⟩ : Fin cfg1.N)).val = n + 1 from rfl,
    scr1_succ, scr1_succ, acc1_succ (V c) n hn]
  unfold contrib1
  iintro ⟨⟨Hs, HR⟩, Ho, ⟨%d0, H0⟩, ⟨%d1, H1⟩, ⟨%d2, H2⟩, ⟨%d3, H3⟩, ⟨%d4, H4⟩, ⟨%d5, H5⟩⟩
  iapply (run1_C c (grid1.coords ⟨n + 1, hn⟩) _ _ _ _ _ _ _ _ _ _ _ _ _ _
    (fun h => absurd ((hcond1_0 ⟨n + 1, hn⟩).mp h) (Nat.succ_ne_zero n))
    ((hcond1_1 ⟨n + 1, hn⟩).mpr h19)
    (iblk1 (V c) 0 ⟨n + 1, hn⟩) (iblk1 (V c) 1 ⟨n + 1, hn⟩) (iblk1 (V c) 2 ⟨n + 1, hn⟩) (iblk1 (V c) 3 ⟨n + 1, hn⟩) (iblk1 (V c) 4 ⟨n + 1, hn⟩)
    _ (acc1 (V c) n) Set.univ _)
  isplitl [H0]; · iexact H0
  isplitl [H1]; · iexact H1
  isplitl [H2]; · iexact H2
  isplitl [H3]; · iexact H3
  isplitl [H4]; · iexact H4
  isplitl [H5]; · iexact H5
  isplitl [Hs]; · iexact Hs
  iintro ⟨H0, H1, H2, H3, H4, H5, Hs⟩
  isplitl [Hs HR]
  · isplitl [Hs]; · iexact Hs
    iexact HR
  isplitl [Ho]; · iexact Ho
  isplitl [H0]; · iexact H0
  isplitl [H1]; · iexact H1
  isplitl [H2]; · iexact H2
  isplitl [H3]; · iexact H3
  isplitl [H4]; · iexact H4
  iexact H5

/-- The library's body obligation for region 1, at every point. -/
theorem body1 (V : Dev nD → Valuation τ sig (Elt F)) (c : Dev nD) :
    Pipeline.BodyObligation (dat1 V c) (defs₀ (F := F)) Variants.none () Set.univ := fun t => by
  rw [bigSep_W1, bigSep_W1]
  obtain ⟨n, hn⟩ := t
  by_cases h19 : n = 19
  · have hi : cfg1.idle 5 (cfg1.grid.coords ⟨n, hn⟩) = false := (idle1_5 ⟨n, hn⟩).trans (decide_eq_false (fun h => h h19))
    rw [hi]
    cases n with
    | zero => exact absurd h19 (by decide)
    | succ n => exact sound1_last V c n hn h19
  · have hi : cfg1.idle 5 (cfg1.grid.coords ⟨n, hn⟩) = true := (idle1_5 ⟨n, hn⟩).trans (decide_eq_true h19)
    have hf : (cfg1.win 5).flush ⟨n, hn⟩ = false := (flush1_5_eq ⟨n, hn⟩).trans (decide_eq_false h19)
    rw [hi, hf]
    cases n with
    | zero => exact sound1_first V c hn
    | succ n => exact sound1_mid V c n hn h19

end Cert.GcnPool.K

end
-- ==== Proof.K.Launch.lean ====
/-
  The two kernel regions as segments of @main, and the program's run.

  Between two items of @main a core holds every buffer that is not scoped to a kernel at a VALUATION: the launch
  contents pushed through the host stretches, and, at a region's exit, updated at the one array the region writes
  (region 0: the scaled product `main_v16`; region 1: the pooled sums `main_v31`) with what the pipeline's
  write-backs leave there (`Dat.arrAt … N`). A region is entered by splitting its windows' arrays out of that
  valuation and left by putting them back; nothing is owed to another core and no kernel has a semaphore of its own.
-/
import proofs.«402121_j67808943669372_2_alg».proof.Proof.K.RunCond
import proofs.«402121_j67808943669372_2_alg».proof.Proof.K.Dat0
import proofs.«402121_j67808943669372_2_alg».proof.Proof.K.Dat1
import Idealize.ShloMosaic.Lib.Pipeline.RegionsLoop
import Idealize.ShloMosaic.Lib.Pipeline.Kit

noncomputable section

namespace Cert.GcnPool.K

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The valuations at the regions' ends -/

/-- What region 0 leaves in its output array: the write-backs of all twenty points folded. -/
def out0 (c : Dev nD) : Buf (Elt F) ((c : Thread nD τ).loc main_v16) := (dat0 (V3 m) c).arrAt 3 cfg0.N
/-- Core `c`'s unscoped buffers at region 0's exit. -/
def W4 (c : Dev nD) : Valuation τ sig (Elt F) := Function.update (V3 m c) main_v16 (out0 m c)
/-- … after the host stretch between the regions (region 1's entry). -/
abbrev W5 (c : Dev nD) : Valuation τ sig (Elt F) := StableHlo.after hostOps1 (W4 m c)
/-- What region 1 leaves in its output array. -/
def out1 (c : Dev nD) : Buf (Elt F) ((c : Thread nD τ).loc main_v31) := (dat1 (W5 m) c).arrAt 5 cfg1.N
/-- Core `c`'s unscoped buffers at region 1's exit. -/
def W6 (c : Dev nD) : Valuation τ sig (Elt F) := Function.update (W5 m c) main_v31 (out1 m c)
/-- … and at the end of @main. -/
abbrev W7 (c : Dev nD) : Valuation τ sig (Elt F) := StableHlo.after hostOps2 (W6 m c)

/-- The same valuations read at the TensorCore's references (what the pipelines' proof data and the library's
    splitting lemmas take). -/
abbrev V3r (c : Dev nD) : (b : Ref sig .tc) → Buf (Elt F) ((c : Thread nD τ).loc b) := fun b => V3 m c b
abbrev W4r (c : Dev nD) : (b : Ref sig .tc) → Buf (Elt F) ((c : Thread nD τ).loc b) := fun b => W4 m c b
abbrev W5r (c : Dev nD) : (b : Ref sig .tc) → Buf (Elt F) ((c : Thread nD τ).loc b) := fun b => W5 m c b
abbrev W6r (c : Dev nD) : (b : Ref sig .tc) → Buf (Elt F) ((c : Thread nD τ).loc b) := fun b => W6 m c b

/-- The contents the regions leave, as the unknowns the conditional run is stated over. -/
def outsK : Outs (F := F) := fun J r c => if J = 4 then W4 m c r else W6 m c r

theorem W4_out (c : Dev nD) : W4 m c main_v16 = out0 m c := by unfold W4; exact Function.update_self ..
theorem W6_out (c : Dev nD) : W6 m c main_v31 = out1 m c := by unfold W6; exact Function.update_self ..

theorem V4_eq (c : Dev nD) : V4 m (outsK m) c = W4 m c := by
  show Function.update (V3 m c) main_v16 (outsK m 4 main_v16 c) = _
  rw [show outsK m 4 main_v16 c = W4 m c main_v16 from if_pos rfl, W4_out]; rfl
theorem V5_eq (c : Dev nD) : V5 m (outsK m) c = W5 m c := by
  show StableHlo.after hostOps1 (V4 m (outsK m) c) = _; rw [V4_eq]
theorem V6_eq (c : Dev nD) : V6 m (outsK m) c = W6 m c := by
  show Function.update (V5 m (outsK m) c) main_v31 (outsK m 6 main_v31 c) = _
  rw [V5_eq, show outsK m 6 main_v31 c = W6 m c main_v31 from if_neg (by decide), W6_out]; rfl
theorem V7_eq (c : Dev nD) : V7 m (outsK m) c = W7 m c := by
  show StableHlo.after hostOps2 (V6 m (outsK m) c) = _; rw [V6_eq]

/-! ## The proof data family -/

/-- Both pipelines' proof data, each at its region's entry contents: a literal match on the pipeline. -/
def pdats : (p : Fin 2) → (c : Dev nD) → Dat τ (Elt F) Unit ℕ (UR sig nD τ) ℕ (cfgs p) c
  | ⟨0, _⟩ => fun c => dat0 (V3 m) c
  | ⟨1, _⟩ => fun c => dat1 (W5 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's `owes`, at nothing. -/
abbrev R (c : Dev nD) : sProp 𝕄 := iprop(∃ W, owes (c : Thread nD τ) (0 : CellTallies nD τ sig Unit) W)

/-! ## The arrays at the regions' exits -/

/-- The references of region 0's windows' arrays other than its output are not the output's. -/
theorem ne0 (w : Fin cfg0.W) (hw : w ≠ 3) : (Proc.devRef .tc (Pipeline.arrRef spec0 w) : DevRef τ sig) ≠ Proc.devRef .tc main_v16 :=
  StableHlo.devRef_ne_of_ne (by revert w; decide)
theorem ne1 (w : Fin cfg1.W) (hw : w ≠ 5) : (Proc.devRef .tc (Pipeline.arrRef spec1 w) : DevRef τ sig) ≠ Proc.devRef .tc main_v31 :=
  StableHlo.devRef_ne_of_ne (by revert w; decide)

/-- At region 0's exit each of its arrays holds what the pipeline leaves: an input as entered, the output the fold of
    its write-backs. -/
theorem hF0 (c : Dev nD) (w : Fin cfg0.W) : (pdats m 0 c).arrAt w cfg0.N = W4r m c (Pipeline.arrRef spec0 w) := by
  by_cases hw : w = 3
  · subst hw; exact (W4_out m c).symm
  · have hin : (cfg0.win w).isOut = false := by revert w; decide
    refine ((pdats m 0 c).arrAt_in w hin _).trans ?_
    refine (show (dat0 (V3 m) c).A w = V3 m c (Pipeline.arrRef spec0 w) from dat0_A (V3 m) c w).trans ?_
    show _ = Function.update (V3 m c) (Proc.devRef .tc main_v16) (out0 m c) (Proc.devRef .tc (Pipeline.arrRef spec0 w))
    exact (Function.update_of_ne (ne0 w hw) (out0 m c) (V3 m c)).symm
/-- Every other buffer is as entered. -/
theorem hrest0 (c : Dev nD) : ∀ b, b ∉ Finset.univ.image (Pipeline.arrRef spec0) → W4r m c b = V3r m c b := fun b hb => by
  show Function.update (V3 m c) (Proc.devRef .tc main_v16) (out0 m c) (Proc.devRef .tc b) = V3 m c (Proc.devRef .tc b)
  exact Function.update_of_ne (StableHlo.devRef_ne_of_ne fun e => hb (Finset.mem_image.mpr ⟨3, Finset.mem_univ _, e.symm⟩)) _ _

theorem hF1 (c : Dev nD) (w : Fin cfg1.W) : (pdats m 1 c).arrAt w cfg1.N = W6r m c (Pipeline.arrRef spec1 w) := by
  by_cases hw : w = 5
  · subst hw; exact (W6_out m c).symm
  · have hin : (cfg1.win w).isOut = false := by revert w; decide
    refine ((pdats m 1 c).arrAt_in w hin _).trans ?_
    refine (show (dat1 (W5 m) c).A w = W5 m c (Pipeline.arrRef spec1 w) from dat1_A (W5 m) c w).trans ?_
    show _ = Function.update (W5 m c) (Proc.devRef .tc main_v31) (out1 m c) (Proc.devRef .tc (Pipeline.arrRef spec1 w))
    exact (Function.update_of_ne (ne1 w hw) (out1 m c) (W5 m c)).symm
theorem hrest1 (c : Dev nD) : ∀ b, b ∉ Finset.univ.image (Pipeline.arrRef spec1) → W6r m c b = W5r m c b := fun b hb => by
  show Function.update (W5 m c) (Proc.devRef .tc main_v31) (out1 m c) (Proc.devRef .tc b) = W5 m c (Proc.devRef .tc b)
  exact Function.update_of_ne (StableHlo.devRef_ne_of_ne fun e => hb (Finset.mem_image.mpr ⟨5, Finset.mem_univ _, e.symm⟩)) _ _

/-! ## The regions as segments -/

-- a library lemma stated over the pinned configuration unifies with the printed one only when unification may unfold
-- plain definitions in a metavariable's type
set_option backward.isDefEq.respectTransparency.types false in
/-- Region 0 over the thread state: entered from every unscoped buffer at its entry valuation, left at the exit
    valuation. Its arrays are split out of the unscoped buffers and put back at the exit contents; nothing is owed;
    the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body0 (V3 m) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (W4 m c) ∗ R c)
  X _ := iprop(emp)
  Y _ := iprop(emp)
  Z c := Pipeline.unscopedRest (Ix := Unit) (Name := ℕ) (U := UR sig nD τ) (Lvl := ℕ) spec0 c (V3r m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3r m c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 0 c).Φ 0 = Pipeline.scopedRest (Ix := Unit) (Name := ℕ) (U := UR sig nD τ) (Lvl := ℕ) (Val := Elt F) spec0 c from rfl]
    iintro ⟨-, -, Hr⟩
    iexact Hr
  hout c := by
    rw [Pipeline.ownSems0_none, show (pdats m 0 c).Φ (Fin.last _) = Pipeline.scopedRest (Ix := Unit) (Name := ℕ) (U := UR sig nD τ) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3r m c) (W4r m c) ((pdats m 0 c).arrAt · cfg0.N) (hF0 m c) (hrest0 m c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every unscoped buffer at its entry valuation, left at the exit
    valuation. Its arrays are split out of the unscoped buffers and put back at the exit contents; nothing is owed;
    the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body1 (W5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X _ := iprop(emp)
  Y _ := iprop(emp)
  Z c := Pipeline.unscopedRest (Ix := Unit) (Name := ℕ) (U := UR sig nD τ) (Lvl := ℕ) spec1 c (W5r m c)
  hentry c := by
    rw [Pipeline.ownSems0_none]
    have hsplit := Pipeline.arrays_of_unscopedBufs (p := 1) (pcfgs (F := F)) adm (pdats m) launch1.win launch1.arr_whole c
      ((pdats m 1 c).share_full fun _ => rfl) (W5r m c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 1 c).Φ 0 = (dat1 (W5 m) c).Φ 0 from rfl]
    iintro ⟨-, -, Hr⟩
    iapply (dat1_in (W5 m) c)
    iexact Hr
  hout c := by
    rw [Pipeline.ownSems0_none, show (pdats m 1 c).Φ (Fin.last _) = (dat1 (W5 m) c).Φ (Fin.last cfg1.N) from rfl]
    iintro HΦ
    isplitr; · iempintro
    isplitr; · iempintro
    iapply (dat1_out (W5 m) c)
    iexact HΦ
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (W5r m c) (W6r m c) ((pdats m 1 c).arrAt · cfg1.N) (hF1 m c) (hrest1 m c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-! ## The run -/

-- the launch theorem's implicit arguments are found by unifying its conclusion with this one
set_option backward.isDefEq.respectTransparency.types false in
/-- From any memory with zero counters every weakly fair execution of @main terminates, nothing faulting, and every
    buffer that is not scoped to a kernel ends at the last valuation `W7`. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W7 m c b) := by
  have h := run_cond (F := F) m (Ix := Unit) (U := UR sig nD τ) (Lvl := ℕ) emb₁ () 𝒱₀ L lv (fun _ _ => rfl) ρ (outsK m) (pdats m)
    (O₀ := fun _ => 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      have hone : ∀ c : Dev nD, (iprop(unscopedSems0 c ∗ owes (c : Thread nD τ) (0 : CellTallies nD τ sig Unit) ∅
            ∗ Pipeline.launchCred (fun _ : Dev nD => (0 : CellTallies nD τ sig Unit)) c ∗ prngReg c (ρ c) ∗ iprop(emp)) : sProp 𝕄)
          ⊢ R c := fun c => by
        iintro ⟨-, HO, -, -, -⟩
        iexists ∅; iexact HO
      have hmono : (bigSep Finset.univ fun c : Dev nD => iprop(unscopedSems0 c ∗ owes (c : Thread nD τ) (0 : CellTallies nD τ sig Unit) ∅
            ∗ Pipeline.launchCred (fun _ : Dev nD => (0 : CellTallies nD τ sig Unit)) c ∗ prngReg c (ρ c) ∗ iprop(emp)))
          ⊢ (bigSep Finset.univ (fun c : Dev nD => R c) : sProp 𝕄) :=
        bigSep_mono fun c _ => hone c
      iintro ⟨H, -⟩
      imodintro
      iapply hmono
      iexact H)
    (hE2 := fun c => .rfl)
    (R0 := reg0 m) (hpre0 := fun c => .rfl) (hpost0 := fun c => by rw [V4_eq]; exact .rfl)
    (R1 := reg1 m) (hpre1 := fun c => by rw [V5_eq]; exact .rfl) (hpost1 := fun c => by rw [V6_eq]; exact .rfl)
  refine (θ_run defs _ _).mono (fun r hr c b hb => ?_) h
  rw [← V7_eq]; exact hr c b hb

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: the six arguments end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r hr c => ?_) (run_all m ρ)
  have key : ∀ (a : Ref sig .tc) (ha : ¬ (Proc.devRef .tc a : DevRef τ sig).isScoped), r.2.mem ((c.tc : Thread nD τ).loc a) = V7 m (outsK m) c a :=
    fun a ha => (hr c _ (mem_uc a ha)).trans (congrFun (V7_eq m c).symm _)
  exact ⟨(key main_arg0 (by decide)).trans (V7_main_arg0 m _ c), (key main_arg1 (by decide)).trans (V7_main_arg1 m _ c),
    (key main_arg2 (by decide)).trans (V7_main_arg2 m _ c), (key main_arg3 (by decide)).trans (V7_main_arg3 m _ c),
    (key main_arg4 (by decide)).trans (V7_main_arg4 m _ c), (key main_arg5 (by decide)).trans (V7_main_arg5 m _ c)⟩

/-- The run with the result buffer named: besides the arguments, the result ends at the last valuation's value. -/
theorem run_result (ρ : Dev nD → PrngReg) :
    θ_run defs (onTc (τ := τ) (main (F := F))) ⟨m, fun _ => 0, ρ⟩ (fun r => ∀ c : Dev nD,
      r.2.mem ((c.tc : Thread nD τ).loc main_v40) = W7 m c main_v40
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r hr c => ?_) (run_all m ρ)
  have key : ∀ (a : Ref sig .tc) (ha : ¬ (Proc.devRef .tc a : DevRef τ sig).isScoped), r.2.mem ((c.tc : Thread nD τ).loc a) = V7 m (outsK m) c a :=
    fun a ha => (hr c _ (mem_uc a ha)).trans (congrFun (V7_eq m c).symm _)
  exact ⟨hr c _ (mem_uc main_v40 (by decide)),
    (key main_arg0 (by decide)).trans (V7_main_arg0 m _ c), (key main_arg1 (by decide)).trans (V7_main_arg1 m _ c),
    (key main_arg2 (by decide)).trans (V7_main_arg2 m _ c), (key main_arg3 (by decide)).trans (V7_main_arg3 m _ c),
    (key main_arg4 (by decide)).trans (V7_main_arg4 m _ c), (key main_arg5 (by decide)).trans (V7_main_arg5 m _ c)⟩

end Cert.GcnPool.K

end
-- ==== Proof.KI.Dat0.lean ====
/- Region 0 of the program (the linear kernel: three input windows x, W, dinv and one bf16 output window over a grid
   of 20 points): the proof data of its pipeline and the body obligation. The body's triple — on four whole staging
   buffers it runs to its return, leaving the inputs' contents and the output's at the payload of its one covering
   store — is lifted to every grid point: an input's current buffer holds the array's block there whether or not the
   point fetches it, and the output's buffer is overwritten whole. -/
import proofs.«402121_j67808943669372_2_alg».proof.Proof.Gen.KernelIdeal.Launch
import proofs.«402121_j67808943669372_2_alg».proof.Proof.Gen.KernelIdeal.Skeleton
import proofs.«402121_j67808943669372_2_alg».proof.Proof.Gen.KernelIdeal.Points
import Idealize.ShloMosaic.Lib.Pipeline.FrameBody
import Idealize.ShloMosaic.Lib.Tactic
import Idealize.ShloMosaic.Lib.Pipeline.Value

set_option maxRecDepth 16384

noncomputable section

namespace Cert.GcnPool.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The whole-buffer rectangle -/

/-- The zero offsets of a rank-two rectangle, as the constant function. -/
theorem off2_zero : (![0, 0] : Fin 2 → Nat) = fun _ => 0 := funext fun a => by fin_cases a <;> rfl

/-! ## The body's triple -/

/-- The body on four whole staging buffers, the three inputs' at contents `x0`, `w`, `dv` and the output's at
    anything, runs to its return with the inputs' unchanged and the output's at the payload of its one
    covering store, computed from the inputs' contents read whole. -/
theorem run0 (c : Dev nD) (E : Set ℕ) (i : grid0.Coords)
    (arg1 : Memref sig .tc .vmem S5000x128 .f32) (harg1 : arg1.IsWhole)
    (arg2 : Memref sig .tc .vmem S128x128 .f32) (harg2 : arg2.IsWhole)
    (arg3 : Memref sig .tc .vmem S5000x1 .f32) (harg3 : arg3.IsWhole)
    (arg4 : Memref sig .tc .vmem S5000x128 .bf16) (harg4 : arg4.IsWhole)
    (x0 : Vec F S5000x128 .f32) (w : Vec F S128x128 .f32) (dv : Vec F S5000x1 .f32) (K : PUnit → sProp 𝕄) :
    iprop(owns (c : Thread nD τ) arg1 fullShare x0 ∗ owns (c : Thread nD τ) arg2 fullShare w
        ∗ owns (c : Thread nD τ) arg3 fullShare dv ∗ (∃ o, owns (c : Thread nD τ) arg4 fullShare o)
        ∗ (iprop(owns (c : Thread nD τ) arg1 fullShare x0 ∗ owns (c : Thread nD τ) arg2 fullShare w
            ∗ owns (c : Thread nD τ) arg3 fullShare dv ∗ owns (c : Thread nD τ) arg4 fullShare (k0_pay1 x0 w dv)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (View.read_writes_eq_canon _ _ _ (fun y => ⟨_, List.mem_singleton_self _, View.mem_set_unit_zero off2_zero inb_S5000x128_S5000x128_0_0 y⟩)).trans ?_
  rw [View.canon_unit_zero off2_zero inb_S5000x128_S5000x128_0_0]
  exact congr (congr (congrArg k0_pay1 (View.ld_unit_zero off2_zero inb_S5000x128_S5000x128_0_0 _)) (View.ld_unit_zero off2_zero inb_S128x128_S128x128_0_0 _)) (View.ld_unit_zero off2_zero inb_S5000x1_S5000x1_0_0 _)

/-! ## The proof data -/

/-- Window `w`'s block of its array at point `t`, the arrays at the contents `V`. -/
abbrev iblk0 (V : Valuation τ sig (Elt F)) (w : Fin cfg0.W) (t : Fin cfg0.N) :
    ((cfg0.win w).xblock (cfg0.grid.coords t)).Idx → Elt F (cfg0.win w).elt :=
  ((cfg0.win w).blk t).view.read (Elt F) (V (Pipeline.arrRef spec0 w))

/-- The proof data of region 0 on core `c`, the arrays at `V c`: after the body each input's buffer holds its
    block still, and the output's the payload over the three input blocks; the invariant is the scoped
    buffers no window stages; nothing owed; full shares. -/
def dat0 (V : Dev nD → Valuation τ sig (Elt F)) (c : Dev nD) : Dat τ (Elt F) Unit ℕ (UR sig nD τ) ℕ cfg0 c where
  A w := V c (Pipeline.arrRef spec0 w)
  after w t := match w with
    | ⟨0, _⟩ => iblk0 (V c) 0 t
    | ⟨1, _⟩ => iblk0 (V c) 1 t
    | ⟨2, _⟩ => iblk0 (V c) 2 t
    | ⟨3, _⟩ => k0_pay1 (iblk0 (V c) 0 t) (iblk0 (V c) 1 t) (iblk0 (V c) 2 t)
  Φ _ := Pipeline.scopedRest (Ix := Unit) (Name := ℕ) (U := UR sig nD τ) (Lvl := ℕ) (Val := Elt F) spec0 c
  q _ := fullShare
  owed _ := 0

/-- The proof data's arrays are `V c`'s. -/
theorem dat0_A (V : Dev nD → Valuation τ sig (Elt F)) (c : Dev nD) (w : Fin cfg0.W) :
    (dat0 V c).A w = V c (Pipeline.arrRef spec0 w) := by
  dsimp only [dat0]

/-- What the body leaves, window by window. -/
theorem dat0_after_0 (V : Dev nD → Valuation τ sig (Elt F)) (c : Dev nD) (t : Fin cfg0.N) :
    (dat0 V c).after 0 t = iblk0 (V c) 0 t := by dsimp only [dat0]
theorem dat0_after_1 (V : Dev nD → Valuation τ sig (Elt F)) (c : Dev nD) (t : Fin cfg0.N) :
    (dat0 V c).after 1 t = iblk0 (V c) 1 t := by dsimp only [dat0]
theorem dat0_after_2 (V : Dev nD → Valuation τ sig (Elt F)) (c : Dev nD) (t : Fin cfg0.N) :
    (dat0 V c).after 2 t = iblk0 (V c) 2 t := by dsimp only [dat0]
theorem dat0_after_3 (V : Dev nD → Valuation τ sig (Elt F)) (c : Dev nD) (t : Fin cfg0.N) :
    (dat0 V c).after 3 t = k0_pay1 (iblk0 (V c) 0 t) (iblk0 (V c) 1 t) (iblk0 (V c) 2 t) := by dsimp only [dat0]

/-- The invariant and the tallies do not depend on the point. -/
theorem dat0_Φ (V : Dev nD → Valuation τ sig (Elt F)) (c : Dev nD) (t : Fin (cfg0.N + 1)) :
    (dat0 V c).Φ t = Pipeline.scopedRest (Ix := Unit) (Name := ℕ) (U := UR sig nD τ) (Lvl := ℕ) (Val := Elt F) spec0 c := rfl
theorem dat0_owed (V : Dev nD → Valuation τ sig (Elt F)) (c : Dev nD) (t : Fin (cfg0.N + 1)) : (dat0 V c).owed t = 0 := rfl
theorem dat0_share (V : Dev nD → Valuation τ sig (Elt F)) (c : Dev nD) : ∀ w, (dat0 V c).share w = fullShare :=
  (dat0 V c).share_full fun _ => rfl

/-! ## What the body finds in each input's buffer -/

/-- An input's current buffer holds the array's block at every point, fetched there or not: unfetched, the block
    index has not moved and the body left the block in place. -/
theorem before0_0 (V : Dev nD → Valuation τ sig (Elt F)) (c : Dev nD) (t : Fin cfg0.N) (d) :
    (dat0 V c).before 0 t d = iblk0 (V c) 0 t :=
  ((dat0 V c).before_in_eq_fetched 0 rfl (fun _ => rfl) (fun _ _ _ => rfl)
      (fun t => by rw [dat0_after_0]; unfold Dat.blockOf; rw [dat0_A]) t d).trans
    (by unfold Dat.fetched Dat.blockOf; rw [dat0_A]; rfl)
theorem before0_1 (V : Dev nD → Valuation τ sig (Elt F)) (c : Dev nD) (t : Fin cfg0.N) (d) :
    (dat0 V c).before 1 t d = iblk0 (V c) 1 t :=
  ((dat0 V c).before_in_eq_fetched 1 rfl (fun _ => rfl) (fun _ _ _ => rfl)
      (fun t => by rw [dat0_after_1]; unfold Dat.blockOf; rw [dat0_A]) t d).trans
    (by unfold Dat.fetched Dat.blockOf; rw [dat0_A]; rfl)
theorem before0_2 (V : Dev nD → Valuation τ sig (Elt F)) (c : Dev nD) (t : Fin cfg0.N) (d) :
    (dat0 V c).before 2 t d = iblk0 (V c) 2 t :=
  ((dat0 V c).before_in_eq_fetched 2 rfl (fun _ => rfl) (fun _ _ _ => rfl)
      (fun t => by rw [dat0_after_2]; unfold Dat.blockOf; rw [dat0_A]) t d).trans
    (by unfold Dat.fetched Dat.blockOf; rw [dat0_A]; rfl)

/-! ## The body obligation -/

/-- What the body is handed at point `t`: the invariant, the tallies, and each window's current buffer at what
    it then holds. -/
def pre0 (V : Dev nD → Valuation τ sig (Elt F)) (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it hands back: the same at the next point, each current buffer at what the body leaves. -/
def post0 (V : Dev nD → Valuation τ sig (Elt F)) (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and
    the tallies pass through unread. -/
theorem sound0 (V : Dev nD → Valuation τ sig (Elt F)) (c : Dev nD) (t : Fin cfg0.N) :
    pre0 V c t ⊢ wp frame (wpE (defs₀ (F := F)) Variants.none c none) Set.univ (bodyAt0 t) (fun _ => post0 V c t) := by
  unfold pre0 post0 bodyAt0
  simp only [before0_0, before0_1, before0_2]
  rw [show (dat0 V c).Φ t.succ = (dat0 V c).Φ t.castSucc from rfl,
    show (dat0 V c).owesAt () t.succ = (dat0 V c).owesAt () t.castSucc from rfl,
    dat0_after_0, dat0_after_1, dat0_after_2, dat0_after_3]
  iintro ⟨HΦ, Ho, ⟨%d0, H0⟩, ⟨%d1, H1⟩, ⟨%d2, H2⟩, ⟨%d3, H3⟩⟩
  iapply (run0 c Set.univ (grid0.coords t) _ _ _ _ _ _ _ _ (iblk0 (V c) 0 t) (iblk0 (V c) 1 t) (iblk0 (V c) 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for region 0, at every point. -/
theorem body0 (V : Dev nD → Valuation τ sig (Elt F)) (c : Dev nD) :
    Pipeline.BodyObligation (dat0 V c) (defs₀ (F := F)) Variants.none () Set.univ := fun t => by
  rw [bigSep_W0, bigSep_W0]
  exact sound0 V c t

end Cert.GcnPool.KI

end
-- ==== Proof.KI.Dat1.lean ====
/-
  Region 1 of the program: the proof data and the body obligation.

  The region's body runs at the twenty points of a one-dimensional grid. It carries one 128×128 buffer from
  point to point: at the first point it fills it with zeros; at every point it adds to it the contribution of
  the five input blocks loaded there (rows scaled, shifted, passed through the leaky map, normalised, and
  pooled by their group labels through a one-hot product); at the last point it copies it to the output
  window's buffer, which is written back there and nowhere else. So the carried buffer after point `n` holds
  the running sum `acc1 V n`, zero plus the contributions of points `0 … n` added in order, and the output
  array ends at `acc1 V 19`.

  Stated here: the blocks (`iblk1`), a point's contribution (`contrib1`), the running sum (`acc1`), the
  invariant over the carried buffer (`Phi1`), the proof data (`dat1`) with its two ends (`dat1_in`,
  `dat1_out`), the body's run in its three control cases (`run1_A`, `run1_B`, `run1_C`), and the body
  obligation (`body1`). Everything is generic in the float family.
-/
import proofs.«402121_j67808943669372_2_alg».proof.Proof.Gen.KernelIdeal.Launch
import proofs.«402121_j67808943669372_2_alg».proof.Proof.Gen.KernelIdeal.Skeleton
import proofs.«402121_j67808943669372_2_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.WritesUnit
import Idealize.ShloMosaic.Lib.Tactic

set_option maxRecDepth 16384

noncomputable section

namespace Cert.GcnPool.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## Reading whole buffers -/

/-- A load of a whole buffer held at the contents that read `X` reads `X`. -/
theorem readAt_unread_whole {sp : Space} {s : Shape} {e : EltTy} (m : Memref sig .tc sp s e) (h : m.IsWhole) (X : s.Idx → Elt F e)
    {off : Fin s.rank → ℕ} (ho : off = fun _ => 0) (inb : ∀ a, off a + s.size a ≤ s.size a) :
    View.readAt (Elt F) m.view (Rect.unit (s := s) off s.size inb).toLoadRect (h.unread X) = X := by
  rw [View.readAt_eq_ld, h.read_unread, View.ld_unit_zero ho]

/-- A whole-buffer store, last, leaves its payload. -/
theorem read_writes_whole {κ : Kind} {sp : Space} {s : Shape} {e : EltTy} (v : View sig κ sp s e) (f : v.ty.Contents (Elt F))
    {off : Fin s.rank → ℕ} (ho : off = fun _ => 0) (inb : ∀ a, off a + s.size a ≤ s.size a)
    (w : (Rect.unit (s := s) off s.size inb).shape.Idx → Elt F e) (L : List (View.Piece (Elt F) s e)) :
    v.read (Elt F) (v.writes (Elt F) f ((⟨Rect.unit (s := s) off s.size inb, w⟩ : View.Piece (Elt F) s e) :: L)) = w :=
  funext fun y => View.read_writes_cons_unit_of_mem v f inb w L y y ho fun a => (Nat.zero_add _).symm

theorem off2 : (![0, 0] : Fin 2 → ℕ) = fun _ => 0 := by funext a; fin_cases a <;> rfl
theorem off3 : (![0, 0, 0] : Fin 3 → ℕ) = fun _ => 0 := by funext a; fin_cases a <;> rfl

/-! ## The body's two branch conditions, decided over the grid -/

/-- The first branch condition of the body, as the body computes it: the grid coordinate is zero. -/
abbrev cond1_0 (i : grid1.Coords) : Prop := (Scalar.cmpi .ne (Scalar.extui (Scalar.cmpi .eq (BitVec.ofNat 32 (i 0).val) 0#32)) 0#32) = 1#1

/-- It holds at the first point only. -/
theorem hcond1_0 : ∀ t : Fin cfg1.N, cond1_0 (grid1.coords t) ↔ t.val = 0 :=
  (by decide +kernel : ∀ t : Fin grid1.N, cond1_0 (grid1.coords t) ↔ t.val = 0)

/-- The second branch condition holds at the last point only. -/
theorem hcond1_1 : ∀ t : Fin cfg1.N, k1_cond2 (grid1.coords t) = 1#1 ↔ t.val = 19 :=
  (by decide +kernel : ∀ t : Fin grid1.N, k1_cond2 (grid1.coords t) = 1#1 ↔ t.val = 19)

/-! ## The body's run, case by case, on any whole buffers -/

set_option maxHeartbeats 1000000 in
/-- The body at the first point: the carried buffer reset, then the point's contribution added. -/
theorem run1_A (c : Dev nD) (i : grid1.Coords)
    (arg1 : Memref sig .tc .vmem S5000x128 .f32) (harg1 : arg1.IsWhole) (arg2 : Memref sig .tc .vmem S5000x1 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x1x5000 .i32) (harg5 : arg5.IsWhole) (arg6 : Memref sig .tc .vmem S128x128 .f32) (harg6 : arg6.IsWhole)
    (arg7 : Memref sig .tc .vmem S128x128 .f32) (harg7 : arg7.IsWhole)
    (hc0 : cond1_0 i) (hc1 : ¬ k1_cond2 i = 1#1)
    (x0 : Vec F S5000x128 .f32) (x1 : Vec F S5000x1 .f32) (x2 x3 : Vec F S1x128 .f32) (x4 : Vec F S1x1x5000 .i32)
    (y5 : Vec F S128x128 .f32) (s : Vec F S128x128 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare y5
        ∗ owns (c : Thread nD τ) arg7 fullShare s
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare (y5)
            ∗ owns (c : Thread nD τ) arg7 fullShare (k1_pay1 (k1_pay3 x0 x1 x2 x3 x4) (k1_pay2 (F := F)))) -∗ K ⟨⟩))
      ⊢ wp frame (wpE (defs₀ (F := F)) Variants.none c none) E
          (cc1__postproc_kernel i arg1 harg1 arg2 harg2 arg3 harg3 arg4 harg4 arg5 harg5 arg6 harg6 arg7 harg7) K := by
  simp only [cc1__postproc_kernel_eq_skeleton]; unfold cc1__postproc_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6
  sl_exec (disch := first | exact hc0 | exact hc1)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]
  · iexists _; isplitr; swap; · iexact H5
    ipureintro
    exact hf5
  iexists _; isplitr; swap; · iexact H6
  ipureintro
  sl_unfold_run_names
  rw [read_writes_whole _ _ off2]
  dsimp only
  rw [readAt_unread_whole arg1 harg1 x0 off2, readAt_unread_whole arg2 harg2 x1 off2, readAt_unread_whole arg3 harg3 x2 off2,
    readAt_unread_whole arg4 harg4 x3 off2, readAt_unread_whole arg5 harg5 x4 off3]
  rw [View.readCov_cons_toLoadRect]

set_option maxHeartbeats 1000000 in
/-- The body at a middle point: the point's contribution added to the carried buffer. -/
theorem run1_B (c : Dev nD) (i : grid1.Coords)
    (arg1 : Memref sig .tc .vmem S5000x128 .f32) (harg1 : arg1.IsWhole) (arg2 : Memref sig .tc .vmem S5000x1 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x1x5000 .i32) (harg5 : arg5.IsWhole) (arg6 : Memref sig .tc .vmem S128x128 .f32) (harg6 : arg6.IsWhole)
    (arg7 : Memref sig .tc .vmem S128x128 .f32) (harg7 : arg7.IsWhole)
    (hc0 : ¬ cond1_0 i) (hc1 : ¬ k1_cond2 i = 1#1)
    (x0 : Vec F S5000x128 .f32) (x1 : Vec F S5000x1 .f32) (x2 x3 : Vec F S1x128 .f32) (x4 : Vec F S1x1x5000 .i32)
    (y5 : Vec F S128x128 .f32) (s : Vec F S128x128 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare y5
        ∗ owns (c : Thread nD τ) arg7 fullShare s
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare (y5)
            ∗ owns (c : Thread nD τ) arg7 fullShare (k1_pay1 (k1_pay3 x0 x1 x2 x3 x4) s)) -∗ K ⟨⟩))
      ⊢ wp frame (wpE (defs₀ (F := F)) Variants.none c none) E
          (cc1__postproc_kernel i arg1 harg1 arg2 harg2 arg3 harg3 arg4 harg4 arg5 harg5 arg6 harg6 arg7 harg7) K := by
  simp only [cc1__postproc_kernel_eq_skeleton]; unfold cc1__postproc_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6
  sl_exec (disch := first | exact hc0 | exact hc1)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]
  · iexists _; isplitr; swap; · iexact H5
    ipureintro
    exact hf5
  iexists _; isplitr; swap; · iexact H6
  ipureintro
  sl_unfold_run_names
  rw [read_writes_whole _ _ off2]
  dsimp only
  rw [readAt_unread_whole arg1 harg1 x0 off2, readAt_unread_whole arg2 harg2 x1 off2, readAt_unread_whole arg3 harg3 x2 off2,
    readAt_unread_whole arg4 harg4 x3 off2, readAt_unread_whole arg5 harg5 x4 off3]
  rw [readAt_unread_whole arg7 harg7 s off2]

set_option maxHeartbeats 1000000 in
/-- The body at the last point: the point's contribution added, the sum copied out. -/
theorem run1_C (c : Dev nD) (i : grid1.Coords)
    (arg1 : Memref sig .tc .vmem S5000x128 .f32) (harg1 : arg1.IsWhole) (arg2 : Memref sig .tc .vmem S5000x1 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x1x5000 .i32) (harg5 : arg5.IsWhole) (arg6 : Memref sig .tc .vmem S128x128 .f32) (harg6 : arg6.IsWhole)
    (arg7 : Memref sig .tc .vmem S128x128 .f32) (harg7 : arg7.IsWhole)
    (hc0 : ¬ cond1_0 i) (hc1 : k1_cond2 i = 1#1)
    (x0 : Vec F S5000x128 .f32) (x1 : Vec F S5000x1 .f32) (x2 x3 : Vec F S1x128 .f32) (x4 : Vec F S1x1x5000 .i32)
    (y5 : Vec F S128x128 .f32) (s : Vec F S128x128 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare y5
        ∗ owns (c : Thread nD τ) arg7 fullShare s
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare (k1_pay1 (k1_pay3 x0 x1 x2 x3 x4) s)
            ∗ owns (c : Thread nD τ) arg7 fullShare (k1_pay1 (k1_pay3 x0 x1 x2 x3 x4) s)) -∗ K ⟨⟩))
      ⊢ wp frame (wpE (defs₀ (F := F)) Variants.none c none) E
          (cc1__postproc_kernel i arg1 harg1 arg2 harg2 arg3 harg3 arg4 harg4 arg5 harg5 arg6 harg6 arg7 harg7) K := by
  simp only [cc1__postproc_kernel_eq_skeleton]; unfold cc1__postproc_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6
  sl_exec (disch := first | exact hc0 | exact hc1)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]
  · iexists _; isplitr; swap; · iexact H5
    ipureintro
    sl_unfold_run_names
    rw [read_writes_whole _ _ off2]
    dsimp only
    rw [View.readCov_cons_toLoadRect]
    rw [readAt_unread_whole arg1 harg1 x0 off2, readAt_unread_whole arg2 harg2 x1 off2, readAt_unread_whole arg3 harg3 x2 off2,
    readAt_unread_whole arg4 harg4 x3 off2, readAt_unread_whole arg5 harg5 x4 off3]
    rw [readAt_unread_whole arg7 harg7 s off2]
  iexists _; isplitr; swap; · iexact H6
  ipureintro
  sl_unfold_run_names
  rw [read_writes_whole _ _ off2]
  dsimp only
  rw [readAt_unread_whole arg1 harg1 x0 off2, readAt_unread_whole arg2 harg2 x1 off2, readAt_unread_whole arg3 harg3 x2 off2,
    readAt_unread_whole arg4 harg4 x3 off2, readAt_unread_whole arg5 harg5 x4 off3]
  rw [readAt_unread_whole arg7 harg7 s off2]

/-! ## The blocks, the contribution of a point, the running sum -/

/-- Window `w`'s block at point `t`, read off its array. -/
abbrev iblk1 (V : Valuation τ sig (Elt F)) (w : Fin cfg1.W) (t : Fin cfg1.N) :=
  ((cfg1.win w).blk t).view.read (Elt F) (V (Pipeline.arrRef spec1 w))

/-- What point `t` adds to the running sum: the payload of the five blocks loaded there. -/
def contrib1 (V : Valuation τ sig (Elt F)) (t : Fin cfg1.N) : FVec F S128x128 .f32 :=
  k1_pay3 (iblk1 V 0 t) (iblk1 V 1 t) (iblk1 V 2 t) (iblk1 V 3 t) (iblk1 V 4 t)

theorem N1 : cfg1.N = 20 := N_1

/-- The running sum after point `n`: zero plus the contributions of the points up to `n`, added in order. -/
def acc1 (V : Valuation τ sig (Elt F)) : ℕ → FVec F S128x128 .f32
  | 0 => k1_pay1 (contrib1 V ⟨0, by decide⟩) (k1_pay2 (F := F))
  | n + 1 => if h : n + 1 < cfg1.N then k1_pay1 (contrib1 V ⟨n + 1, h⟩) (acc1 V n) else acc1 V n

theorem acc1_zero (V : Valuation τ sig (Elt F)) :
    acc1 V 0 = k1_pay1 (contrib1 V ⟨0, by decide⟩) (k1_pay2 (F := F)) := rfl

theorem acc1_succ (V : Valuation τ sig (Elt F)) (n : ℕ) (h : n + 1 < cfg1.N) :
    acc1 V (n + 1) = k1_pay1 (contrib1 V ⟨n + 1, h⟩) (acc1 V n) := by
  rw [acc1, dif_pos h]

/-! ## The invariant: the carried buffer between points -/

/-- The scoped buffers no window stages: the carried buffer, and the rest unopened. -/
theorem scopedRest1_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

/-- What the carried buffer holds before point `n`: anything before the first point, the running sum after
    point `n - 1` later. -/
def scr1 (V : Dev nD → Valuation τ sig (Elt F)) (c : Dev nD) : ℕ → sProp 𝕄
  | 0 => iprop(∃ f : Buf (Elt F) ((c : Thread nD τ).loc cc1_scratch0), ((c : Thread nD τ).loc cc1_scratch0) ↦{fullShare} f)
  | n + 1 => owns (c : Thread nD τ) (Memref.whole cc1_scratch0) fullShare (acc1 (V c) n)

theorem scr1_zero (V : Dev nD → Valuation τ sig (Elt F)) (c : Dev nD) :
    scr1 V c 0 = iprop(∃ f : Buf (Elt F) ((c : Thread nD τ).loc cc1_scratch0), ((c : Thread nD τ).loc cc1_scratch0) ↦{fullShare} f) := rfl

theorem scr1_succ (V : Dev nD → Valuation τ sig (Elt F)) (c : Dev nD) (n : ℕ) :
    scr1 V c (n + 1) = owns (c : Thread nD τ) (Memref.whole cc1_scratch0) fullShare (acc1 (V c) n) := rfl

/-- The invariant before point `t`: the carried buffer, beside the scoped buffers the region does not touch. -/
def Phi1 (V : Dev nD → Valuation τ sig (Elt F)) (c : Dev nD) (t : Fin (cfg1.N + 1)) : sProp 𝕄 :=
  iprop(scr1 V c t.val
    ∗ Pipeline.scopedRestBut (Ix := Unit) (Name := ℕ) (U := UR sig nD τ) (Lvl := ℕ) (Val := Elt F) spec1 c [cc1_scratch0])

/-! ## The proof data -/

/-- The proof data of region 1 on core `c`: the arrays as the region finds them; after the body each input's
    buffer at its block, the output's at the running sum (read at the last point only); the invariant; nothing
    owed; full shares. -/
def dat1 (V : Dev nD → Valuation τ sig (Elt F)) (c : Dev nD) : Dat τ (Elt F) Unit ℕ (UR sig nD τ) ℕ cfg1 c where
  A w := V c (Pipeline.arrRef spec1 w)
  after w t := match w with
    | ⟨0, _⟩ => iblk1 (V c) 0 t
    | ⟨1, _⟩ => iblk1 (V c) 1 t
    | ⟨2, _⟩ => iblk1 (V c) 2 t
    | ⟨3, _⟩ => iblk1 (V c) 3 t
    | ⟨4, _⟩ => iblk1 (V c) 4 t
    | ⟨5, _⟩ => acc1 (V c) t.val
  Φ t := Phi1 V c t
  q _ := fullShare
  owed _ := 0

theorem dat1_A (V : Dev nD → Valuation τ sig (Elt F)) (c : Dev nD) (w : Fin cfg1.W) :
    (dat1 V c).A w = V c (Pipeline.arrRef spec1 w) := by dsimp only [dat1]

theorem dat1_share (V : Dev nD → Valuation τ sig (Elt F)) (c : Dev nD) : ∀ w, (dat1 V c).share w = fullShare :=
  (dat1 V c).share_full fun _ => rfl

theorem dat1_owed (V : Dev nD → Valuation τ sig (Elt F)) (c : Dev nD) (t : Fin (cfg1.N + 1)) : (dat1 V c).owed t = 0 := rfl

theorem dat1_Phi (V : Dev nD → Valuation τ sig (Elt F)) (c : Dev nD) (t : Fin (cfg1.N + 1)) : (dat1 V c).Φ t = Phi1 V c t := rfl

theorem dat1_after0 (V : Dev nD → Valuation τ sig (Elt F)) (c : Dev nD) (t : Fin cfg1.N) : (dat1 V c).after 0 t = iblk1 (V c) 0 t := by dsimp only [dat1]
theorem dat1_after1 (V : Dev nD → Valuation τ sig (Elt F)) (c : Dev nD) (t : Fin cfg1.N) : (dat1 V c).after 1 t = iblk1 (V c) 1 t := by dsimp only [dat1]
theorem dat1_after2 (V : Dev nD → Valuation τ sig (Elt F)) (c : Dev nD) (t : Fin cfg1.N) : (dat1 V c).after 2 t = iblk1 (V c) 2 t := by dsimp only [dat1]
theorem dat1_after3 (V : Dev nD → Valuation τ sig (Elt F)) (c : Dev nD) (t : Fin cfg1.N) : (dat1 V c).after 3 t = iblk1 (V c) 3 t := by dsimp only [dat1]
theorem dat1_after4 (V : Dev nD → Valuation τ sig (Elt F)) (c : Dev nD) (t : Fin cfg1.N) : (dat1 V c).after 4 t = iblk1 (V c) 4 t := by dsimp only [dat1]
theorem dat1_after5 (V : Dev nD → Valuation τ sig (Elt F)) (c : Dev nD) (t : Fin cfg1.N) : (dat1 V c).after 5 t = acc1 (V c) t.val := by dsimp only [dat1]

/-- At the last point the output's buffer is left at the whole sum. -/
theorem dat1_after5_last (V : Dev nD → Valuation τ sig (Elt F)) (c : Dev nD) :
    (dat1 V c).after 5 ⟨19, by decide⟩ = acc1 (V c) 19 := by dsimp only [dat1]

/-- The invariant's first end: what the launch hands the region. -/
theorem dat1_in (V : Dev nD → Valuation τ sig (Elt F)) (c : Dev nD) :
    (Pipeline.scopedRest (Ix := Unit) (Name := ℕ) (U := UR sig nD τ) (Lvl := ℕ) (Val := Elt F) spec1 c : sProp 𝕄) ⊢ (dat1 V c).Φ 0 := by
  rw [scopedRest1_split, dat1_Phi]
  exact .rfl

/-- The invariant's last end: the region hands the scoped buffers back. -/
theorem dat1_out (V : Dev nD → Valuation τ sig (Elt F)) (c : Dev nD) :
    (dat1 V c).Φ (Fin.last cfg1.N) ⊢ (Pipeline.scopedRest (Ix := Unit) (Name := ℕ) (U := UR sig nD τ) (Lvl := ℕ) (Val := Elt F) spec1 c : sProp 𝕄) := by
  rw [scopedRest1_split, dat1_Phi]
  unfold Phi1
  rw [show (Fin.last cfg1.N).val = 19 + 1 from rfl, scr1_succ, owns_whole_eq]
  iintro ⟨⟨%f, -, Hs⟩, Hr⟩
  isplitl [Hs]
  · iexists f; iexact Hs
  iexact Hr

/-! ## What the body finds in each input's buffer -/

/-- An input's current buffer holds the array's block at every point, fetched there or not: unfetched, the block
    index has not moved and the body left the block in place. -/
theorem before1_0 (V : Dev nD → Valuation τ sig (Elt F)) (c : Dev nD) (t : Fin cfg1.N) (d) :
    (dat1 V c).before 0 t d = iblk1 (V c) 0 t :=
  ((dat1 V c).before_in_eq_fetched 0 rfl (fun _ => rfl) (fun _ _ _ => rfl)
      (fun t => by rw [dat1_after0]; unfold Dat.blockOf; rw [dat1_A]) t d).trans
    (by unfold Dat.fetched Dat.blockOf; rw [dat1_A]; rfl)
theorem before1_1 (V : Dev nD → Valuation τ sig (Elt F)) (c : Dev nD) (t : Fin cfg1.N) (d) :
    (dat1 V c).before 1 t d = iblk1 (V c) 1 t :=
  ((dat1 V c).before_in_eq_fetched 1 rfl (fun _ => rfl) (fun _ _ _ => rfl)
      (fun t => by rw [dat1_after1]; unfold Dat.blockOf; rw [dat1_A]) t d).trans
    (by unfold Dat.fetched Dat.blockOf; rw [dat1_A]; rfl)
theorem before1_2 (V : Dev nD → Valuation τ sig (Elt F)) (c : Dev nD) (t : Fin cfg1.N) (d) :
    (dat1 V c).before 2 t d = iblk1 (V c) 2 t :=
  ((dat1 V c).before_in_eq_fetched 2 rfl (fun _ => rfl) (fun _ _ _ => rfl)
      (fun t => by rw [dat1_after2]; unfold Dat.blockOf; rw [dat1_A]) t d).trans
    (by unfold Dat.fetched Dat.blockOf; rw [dat1_A]; rfl)
theorem before1_3 (V : Dev nD → Valuation τ sig (Elt F)) (c : Dev nD) (t : Fin cfg1.N) (d) :
    (dat1 V c).before 3 t d = iblk1 (V c) 3 t :=
  ((dat1 V c).before_in_eq_fetched 3 rfl (fun _ => rfl) (fun _ _ _ => rfl)
      (fun t => by rw [dat1_after3]; unfold Dat.blockOf; rw [dat1_A]) t d).trans
    (by unfold Dat.fetched Dat.blockOf; rw [dat1_A]; rfl)
theorem before1_4 (V : Dev nD → Valuation τ sig (Elt F)) (c : Dev nD) (t : Fin cfg1.N) (d) :
    (dat1 V c).before 4 t d = iblk1 (V c) 4 t :=
  ((dat1 V c).before_in_eq_fetched 4 rfl (fun _ => rfl) (fun _ _ _ => rfl)
      (fun t => by rw [dat1_after4]; unfold Dat.blockOf; rw [dat1_A]) t d).trans
    (by unfold Dat.fetched Dat.blockOf; rw [dat1_A]; rfl)

/-! ## Where the output window is idle, and where it is written back -/

/-- The output window is idle at every point but the last, -/
theorem idle1_5 : ∀ t : Fin cfg1.N, cfg1.idle 5 (cfg1.grid.coords t) = decide (t.val ≠ 19) :=
  (by decide +kernel : ∀ t : Fin grid1.N, idle1 5 (grid1.coords t) = decide (t.val ≠ 19))
/-- where alone it is written back. -/
theorem flush1_5_eq : ∀ t : Fin cfg1.N, (cfg1.win 5).flush t = decide (t.val = 19) :=
  (by decide +kernel : ∀ t : Fin grid1.N, win1_5.flush t = decide (t.val = 19))

/-! ## The body obligation -/

/-- What the body is handed at point `t`: the invariant, the tallies, and each window's current buffer at what
    it then holds. -/
def pre1 (V : Dev nD → Valuation τ sig (Elt F)) (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- What it hands back at a point idle for the output window: the same at the next point, each input's buffer
    at what the body leaves, the output's as it was found. -/
def postIdle1 (V : Dev nD → Valuation τ sig (Elt F)) (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ (∃ d, owns (c : Thread nD τ) (st1_5 t) fullShare ((dat1 V c).before 5 t d)))

/-- What it hands back at the point that writes the output back: every current buffer at what the body leaves. -/
def postLast1 (V : Dev nD → Valuation τ sig (Elt F)) (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The carried buffer held whole at some contents is held through its whole memref at them. -/
theorem owns_scratch_of_pt (c : Dev nD) (f : Buf (Elt F) ((c : Thread nD τ).loc cc1_scratch0)) :
    (((c : Thread nD τ).loc cc1_scratch0) ↦{fullShare} f : sProp 𝕄) ⊢ owns (c : Thread nD τ) (Memref.whole cc1_scratch0) fullShare f := by
  rw [owns_whole_eq]
  iintro H; iexists f; isplitr; · ipureintro; rfl
  iexact H

set_option maxHeartbeats 800000 in
/-- The body at the first point: the carried buffer is found at anything and left at the first running sum. -/
theorem sound1_first (V : Dev nD → Valuation τ sig (Elt F)) (c : Dev nD) (hn : 0 < cfg1.N) :
    pre1 V c ⟨0, hn⟩ ⊢ wp frame (wpE (defs₀ (F := F)) Variants.none c none) Set.univ (bodyAt1 ⟨0, hn⟩) (fun _ => postIdle1 V c ⟨0, hn⟩) := by
  unfold pre1 postIdle1 bodyAt1
  simp only [before1_0, before1_1, before1_2, before1_3, before1_4]
  rw [show (dat1 V c).owesAt () (⟨0, hn⟩ : Fin cfg1.N).succ = (dat1 V c).owesAt () (⟨0, hn⟩ : Fin cfg1.N).castSucc from rfl,
    dat1_after0, dat1_after1, dat1_after2, dat1_after3, dat1_after4, dat1_Phi, dat1_Phi]
  unfold Phi1
  rw [show ((⟨0, hn⟩ : Fin cfg1.N).castSucc).val = 0 from rfl, show ((⟨0, hn⟩ : Fin cfg1.N).succ).val = 0 + 1 from rfl,
    scr1_zero, scr1_succ, acc1_zero]
  unfold contrib1
  iintro ⟨⟨⟨%fs, Hs⟩, HR⟩, Ho, ⟨%d0, H0⟩, ⟨%d1, H1⟩, ⟨%d2, H2⟩, ⟨%d3, H3⟩, ⟨%d4, H4⟩, ⟨%d5, H5⟩⟩
  ihave Hs' := owns_scratch_of_pt c fs $$ Hs
  iapply (run1_A c (grid1.coords ⟨0, hn⟩) _ _ _ _ _ _ _ _ _ _ _ _ _ _ ((hcond1_0 ⟨0, hn⟩).mpr rfl)
    (fun h => absurd ((hcond1_1 ⟨0, hn⟩).mp h) (show ¬ (0 : ℕ) = 19 by decide))
    (iblk1 (V c) 0 ⟨0, hn⟩) (iblk1 (V c) 1 ⟨0, hn⟩) (iblk1 (V c) 2 ⟨0, hn⟩) (iblk1 (V c) 3 ⟨0, hn⟩) (iblk1 (V c) 4 ⟨0, hn⟩) _ _ Set.univ _)
  isplitl [H0]; · iexact H0
  isplitl [H1]; · iexact H1
  isplitl [H2]; · iexact H2
  isplitl [H3]; · iexact H3
  isplitl [H4]; · iexact H4
  isplitl [H5]; · iexact H5
  isplitl [Hs']; · iexact Hs'
  iintro ⟨H0, H1, H2, H3, H4, H5, Hs⟩
  isplitl [Hs HR]
  · isplitl [Hs]; · iexact Hs
    iexact HR
  isplitl [Ho]; · iexact Ho
  isplitl [H0]; · iexact H0
  isplitl [H1]; · iexact H1
  isplitl [H2]; · iexact H2
  isplitl [H3]; · iexact H3
  isplitl [H4]; · iexact H4
  iexists d5; iexact H5

set_option maxHeartbeats 800000 in
/-- The body at a later point that is not the last: the carried buffer is found at the running sum and left at the next. -/
theorem sound1_mid (V : Dev nD → Valuation τ sig (Elt F)) (c : Dev nD) (n : ℕ) (hn : n + 1 < cfg1.N) (h19 : n + 1 ≠ 19) :
    pre1 V c ⟨n + 1, hn⟩ ⊢ wp frame (wpE (defs₀ (F := F)) Variants.none c none) Set.univ (bodyAt1 ⟨n + 1, hn⟩) (fun _ => postIdle1 V c ⟨n + 1, hn⟩) := by
  unfold pre1 postIdle1 bodyAt1
  simp only [before1_0, before1_1, before1_2, before1_3, before1_4]
  rw [show (dat1 V c).owesAt () (⟨n + 1, hn⟩ : Fin cfg1.N).succ = (dat1 V c).owesAt () (⟨n + 1, hn⟩ : Fin cfg1.N).castSucc from rfl,
    dat1_after0, dat1_after1, dat1_after2, dat1_after3, dat1_after4, dat1_Phi, dat1_Phi]
  unfold Phi1
  rw [show ((⟨n + 1, hn⟩ : Fin cfg1.N).castSucc).val = n + 1 from rfl, show ((⟨n + 1, hn⟩ : Fin cfg1.N).succ).val = n + 1 + 1 from rfl,
    scr1_succ, scr1_succ, acc1_succ (V c) n hn]
  unfold contrib1
  iintro ⟨⟨Hs, HR⟩, Ho, ⟨%d0, H0⟩, ⟨%d1, H1⟩, ⟨%d2, H2⟩, ⟨%d3, H3⟩, ⟨%d4, H4⟩, ⟨%d5, H5⟩⟩
  iapply (run1_B c (grid1.coords ⟨n + 1, hn⟩) _ _ _ _ _ _ _ _ _ _ _ _ _ _
    (fun h => absurd ((hcond1_0 ⟨n + 1, hn⟩).mp h) (Nat.succ_ne_zero n))
    (fun h => h19 ((hcond1_1 ⟨n + 1, hn⟩).mp h))
    (iblk1 (V c) 0 ⟨n + 1, hn⟩) (iblk1 (V c) 1 ⟨n + 1, hn⟩) (iblk1 (V c) 2 ⟨n + 1, hn⟩) (iblk1 (V c) 3 ⟨n + 1, hn⟩) (iblk1 (V c) 4 ⟨n + 1, hn⟩)
    _ (acc1 (V c) n) Set.univ _)
  isplitl [H0]; · iexact H0
  isplitl [H1]; · iexact H1
  isplitl [H2]; · iexact H2
  isplitl [H3]; · iexact H3
  isplitl [H4]; · iexact H4
  isplitl [H5]; · iexact H5
  isplitl [Hs]; · iexact Hs
  iintro ⟨H0, H1, H2, H3, H4, H5, Hs⟩
  isplitl [Hs HR]
  · isplitl [Hs]; · iexact Hs
    iexact HR
  isplitl [Ho]; · iexact Ho
  isplitl [H0]; · iexact H0
  isplitl [H1]; · iexact H1
  isplitl [H2]; · iexact H2
  isplitl [H3]; · iexact H3
  isplitl [H4]; · iexact H4
  iexists d5; iexact H5

set_option maxHeartbeats 800000 in
/-- The body at the last point: the carried buffer is found at the running sum and left at the whole sum, which the
    output's buffer is left at too. -/
theorem sound1_last (V : Dev nD → Valuation τ sig (Elt F)) (c : Dev nD) (n : ℕ) (hn : n + 1 < cfg1.N) (h19 : n + 1 = 19) :
    pre1 V c ⟨n + 1, hn⟩ ⊢ wp frame (wpE (defs₀ (F := F)) Variants.none c none) Set.univ (bodyAt1 ⟨n + 1, hn⟩) (fun _ => postLast1 V c ⟨n + 1, hn⟩) := by
  unfold pre1 postLast1 bodyAt1
  simp only [before1_0, before1_1, before1_2, before1_3, before1_4]
  rw [show (dat1 V c).owesAt () (⟨n + 1, hn⟩ : Fin cfg1.N).succ = (dat1 V c).owesAt () (⟨n + 1, hn⟩ : Fin cfg1.N).castSucc from rfl,
    dat1_after0, dat1_after1, dat1_after2, dat1_after3, dat1_after4, dat1_after5, dat1_Phi, dat1_Phi]
  unfold Phi1
  rw [show ((⟨n + 1, hn⟩ : Fin cfg1.N).castSucc).val = n + 1 from rfl, show ((⟨n + 1, hn⟩ : Fin cfg1.N).succ).val = n + 1 + 1 from rfl,
    show ((⟨n + 1, hn⟩ : Fin cfg1.N)).val = n + 1 from rfl,
    scr1_succ, scr1_succ, acc1_succ (V c) n hn]
  unfold contrib1
  iintro ⟨⟨Hs, HR⟩, Ho, ⟨%d0, H0⟩, ⟨%d1, H1⟩, ⟨%d2, H2⟩, ⟨%d3, H3⟩, ⟨%d4, H4⟩, ⟨%d5, H5⟩⟩
  iapply (run1_C c (grid1.coords ⟨n + 1, hn⟩) _ _ _ _ _ _ _ _ _ _ _ _ _ _
    (fun h => absurd ((hcond1_0 ⟨n + 1, hn⟩).mp h) (Nat.succ_ne_zero n))
    ((hcond1_1 ⟨n + 1, hn⟩).mpr h19)
    (iblk1 (V c) 0 ⟨n + 1, hn⟩) (iblk1 (V c) 1 ⟨n + 1, hn⟩) (iblk1 (V c) 2 ⟨n + 1, hn⟩) (iblk1 (V c) 3 ⟨n + 1, hn⟩) (iblk1 (V c) 4 ⟨n + 1, hn⟩)
    _ (acc1 (V c) n) Set.univ _)
  isplitl [H0]; · iexact H0
  isplitl [H1]; · iexact H1
  isplitl [H2]; · iexact H2
  isplitl [H3]; · iexact H3
  isplitl [H4]; · iexact H4
  isplitl [H5]; · iexact H5
  isplitl [Hs]; · iexact Hs
  iintro ⟨H0, H1, H2, H3, H4, H5, Hs⟩
  isplitl [Hs HR]
  · isplitl [Hs]; · iexact Hs
    iexact HR
  isplitl [Ho]; · iexact Ho
  isplitl [H0]; · iexact H0
  isplitl [H1]; · iexact H1
  isplitl [H2]; · iexact H2
  isplitl [H3]; · iexact H3
  isplitl [H4]; · iexact H4
  iexact H5

/-- The library's body obligation for region 1, at every point. -/
theorem body1 (V : Dev nD → Valuation τ sig (Elt F)) (c : Dev nD) :
    Pipeline.BodyObligation (dat1 V c) (defs₀ (F := F)) Variants.none () Set.univ := fun t => by
  rw [bigSep_W1, bigSep_W1]
  obtain ⟨n, hn⟩ := t
  by_cases h19 : n = 19
  · have hi : cfg1.idle 5 (cfg1.grid.coords ⟨n, hn⟩) = false := (idle1_5 ⟨n, hn⟩).trans (decide_eq_false (fun h => h h19))
    rw [hi]
    cases n with
    | zero => exact absurd h19 (by decide)
    | succ n => exact sound1_last V c n hn h19
  · have hi : cfg1.idle 5 (cfg1.grid.coords ⟨n, hn⟩) = true := (idle1_5 ⟨n, hn⟩).trans (decide_eq_true h19)
    have hf : (cfg1.win 5).flush ⟨n, hn⟩ = false := (flush1_5_eq ⟨n, hn⟩).trans (decide_eq_false h19)
    rw [hi, hf]
    cases n with
    | zero => exact sound1_first V c hn
    | succ n => exact sound1_mid V c n hn h19

end Cert.GcnPool.KI

end
-- ==== Proof.KI.Launch.lean ====
/-
  The two kernel regions as segments of @main, and the program's run.

  Between two items of @main a core holds every buffer that is not scoped to a kernel at a VALUATION: the launch
  contents pushed through the host stretches, and, at a region's exit, updated at the one array the region writes
  (region 0: the scaled product `main_v16`; region 1: the pooled sums `main_v31`) with what the pipeline's
  write-backs leave there (`Dat.arrAt … N`). A region is entered by splitting its windows' arrays out of that
  valuation and left by putting them back; nothing is owed to another core and no kernel has a semaphore of its own.
-/
import proofs.«402121_j67808943669372_2_alg».proof.Proof.KI.RunCond
import proofs.«402121_j67808943669372_2_alg».proof.Proof.KI.Dat0
import proofs.«402121_j67808943669372_2_alg».proof.Proof.KI.Dat1
import Idealize.ShloMosaic.Lib.Pipeline.RegionsLoop
import Idealize.ShloMosaic.Lib.Pipeline.Kit

noncomputable section

namespace Cert.GcnPool.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

local notation "𝕄" => MT nD τ sig Unit (Elt F) ℕ (UR sig nD τ) ℕ

variable (m : (ℓ : Loc nD τ sig) → Buf (Elt F) ℓ)

/-! ## The valuations at the regions' ends -/

/-- What region 0 leaves in its output array: the write-backs of all twenty points folded. -/
def out0 (c : Dev nD) : Buf (Elt F) ((c : Thread nD τ).loc main_v16) := (dat0 (V3 m) c).arrAt 3 cfg0.N
/-- Core `c`'s unscoped buffers at region 0's exit. -/
def W4 (c : Dev nD) : Valuation τ sig (Elt F) := Function.update (V3 m c) main_v16 (out0 m c)
/-- … after the host stretch between the regions (region 1's entry). -/
abbrev W5 (c : Dev nD) : Valuation τ sig (Elt F) := StableHlo.after hostOps1 (W4 m c)
/-- What region 1 leaves in its output array. -/
def out1 (c : Dev nD) : Buf (Elt F) ((c : Thread nD τ).loc main_v31) := (dat1 (W5 m) c).arrAt 5 cfg1.N
/-- Core `c`'s unscoped buffers at region 1's exit. -/
def W6 (c : Dev nD) : Valuation τ sig (Elt F) := Function.update (W5 m c) main_v31 (out1 m c)
/-- … and at the end of @main. -/
abbrev W7 (c : Dev nD) : Valuation τ sig (Elt F) := StableHlo.after hostOps2 (W6 m c)

/-- The same valuations read at the TensorCore's references (what the pipelines' proof data and the library's
    splitting lemmas take). -/
abbrev V3r (c : Dev nD) : (b : Ref sig .tc) → Buf (Elt F) ((c : Thread nD τ).loc b) := fun b => V3 m c b
abbrev W4r (c : Dev nD) : (b : Ref sig .tc) → Buf (Elt F) ((c : Thread nD τ).loc b) := fun b => W4 m c b
abbrev W5r (c : Dev nD) : (b : Ref sig .tc) → Buf (Elt F) ((c : Thread nD τ).loc b) := fun b => W5 m c b
abbrev W6r (c : Dev nD) : (b : Ref sig .tc) → Buf (Elt F) ((c : Thread nD τ).loc b) := fun b => W6 m c b

/-- The contents the regions leave, as the unknowns the conditional run is stated over. -/
def outsK : Outs (F := F) := fun J r c => if J = 4 then W4 m c r else W6 m c r

theorem W4_out (c : Dev nD) : W4 m c main_v16 = out0 m c := by unfold W4; exact Function.update_self ..
theorem W6_out (c : Dev nD) : W6 m c main_v31 = out1 m c := by unfold W6; exact Function.update_self ..

theorem V4_eq (c : Dev nD) : V4 m (outsK m) c = W4 m c := by
  show Function.update (V3 m c) main_v16 (outsK m 4 main_v16 c) = _
  rw [show outsK m 4 main_v16 c = W4 m c main_v16 from if_pos rfl, W4_out]; rfl
theorem V5_eq (c : Dev nD) : V5 m (outsK m) c = W5 m c := by
  show StableHlo.after hostOps1 (V4 m (outsK m) c) = _; rw [V4_eq]
theorem V6_eq (c : Dev nD) : V6 m (outsK m) c = W6 m c := by
  show Function.update (V5 m (outsK m) c) main_v31 (outsK m 6 main_v31 c) = _
  rw [V5_eq, show outsK m 6 main_v31 c = W6 m c main_v31 from if_neg (by decide), W6_out]; rfl
theorem V7_eq (c : Dev nD) : V7 m (outsK m) c = W7 m c := by
  show StableHlo.after hostOps2 (V6 m (outsK m) c) = _; rw [V6_eq]

/-! ## The proof data family -/

/-- Both pipelines' proof data, each at its region's entry contents: a literal match on the pipeline. -/
def pdats : (p : Fin 2) → (c : Dev nD) → Dat τ (Elt F) Unit ℕ (UR sig nD τ) ℕ (cfgs p) c
  | ⟨0, _⟩ => fun c => dat0 (V3 m) c
  | ⟨1, _⟩ => fun c => dat1 (W5 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's `owes`, at nothing. -/
abbrev R (c : Dev nD) : sProp 𝕄 := iprop(∃ W, owes (c : Thread nD τ) (0 : CellTallies nD τ sig Unit) W)

/-! ## The arrays at the regions' exits -/

/-- The references of region 0's windows' arrays other than its output are not the output's. -/
theorem ne0 (w : Fin cfg0.W) (hw : w ≠ 3) : (Proc.devRef .tc (Pipeline.arrRef spec0 w) : DevRef τ sig) ≠ Proc.devRef .tc main_v16 :=
  StableHlo.devRef_ne_of_ne (by revert w; decide)
theorem ne1 (w : Fin cfg1.W) (hw : w ≠ 5) : (Proc.devRef .tc (Pipeline.arrRef spec1 w) : DevRef τ sig) ≠ Proc.devRef .tc main_v31 :=
  StableHlo.devRef_ne_of_ne (by revert w; decide)

/-- At region 0's exit each of its arrays holds what the pipeline leaves: an input as entered, the output the fold of
    its write-backs. -/
theorem hF0 (c : Dev nD) (w : Fin cfg0.W) : (pdats m 0 c).arrAt w cfg0.N = W4r m c (Pipeline.arrRef spec0 w) := by
  by_cases hw : w = 3
  · subst hw; exact (W4_out m c).symm
  · have hin : (cfg0.win w).isOut = false := by revert w; decide
    refine ((pdats m 0 c).arrAt_in w hin _).trans ?_
    refine (show (dat0 (V3 m) c).A w = V3 m c (Pipeline.arrRef spec0 w) from dat0_A (V3 m) c w).trans ?_
    show _ = Function.update (V3 m c) (Proc.devRef .tc main_v16) (out0 m c) (Proc.devRef .tc (Pipeline.arrRef spec0 w))
    exact (Function.update_of_ne (ne0 w hw) (out0 m c) (V3 m c)).symm
/-- Every other buffer is as entered. -/
theorem hrest0 (c : Dev nD) : ∀ b, b ∉ Finset.univ.image (Pipeline.arrRef spec0) → W4r m c b = V3r m c b := fun b hb => by
  show Function.update (V3 m c) (Proc.devRef .tc main_v16) (out0 m c) (Proc.devRef .tc b) = V3 m c (Proc.devRef .tc b)
  exact Function.update_of_ne (StableHlo.devRef_ne_of_ne fun e => hb (Finset.mem_image.mpr ⟨3, Finset.mem_univ _, e.symm⟩)) _ _

theorem hF1 (c : Dev nD) (w : Fin cfg1.W) : (pdats m 1 c).arrAt w cfg1.N = W6r m c (Pipeline.arrRef spec1 w) := by
  by_cases hw : w = 5
  · subst hw; exact (W6_out m c).symm
  · have hin : (cfg1.win w).isOut = false := by revert w; decide
    refine ((pdats m 1 c).arrAt_in w hin _).trans ?_
    refine (show (dat1 (W5 m) c).A w = W5 m c (Pipeline.arrRef spec1 w) from dat1_A (W5 m) c w).trans ?_
    show _ = Function.update (W5 m c) (Proc.devRef .tc main_v31) (out1 m c) (Proc.devRef .tc (Pipeline.arrRef spec1 w))
    exact (Function.update_of_ne (ne1 w hw) (out1 m c) (W5 m c)).symm
theorem hrest1 (c : Dev nD) : ∀ b, b ∉ Finset.univ.image (Pipeline.arrRef spec1) → W6r m c b = W5r m c b := fun b hb => by
  show Function.update (W5 m c) (Proc.devRef .tc main_v31) (out1 m c) (Proc.devRef .tc b) = W5 m c (Proc.devRef .tc b)
  exact Function.update_of_ne (StableHlo.devRef_ne_of_ne fun e => hb (Finset.mem_image.mpr ⟨5, Finset.mem_univ _, e.symm⟩)) _ _

/-! ## The regions as segments -/

-- a library lemma stated over the pinned configuration unifies with the printed one only when unification may unfold
-- plain definitions in a metavariable's type
set_option backward.isDefEq.respectTransparency.types false in
/-- Region 0 over the thread state: entered from every unscoped buffer at its entry valuation, left at the exit
    valuation. Its arrays are split out of the unscoped buffers and put back at the exit contents; nothing is owed;
    the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body0 (V3 m) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (W4 m c) ∗ R c)
  X _ := iprop(emp)
  Y _ := iprop(emp)
  Z c := Pipeline.unscopedRest (Ix := Unit) (Name := ℕ) (U := UR sig nD τ) (Lvl := ℕ) spec0 c (V3r m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3r m c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 0 c).Φ 0 = Pipeline.scopedRest (Ix := Unit) (Name := ℕ) (U := UR sig nD τ) (Lvl := ℕ) (Val := Elt F) spec0 c from rfl]
    iintro ⟨-, -, Hr⟩
    iexact Hr
  hout c := by
    rw [Pipeline.ownSems0_none, show (pdats m 0 c).Φ (Fin.last _) = Pipeline.scopedRest (Ix := Unit) (Name := ℕ) (U := UR sig nD τ) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3r m c) (W4r m c) ((pdats m 0 c).arrAt · cfg0.N) (hF0 m c) (hrest0 m c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every unscoped buffer at its entry valuation, left at the exit
    valuation. Its arrays are split out of the unscoped buffers and put back at the exit contents; nothing is owed;
    the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body1 (W5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X _ := iprop(emp)
  Y _ := iprop(emp)
  Z c := Pipeline.unscopedRest (Ix := Unit) (Name := ℕ) (U := UR sig nD τ) (Lvl := ℕ) spec1 c (W5r m c)
  hentry c := by
    rw [Pipeline.ownSems0_none]
    have hsplit := Pipeline.arrays_of_unscopedBufs (p := 1) (pcfgs (F := F)) adm (pdats m) launch1.win launch1.arr_whole c
      ((pdats m 1 c).share_full fun _ => rfl) (W5r m c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 1 c).Φ 0 = (dat1 (W5 m) c).Φ 0 from rfl]
    iintro ⟨-, -, Hr⟩
    iapply (dat1_in (W5 m) c)
    iexact Hr
  hout c := by
    rw [Pipeline.ownSems0_none, show (pdats m 1 c).Φ (Fin.last _) = (dat1 (W5 m) c).Φ (Fin.last cfg1.N) from rfl]
    iintro HΦ
    isplitr; · iempintro
    isplitr; · iempintro
    iapply (dat1_out (W5 m) c)
    iexact HΦ
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (W5r m c) (W6r m c) ((pdats m 1 c).arrAt · cfg1.N) (hF1 m c) (hrest1 m c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-! ## The run -/

-- the launch theorem's implicit arguments are found by unifying its conclusion with this one
set_option backward.isDefEq.respectTransparency.types false in
/-- From any memory with zero counters every weakly fair execution of @main terminates, nothing faulting, and every
    buffer that is not scoped to a kernel ends at the last valuation `W7`. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W7 m c b) := by
  have h := run_cond (F := F) m (Ix := Unit) (U := UR sig nD τ) (Lvl := ℕ) emb₁ () 𝒱₀ L lv (fun _ _ => rfl) ρ (outsK m) (pdats m)
    (O₀ := fun _ => 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      have hone : ∀ c : Dev nD, (iprop(unscopedSems0 c ∗ owes (c : Thread nD τ) (0 : CellTallies nD τ sig Unit) ∅
            ∗ Pipeline.launchCred (fun _ : Dev nD => (0 : CellTallies nD τ sig Unit)) c ∗ prngReg c (ρ c) ∗ iprop(emp)) : sProp 𝕄)
          ⊢ R c := fun c => by
        iintro ⟨-, HO, -, -, -⟩
        iexists ∅; iexact HO
      have hmono : (bigSep Finset.univ fun c : Dev nD => iprop(unscopedSems0 c ∗ owes (c : Thread nD τ) (0 : CellTallies nD τ sig Unit) ∅
            ∗ Pipeline.launchCred (fun _ : Dev nD => (0 : CellTallies nD τ sig Unit)) c ∗ prngReg c (ρ c) ∗ iprop(emp)))
          ⊢ (bigSep Finset.univ (fun c : Dev nD => R c) : sProp 𝕄) :=
        bigSep_mono fun c _ => hone c
      iintro ⟨H, -⟩
      imodintro
      iapply hmono
      iexact H)
    (hE2 := fun c => .rfl)
    (R0 := reg0 m) (hpre0 := fun c => .rfl) (hpost0 := fun c => by rw [V4_eq]; exact .rfl)
    (R1 := reg1 m) (hpre1 := fun c => by rw [V5_eq]; exact .rfl) (hpost1 := fun c => by rw [V6_eq]; exact .rfl)
  refine (θ_run defs _ _).mono (fun r hr c b hb => ?_) h
  rw [← V7_eq]; exact hr c b hb

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: the six arguments end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r hr c => ?_) (run_all m ρ)
  have key : ∀ (a : Ref sig .tc) (ha : ¬ (Proc.devRef .tc a : DevRef τ sig).isScoped), r.2.mem ((c.tc : Thread nD τ).loc a) = V7 m (outsK m) c a :=
    fun a ha => (hr c _ (mem_uc a ha)).trans (congrFun (V7_eq m c).symm _)
  exact ⟨(key main_arg0 (by decide)).trans (V7_main_arg0 m _ c), (key main_arg1 (by decide)).trans (V7_main_arg1 m _ c),
    (key main_arg2 (by decide)).trans (V7_main_arg2 m _ c), (key main_arg3 (by decide)).trans (V7_main_arg3 m _ c),
    (key main_arg4 (by decide)).trans (V7_main_arg4 m _ c), (key main_arg5 (by decide)).trans (V7_main_arg5 m _ c)⟩

/-- The run with the result buffer named: besides the arguments, the result ends at the last valuation's value. -/
theorem run_result (ρ : Dev nD → PrngReg) :
    θ_run defs (onTc (τ := τ) (main (F := F))) ⟨m, fun _ => 0, ρ⟩ (fun r => ∀ c : Dev nD,
      r.2.mem ((c.tc : Thread nD τ).loc main_v40) = W7 m c main_v40
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r hr c => ?_) (run_all m ρ)
  have key : ∀ (a : Ref sig .tc) (ha : ¬ (Proc.devRef .tc a : DevRef τ sig).isScoped), r.2.mem ((c.tc : Thread nD τ).loc a) = V7 m (outsK m) c a :=
    fun a ha => (hr c _ (mem_uc a ha)).trans (congrFun (V7_eq m c).symm _)
  exact ⟨hr c _ (mem_uc main_v40 (by decide)),
    (key main_arg0 (by decide)).trans (V7_main_arg0 m _ c), (key main_arg1 (by decide)).trans (V7_main_arg1 m _ c),
    (key main_arg2 (by decide)).trans (V7_main_arg2 m _ c), (key main_arg3 (by decide)).trans (V7_main_arg3 m _ c),
    (key main_arg4 (by decide)).trans (V7_main_arg4 m _ c), (key main_arg5 (by decide)).trans (V7_main_arg5 m _ c)⟩

end Cert.GcnPool.KI

end
-- ==== Proof.IndexDecode.lean ====
/-
  The host scatter-adds and gathers of the two idealized programs, read at one index, at the ideal instance.

  Both programs index rows by a column of signed 32-bit words idx : [E × 1].
  * SCATTER-ADD of updates [E × C] into an operand [N × C] (one window axis, the row axis inserted, the start read
    SIGNED and NOT clamped): update (e, c') lands on (n, c) exactly when the word at (e, 0) is n and c' = c;
    an out-of-range word lands nowhere. Hence element (n, c) of the result is the operand's plus the sum, over the
    positions e whose word is n, of upd (e, c). The same with no window axis ([E] into [N]).
  * GATHER of rows (slice [1 × C], the row axis collapsed) reads x (r, c) with r the word at (e, 0) read signed
    and CLAMPED into [0, N − 1]; the same for a vector operand [N].
  * The index normalisation select (v < 0) (v + k) v is the identity at a word that is non-negative as a signed
    integer, and a vector laid out as an [n × 1] column reads, at (e, 0), the vector at e.
  Each fact is proved once for dimension numbers given by their lists, at any extents, then read at the records of the
  kernel's program and of the reference's.
-/
import proofs.«402121_j67808943669372_2_alg».proof.KernelIdeal
import proofs.«402121_j67808943669372_2_alg».proof.ReferenceIdeal
import Idealize.ShloMosaic.Lib.ValueIdx
import Idealize.ShloMosaic.Lib.StableHlo.Predicate
import Idealize.ShloMosaic.PureOps.Ideal.Laws
import Idealize.ShloMosaic.PureOps.ShapeOps

noncomputable section

open scoped BigOperators

namespace Cert.GcnPool.IndexDecode

open Idealize.ShloMosaic Idealize.ShloMosaic.ValueIdx

/-! ## Scatter-add: where an update lands, and the sum that reaches one element -/

/-- At the ideal instance the host scatter-add at element i is the operand's element plus the sum of the updates whose
    result index is i: the definition, unfolded. -/
theorem scatterAdd_eq_sum {s si u : Shape} {w : Nat} {φ : FTy} (d : ScatterDims s si u) (x : FVec Ideal s φ)
    (idx : IVec si w) (upd : FVec Ideal u φ) (i : s.Idx) :
    Host.scatterAdd (F := Ideal) d x idx upd i
      = x i + ∑ j ∈ Finset.univ.filter (fun j => d.resultIdx? j idx = some i), upd j := rfl

section Scatter
variable {N C E w : Nat}

/-- WHERE AN UPDATE LANDS, one window axis. Over an operand [N × C], scatter indices [E × 1] and updates [E × C], with
    the row axis inserted and start-indexed and the column axis the window: update (e, c') has start
    (word at (e, 0) read signed, 0) and window coordinate (0, c'), so it lands on (n, c) exactly when that word is n
    and c' = c; a word outside [0, N) lands nowhere. -/
theorem rowScatter_resultIdx_iff (d : ScatterDims ⟨2, ![N, C]⟩ ⟨2, ![E, 1]⟩ ⟨2, ![E, C]⟩)
    (huw : d.updateWindowDims = [1]) (hiw : d.insertedWindowDims = [0])
    (hsd : d.scatterDimsToOperandDims = [0]) (hiv : d.indexVectorDim = 1)
    (idx : IVec ⟨2, ![E, 1]⟩ w) (e : Fin E) (c' : Fin C) (n : Fin N) (c : Fin C) :
    d.resultIdx? (ix2 e c') idx = some (ix2 n c) ↔ (idx (ix2 e 0)).toInt = (n : ℤ) ∧ c' = c := by
  obtain ⟨uw, iw, sd, iv, wf⟩ := d
  dsimp only at huw hiw hsd hiv
  subst huw hiw hsd hiv
  have hs0 : ScatterDims.start ⟨[1], [0], [0], 1, wf⟩ (ix2 e c') idx 0 = (idx (ix2 e 0)).toInt := by
    unfold ScatterDims.start
    rw [dif_pos (List.mem_singleton.mpr rfl)]
    congr 2
    funext b
    match b with
    | ⟨0, _⟩ => rfl
    | ⟨1, _⟩ => rfl
  have hs1 : ScatterDims.start ⟨[1], [0], [0], 1, wf⟩ (ix2 e c') idx 1 = 0 := by
    unfold ScatterDims.start
    rw [dif_neg (by simp)]
  have hw0 : ScatterDims.window ⟨[1], [0], [0], 1, wf⟩ (ix2 e c') 0 = 0 := by
    unfold ScatterDims.window
    rw [dif_neg (by simp [ScatterDims.sKept, Shape.kept])]
  have hw1 : ScatterDims.window ⟨[1], [0], [0], 1, wf⟩ (ix2 e c') 1 = c'.val := by
    unfold ScatterDims.window
    rw [dif_pos (by simp [ScatterDims.sKept, Shape.kept])]
    rfl
  unfold ScatterDims.resultIdx?
  simp only [Fin.forall_fin_two, hs0, hs1, hw0, hw1]
  split
  · rename_i h
    rw [Option.some.injEq]
    constructor
    · intro hf
      have h0 := congrArg (fun f => (f 0).val) hf
      have h1 := congrArg (fun f => (f 1).val) hf
      simp only [hs0, hs1, hw0, hw1] at h0 h1
      have hn : ((ix2 n c : (⟨2, ![N, C]⟩ : Shape).Idx) 0).val = n.val := rfl
      have hc : ((ix2 n c : (⟨2, ![N, C]⟩ : Shape).Idx) 1).val = c.val := rfl
      rw [hn] at h0
      rw [hc] at h1
      refine ⟨by omega, Fin.ext (by omega)⟩
    · rintro ⟨hn, rfl⟩
      funext a
      apply Fin.ext
      match a with
      | ⟨0, _⟩ =>
        show (ScatterDims.start (⟨[1], [0], [0], 1, wf⟩ : ScatterDims ⟨2, ![N, C]⟩ ⟨2, ![E, 1]⟩ ⟨2, ![E, C]⟩) (ix2 e c') idx 0 + (ScatterDims.window (⟨[1], [0], [0], 1, wf⟩ : ScatterDims ⟨2, ![N, C]⟩ ⟨2, ![E, 1]⟩ ⟨2, ![E, C]⟩) (ix2 e c') 0 : ℕ)).toNat = n.val
        rw [hs0, hw0, hn]; simp
      | ⟨1, _⟩ =>
        show (ScatterDims.start (⟨[1], [0], [0], 1, wf⟩ : ScatterDims ⟨2, ![N, C]⟩ ⟨2, ![E, 1]⟩ ⟨2, ![E, C]⟩) (ix2 e c') idx 1 + (ScatterDims.window (⟨[1], [0], [0], 1, wf⟩ : ScatterDims ⟨2, ![N, C]⟩ ⟨2, ![E, 1]⟩ ⟨2, ![E, C]⟩) (ix2 e c') 1 : ℕ)).toNat = c'.val
        rw [hs1, hw1]; simp
  · rename_i h
    constructor
    · intro hf; exact absurd hf (by simp)
    · rintro ⟨hn, rfl⟩
      exfalso; apply h
      have := n.isLt
      have := c'.isLt
      simp only [Matrix.cons_val_zero, Matrix.cons_val_one]
      refine ⟨⟨by omega, by omega⟩, by omega, by omega⟩

/-- The sum of the updates landing on (n, c), re-indexed along e ↦ (e, c): it is the sum, over the positions e whose
    word is n, of the update at (e, c). -/
theorem rowScatter_sum {M : Type*} [AddCommMonoid M] (d : ScatterDims ⟨2, ![N, C]⟩ ⟨2, ![E, 1]⟩ ⟨2, ![E, C]⟩)
    (huw : d.updateWindowDims = [1]) (hiw : d.insertedWindowDims = [0])
    (hsd : d.scatterDimsToOperandDims = [0]) (hiv : d.indexVectorDim = 1)
    (idx : IVec ⟨2, ![E, 1]⟩ w) (upd : (⟨2, ![E, C]⟩ : Shape).Idx → M) (n : Fin N) (c : Fin C)
    {dp : DecidablePred fun j : (⟨2, ![E, C]⟩ : Shape).Idx => d.resultIdx? j idx = some (ix2 n c)} :
    ∑ j ∈ Finset.univ.filter (fun j => d.resultIdx? j idx = some (ix2 n c)), upd j
      = ∑ e ∈ Finset.univ.filter (fun e : Fin E => (idx (ix2 e 0)).toInt = (n : ℤ)), upd (ix2 e c) := by
  refine Finset.sum_nbij' (fun j => (j 0 : Fin E)) (fun e => ix2 e c) ?_ ?_ ?_ ?_ ?_
  · intro j hj
    obtain ⟨e, c', rfl⟩ : ∃ (e : Fin E) (c' : Fin C), j = ix2 e c' := ⟨j 0, j 1, eq_ix2 j⟩
    exact Finset.mem_filter.2 ⟨Finset.mem_univ _,
      ((rowScatter_resultIdx_iff d huw hiw hsd hiv idx e c' n c).1 (Finset.mem_filter.1 hj).2).1⟩
  · intro e he
    exact Finset.mem_filter.2 ⟨Finset.mem_univ _,
      (rowScatter_resultIdx_iff d huw hiw hsd hiv idx e c n c).2 ⟨(Finset.mem_filter.1 he).2, rfl⟩⟩
  · intro j hj
    obtain ⟨e, c', rfl⟩ : ∃ (e : Fin E) (c' : Fin C), j = ix2 e c' := ⟨j 0, j 1, eq_ix2 j⟩
    obtain rfl := ((rowScatter_resultIdx_iff d huw hiw hsd hiv idx e c' n c).1 (Finset.mem_filter.1 hj).2).2
    rfl
  · intro e he; rfl
  · intro j hj
    obtain ⟨e, c', rfl⟩ : ∃ (e : Fin E) (c' : Fin C), j = ix2 e c' := ⟨j 0, j 1, eq_ix2 j⟩
    obtain rfl := ((rowScatter_resultIdx_iff d huw hiw hsd hiv idx e c' n c).1 (Finset.mem_filter.1 hj).2).2
    rfl

/-- THE SCATTER-ADD READ AT (n, c), at the ideal instance: the operand's element plus the exact sum of the updates
    (e, c) over the positions e whose word is n. -/
theorem rowScatterAdd_apply {φ : FTy} (d : ScatterDims ⟨2, ![N, C]⟩ ⟨2, ![E, 1]⟩ ⟨2, ![E, C]⟩)
    (huw : d.updateWindowDims = [1]) (hiw : d.insertedWindowDims = [0])
    (hsd : d.scatterDimsToOperandDims = [0]) (hiv : d.indexVectorDim = 1)
    (x : FVec Ideal ⟨2, ![N, C]⟩ φ) (idx : IVec ⟨2, ![E, 1]⟩ w) (upd : FVec Ideal ⟨2, ![E, C]⟩ φ)
    (n : Fin N) (c : Fin C) :
    Host.scatterAdd (F := Ideal) d x idx upd (ix2 n c)
      = x (ix2 n c) + ∑ e ∈ Finset.univ.filter (fun e : Fin E => (idx (ix2 e 0)).toInt = (n : ℤ)), upd (ix2 e c) := by
  show Ideal.hostScatterAdd d x idx upd (ix2 n c) = _
  unfold Ideal.hostScatterAdd
  rw [rowScatter_sum d huw hiw hsd hiv idx upd n c]

/-- WHERE AN UPDATE LANDS, no window axis. Over an operand [N], scatter indices [E × 1] and updates [E]: update e lands
    on n exactly when the word at (e, 0), read signed, is n. -/
theorem vecScatter_resultIdx_iff (d : ScatterDims ⟨1, ![N]⟩ ⟨2, ![E, 1]⟩ ⟨1, ![E]⟩)
    (huw : d.updateWindowDims = []) (hiw : d.insertedWindowDims = [0])
    (hsd : d.scatterDimsToOperandDims = [0]) (hiv : d.indexVectorDim = 1)
    (idx : IVec ⟨2, ![E, 1]⟩ w) (e : Fin E) (n : Fin N) :
    d.resultIdx? (ix1 e) idx = some (ix1 n) ↔ (idx (ix2 e 0)).toInt = (n : ℤ) := by
  obtain ⟨uw, iw, sd, iv, wf⟩ := d
  dsimp only at huw hiw hsd hiv
  subst huw hiw hsd hiv
  have hs0 : ScatterDims.start (⟨[], [0], [0], 1, wf⟩ : ScatterDims ⟨1, ![N]⟩ ⟨2, ![E, 1]⟩ ⟨1, ![E]⟩) (ix1 e) idx 0
      = (idx (ix2 e 0)).toInt := by
    unfold ScatterDims.start
    rw [dif_pos (List.mem_singleton.mpr rfl)]
    congr 2
    funext b
    match b with
    | ⟨0, _⟩ => rfl
    | ⟨1, _⟩ => rfl
  have hw0 : ScatterDims.window (⟨[], [0], [0], 1, wf⟩ : ScatterDims ⟨1, ![N]⟩ ⟨2, ![E, 1]⟩ ⟨1, ![E]⟩) (ix1 e) 0 = 0 := by
    unfold ScatterDims.window
    rw [dif_neg (by simp [ScatterDims.sKept, Shape.kept])]
  unfold ScatterDims.resultIdx?
  simp only [Fin.forall_fin_one, hs0, hw0]
  split
  · rename_i h
    rw [Option.some.injEq]
    constructor
    · intro hf
      have h0 := congrArg (fun f => (f 0).val) hf
      simp only [hs0, hw0] at h0
      have hn : ((ix1 n : (⟨1, ![N]⟩ : Shape).Idx) 0).val = n.val := rfl
      rw [hn] at h0
      omega
    · intro hn
      funext a
      apply Fin.ext
      match a with
      | ⟨0, _⟩ =>
        show (ScatterDims.start (⟨[], [0], [0], 1, wf⟩ : ScatterDims ⟨1, ![N]⟩ ⟨2, ![E, 1]⟩ ⟨1, ![E]⟩) (ix1 e) idx 0
          + (ScatterDims.window (⟨[], [0], [0], 1, wf⟩ : ScatterDims ⟨1, ![N]⟩ ⟨2, ![E, 1]⟩ ⟨1, ![E]⟩) (ix1 e) 0 : ℕ)).toNat = n.val
        rw [hs0, hw0, hn]; simp
  · rename_i h
    constructor
    · intro hf; exact absurd hf (by simp)
    · intro hn
      exfalso; apply h
      have := n.isLt
      simp only [Matrix.cons_val_zero]
      refine ⟨by omega, by omega⟩

/-- The sum of the updates landing on n is the sum of the updates at the positions whose word is n. -/
theorem vecScatter_sum {M : Type*} [AddCommMonoid M] (d : ScatterDims ⟨1, ![N]⟩ ⟨2, ![E, 1]⟩ ⟨1, ![E]⟩)
    (huw : d.updateWindowDims = []) (hiw : d.insertedWindowDims = [0])
    (hsd : d.scatterDimsToOperandDims = [0]) (hiv : d.indexVectorDim = 1)
    (idx : IVec ⟨2, ![E, 1]⟩ w) (upd : (⟨1, ![E]⟩ : Shape).Idx → M) (n : Fin N)
    {dp : DecidablePred fun j : (⟨1, ![E]⟩ : Shape).Idx => d.resultIdx? j idx = some (ix1 n)} :
    ∑ j ∈ Finset.univ.filter (fun j => d.resultIdx? j idx = some (ix1 n)), upd j
      = ∑ e ∈ Finset.univ.filter (fun e : Fin E => (idx (ix2 e 0)).toInt = (n : ℤ)), upd (ix1 e) := by
  refine Finset.sum_nbij' (fun j => (j 0 : Fin E)) (fun e => ix1 e) ?_ ?_ ?_ ?_ ?_
  · intro j hj
    obtain ⟨e, rfl⟩ : ∃ e : Fin E, j = ix1 e := ⟨j 0, eq_ix1 j⟩
    exact Finset.mem_filter.2 ⟨Finset.mem_univ _,
      (vecScatter_resultIdx_iff d huw hiw hsd hiv idx e n).1 (Finset.mem_filter.1 hj).2⟩
  · intro e he
    exact Finset.mem_filter.2 ⟨Finset.mem_univ _,
      (vecScatter_resultIdx_iff d huw hiw hsd hiv idx e n).2 (Finset.mem_filter.1 he).2⟩
  · intro j hj
    obtain ⟨e, rfl⟩ : ∃ e : Fin E, j = ix1 e := ⟨j 0, eq_ix1 j⟩
    rfl
  · intro e he; rfl
  · intro j hj
    obtain ⟨e, rfl⟩ : ∃ e : Fin E, j = ix1 e := ⟨j 0, eq_ix1 j⟩
    rfl

/-- The vector scatter-add read at n, at the ideal instance. -/
theorem vecScatterAdd_apply {φ : FTy} (d : ScatterDims ⟨1, ![N]⟩ ⟨2, ![E, 1]⟩ ⟨1, ![E]⟩)
    (huw : d.updateWindowDims = []) (hiw : d.insertedWindowDims = [0])
    (hsd : d.scatterDimsToOperandDims = [0]) (hiv : d.indexVectorDim = 1)
    (x : FVec Ideal ⟨1, ![N]⟩ φ) (idx : IVec ⟨2, ![E, 1]⟩ w) (upd : FVec Ideal ⟨1, ![E]⟩ φ) (n : Fin N) :
    Host.scatterAdd (F := Ideal) d x idx upd (ix1 n)
      = x (ix1 n) + ∑ e ∈ Finset.univ.filter (fun e : Fin E => (idx (ix2 e 0)).toInt = (n : ℤ)), upd (ix1 e) := by
  show Ideal.hostScatterAdd d x idx upd (ix1 n) = _
  unfold Ideal.hostScatterAdd
  rw [vecScatter_sum d huw hiw hsd hiv idx upd n]

end Scatter

/-! ## Gather: the row a start index reads -/

section Gather
variable {α : Type} {N C E w : Nat}

/-- THE ROW GATHER READ AT (e, c). Over an operand [N × C], start indices [E × 1] and a result [E × C], the row axis
    collapsed and start-indexed (slice [1 × C]), the column axis the offset: result (e, c) reads the operand at row
    (word at (e, 0) read signed, clamped into [0, N − 1]) and column c. -/
theorem rowGather_apply (d : GatherDims ⟨2, ![N, C]⟩ ⟨2, ![E, 1]⟩ ⟨2, ![E, C]⟩)
    (hoff : d.offsetDims = [1]) (hcoll : d.collapsedSliceDims = [0]) (hob : d.operandBatchingDims = [])
    (hsb : d.startIndicesBatchingDims = []) (hsim : d.startIndexMap = [0]) (hiv : d.indexVectorDim = 1)
    (hss : d.sliceSizes = ![1, C]) (hN : 0 < N)
    (x : (⟨2, ![N, C]⟩ : Shape).Idx → α) (idx : IVec ⟨2, ![E, 1]⟩ w) (e : Fin E) (c : Fin C) :
    Host.gather d x idx (ix2 e c)
      = x (ix2 (⟨min (idx (ix2 e 0)).toInt.toNat (N - 1), by omega⟩ : Fin N) c) := by
  obtain ⟨od, cd, ob, sb, sm, iv, ss, wf⟩ := d
  dsimp only at hoff hcoll hob hsb hsim hiv hss
  subst hoff hcoll hob hsb hsim hiv hss
  unfold Host.gather
  congr 1
  funext a
  apply Fin.ext
  match a with
  | ⟨0, _⟩ =>
    show GatherDims.start (⟨[1], [0], [], [], [0], 1, ![1, C], wf⟩ : GatherDims ⟨2, ![N, C]⟩ ⟨2, ![E, 1]⟩ ⟨2, ![E, C]⟩) (ix2 e c) idx 0
      + GatherDims.batchCoord (⟨[1], [0], [], [], [0], 1, ![1, C], wf⟩ : GatherDims ⟨2, ![N, C]⟩ ⟨2, ![E, 1]⟩ ⟨2, ![E, C]⟩) (ix2 e c) 0
      + GatherDims.offCoord (⟨[1], [0], [], [], [0], 1, ![1, C], wf⟩ : GatherDims ⟨2, ![N, C]⟩ ⟨2, ![E, 1]⟩ ⟨2, ![E, C]⟩) (ix2 e c) 0
      = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    congr 3
    congr 1
    funext b
    match b with
    | ⟨0, _⟩ => rfl
    | ⟨1, _⟩ => rfl
  | ⟨1, _⟩ =>
    show GatherDims.start (⟨[1], [0], [], [], [0], 1, ![1, C], wf⟩ : GatherDims ⟨2, ![N, C]⟩ ⟨2, ![E, 1]⟩ ⟨2, ![E, C]⟩) (ix2 e c) idx 1
      + GatherDims.batchCoord (⟨[1], [0], [], [], [0], 1, ![1, C], wf⟩ : GatherDims ⟨2, ![N, C]⟩ ⟨2, ![E, 1]⟩ ⟨2, ![E, C]⟩) (ix2 e c) 1
      + GatherDims.offCoord (⟨[1], [0], [], [], [0], 1, ![1, C], wf⟩ : GatherDims ⟨2, ![N, C]⟩ ⟨2, ![E, 1]⟩ ⟨2, ![E, C]⟩) (ix2 e c) 1
      = c.val
    rw [GatherDims.batchCoord_eq_zero _ _ _ List.not_mem_nil]
    have hst : GatherDims.start (⟨[1], [0], [], [], [0], 1, ![1, C], wf⟩ : GatherDims ⟨2, ![N, C]⟩ ⟨2, ![E, 1]⟩ ⟨2, ![E, C]⟩) (ix2 e c) idx 1 = 0 := by
      unfold GatherDims.start
      rw [dif_neg (by simp)]
    have hoc : GatherDims.offCoord (⟨[1], [0], [], [], [0], 1, ![1, C], wf⟩ : GatherDims ⟨2, ![N, C]⟩ ⟨2, ![E, 1]⟩ ⟨2, ![E, C]⟩) (ix2 e c) 1 = c.val := by
      unfold GatherDims.offCoord
      rw [dif_pos (by simp [GatherDims.sKept, Shape.kept])]
      rfl
    rw [hst, hoc]; simp

/-- THE VECTOR GATHER READ AT e. Over an operand [N], start indices [E × 1] and a result [E]: result e reads the operand
    at the word at (e, 0) read signed and clamped into [0, N − 1]. -/
theorem vecGather_apply (d : GatherDims ⟨1, ![N]⟩ ⟨2, ![E, 1]⟩ ⟨1, ![E]⟩)
    (hoff : d.offsetDims = []) (hcoll : d.collapsedSliceDims = [0]) (hob : d.operandBatchingDims = [])
    (hsb : d.startIndicesBatchingDims = []) (hsim : d.startIndexMap = [0]) (hiv : d.indexVectorDim = 1)
    (hss : d.sliceSizes = ![1]) (hN : 0 < N)
    (x : (⟨1, ![N]⟩ : Shape).Idx → α) (idx : IVec ⟨2, ![E, 1]⟩ w) (e : Fin E) :
    Host.gather d x idx (ix1 e)
      = x (ix1 (⟨min (idx (ix2 e 0)).toInt.toNat (N - 1), by omega⟩ : Fin N)) := by
  obtain ⟨od, cd, ob, sb, sm, iv, ss, wf⟩ := d
  dsimp only at hoff hcoll hob hsb hsim hiv hss
  subst hoff hcoll hob hsb hsim hiv hss
  unfold Host.gather
  congr 1
  funext a
  apply Fin.ext
  match a with
  | ⟨0, _⟩ =>
    show GatherDims.start (⟨[], [0], [], [], [0], 1, ![1], wf⟩ : GatherDims ⟨1, ![N]⟩ ⟨2, ![E, 1]⟩ ⟨1, ![E]⟩) (ix1 e) idx 0
      + GatherDims.batchCoord (⟨[], [0], [], [], [0], 1, ![1], wf⟩ : GatherDims ⟨1, ![N]⟩ ⟨2, ![E, 1]⟩ ⟨1, ![E]⟩) (ix1 e) 0
      + GatherDims.offCoord (⟨[], [0], [], [], [0], 1, ![1], wf⟩ : GatherDims ⟨1, ![N]⟩ ⟨2, ![E, 1]⟩ ⟨1, ![E]⟩) (ix1 e) 0
      = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    congr 3
    congr 1
    funext b
    match b with
    | ⟨0, _⟩ => rfl
    | ⟨1, _⟩ => rfl

end Gather

/-! ## The index normalisation and the column layout, read at a word -/

section Normalise

/-- A word that is non-negative as a signed integer is not below zero, so the select keeps it. -/
theorem normIdx_of_nonneg (v k : BitVec 32) (h : 0 ≤ v.toInt) :
    Scalar.select (IntOp.cmpi .slt v 0#32) (IntOp.addi v k) v = v := by
  have hc : IntOp.cmpi .slt v 0#32 = 0#1 := by
    unfold IntOp.cmpi
    have : v.slt 0#32 = false := by
      rw [BitVec.slt_eq_decide]
      simpa using h
    simp only [this]
    rfl
  rw [hc]
  exact select_zero _ _

/-- The normalisation on a vector of words, read at an index: the compare against the broadcast constant 0, the add of the
    broadcast constant k and the select all read through to the words at that index. -/
theorem normIdx_apply {S : Shape} (hb : (⟨0, ![]⟩ : Shape).BroadcastsInDim S ![]) (v : IVec S 32) (k : BitVec 32)
    (i : S.Idx) (h : 0 ≤ (v i).toInt) :
    select (cmpi .slt v (broadcastInDim S ![] hb (constantI ⟨0, ![]⟩ 32 0#32)))
      (addi v (broadcastInDim S ![] hb (constantI ⟨0, ![]⟩ 32 k))) v i = v i :=
  normIdx_of_nonneg (v i) k h

/-- A vector laid out as an [n × 1] column reads, at (e, 0), the vector at e. -/
theorem bcastCol_apply {α : Type} {n : Nat} (hb : (⟨1, ![n]⟩ : Shape).BroadcastsInDim ⟨2, ![n, 1]⟩ ![0])
    (v : (⟨1, ![n]⟩ : Shape).Idx → α) (e : Fin n) :
    broadcastInDim ⟨2, ![n, 1]⟩ ![0] hb v (ix2 e 0) = v (ix1 e) := by
  simp only [broadcastInDim]
  congr 1
  funext a
  match a with
  | ⟨0, _⟩ =>
    apply Fin.ext
    have he := e.isLt
    split
    · next h1 => change n = 1 at h1; show (0 : Nat) = e.val; omega
    · rfl

/-- The two together: the normalised vector as a column, read at (e, 0), is the vector at e when that word is
    non-negative. -/
theorem normCol_apply {n : Nat} (hb0 : (⟨0, ![]⟩ : Shape).BroadcastsInDim ⟨1, ![n]⟩ ![])
    (hb : (⟨1, ![n]⟩ : Shape).BroadcastsInDim ⟨2, ![n, 1]⟩ ![0]) (v : IVec ⟨1, ![n]⟩ 32) (k : BitVec 32) (e : Fin n)
    (h : 0 ≤ (v (ix1 e)).toInt) :
    broadcastInDim ⟨2, ![n, 1]⟩ ![0] hb
        (select (cmpi .slt v (broadcastInDim ⟨1, ![n]⟩ ![] hb0 (constantI ⟨0, ![]⟩ 32 0#32)))
          (addi v (broadcastInDim ⟨1, ![n]⟩ ![] hb0 (constantI ⟨0, ![]⟩ 32 k))) v) (ix2 e 0)
      = v (ix1 e) := by
  rw [bcastCol_apply]
  exact normIdx_apply hb0 v k (ix1 e) h

end Normalise

/-! ## The clamp of a row index into the 100000 rows -/

/-- A signed 32-bit word clamped into the rows [0, 100000 − 1]: a negative word reads row 0, one past the end the last. -/
def rowOf (v : BitVec 32) : Fin 100000 := ⟨min v.toInt.toNat (100000 - 1), by omega⟩

/-- On a word already in range the clamp is the word. -/
theorem rowOf_val (v : BitVec 32) (h0 : 0 ≤ v.toInt) (h1 : v.toInt < 100000) : (rowOf v : ℕ) = v.toInt.toNat := by
  show min v.toInt.toNat (100000 - 1) = v.toInt.toNat
  omega

/-- On a word in range, the clamp is row n exactly when the word is n. -/
theorem rowOf_eq_iff (v : BitVec 32) (h0 : 0 ≤ v.toInt) (h1 : v.toInt < 100000) (n : Fin 100000) :
    rowOf v = n ↔ v.toInt = (n : ℤ) := by
  rw [Fin.ext_iff, rowOf_val v h0 h1]
  omega

/-! ## The records of the kernel's program -/

namespace Kernel

open Cert.KernelIdeal

variable [Cert.KernelIdeal.Facts₀]

/-- The row scatter: update (e, c') lands on (n, c) iff the word at (e, 0) is n and c' = c. -/
theorem rowScatter_iff (idx : IVec S1700000x1 32) (e : Fin 1700000) (c' : Fin 128) (n : Fin 100000) (c : Fin 128) :
    scatter_S100000x128_S1700000x1_S1700000x128_1_0_0_1.resultIdx? (ix2 e c') idx = some (ix2 n c)
      ↔ (idx (ix2 e 0)).toInt = (n : ℤ) ∧ c' = c :=
  rowScatter_resultIdx_iff _ rfl rfl rfl rfl idx e c' n c

/-- The updates that reach (n, c), re-indexed by the edge position. -/
theorem rowScatter_sum_eq {M : Type*} [AddCommMonoid M] (idx : IVec S1700000x1 32) (upd : S1700000x128.Idx → M)
    (n : Fin 100000) (c : Fin 128)
    {dp : DecidablePred fun j : S1700000x128.Idx =>
      scatter_S100000x128_S1700000x1_S1700000x128_1_0_0_1.resultIdx? j idx = some (ix2 n c)} :
    ∑ j ∈ Finset.univ.filter
        (fun j => scatter_S100000x128_S1700000x1_S1700000x128_1_0_0_1.resultIdx? j idx = some (ix2 n c)), upd j
      = ∑ e ∈ Finset.univ.filter (fun e : Fin 1700000 => (idx (ix2 e 0)).toInt = (n : ℤ)), upd (ix2 e c) :=
  rowScatter_sum _ rfl rfl rfl rfl idx upd n c

/-- The row scatter-add read at (n, c). -/
theorem rowScatterAdd_at {φ : FTy} (x : FVec Ideal S100000x128 φ) (idx : IVec S1700000x1 32)
    (upd : FVec Ideal S1700000x128 φ) (n : Fin 100000) (c : Fin 128) :
    Host.scatterAdd (F := Ideal) scatter_S100000x128_S1700000x1_S1700000x128_1_0_0_1 x idx upd (ix2 n c)
      = x (ix2 n c)
        + ∑ e ∈ Finset.univ.filter (fun e : Fin 1700000 => (idx (ix2 e 0)).toInt = (n : ℤ)), upd (ix2 e c) :=
  rowScatterAdd_apply _ rfl rfl rfl rfl x idx upd n c

/-- The vector scatter over the edge positions: update e lands on n iff the word at (e, 0) is n. -/
theorem edgeScatter_iff (idx : IVec S1700000x1 32) (e : Fin 1700000) (n : Fin 100000) :
    scatter_S100000_S1700000x1_S1700000_n_0_0_1.resultIdx? (ix1 e) idx = some (ix1 n)
      ↔ (idx (ix2 e 0)).toInt = (n : ℤ) :=
  vecScatter_resultIdx_iff _ rfl rfl rfl rfl idx e n

/-- The vector scatter-add over the edge positions read at n. -/
theorem edgeScatterAdd_at {φ : FTy} (x : FVec Ideal S100000 φ) (idx : IVec S1700000x1 32)
    (upd : FVec Ideal S1700000 φ) (n : Fin 100000) :
    Host.scatterAdd (F := Ideal) scatter_S100000_S1700000x1_S1700000_n_0_0_1 x idx upd (ix1 n)
      = x (ix1 n)
        + ∑ e ∈ Finset.univ.filter (fun e : Fin 1700000 => (idx (ix2 e 0)).toInt = (n : ℤ)), upd (ix1 e) :=
  vecScatterAdd_apply _ rfl rfl rfl rfl x idx upd n

/-- The vector scatter over the rows into the 128 groups: row n lands on group g iff the word at (n, 0) is g. -/
theorem groupScatter_iff (idx : IVec S100000x1 32) (n : Fin 100000) (g : Fin 128) :
    scatter_S128_S100000x1_S100000_n_0_0_1.resultIdx? (ix1 n) idx = some (ix1 g)
      ↔ (idx (ix2 n 0)).toInt = (g : ℤ) :=
  vecScatter_resultIdx_iff _ rfl rfl rfl rfl idx n g

/-- The vector scatter-add over the rows into the 128 groups read at g. -/
theorem groupScatterAdd_at {φ : FTy} (x : FVec Ideal S128 φ) (idx : IVec S100000x1 32)
    (upd : FVec Ideal S100000 φ) (g : Fin 128) :
    Host.scatterAdd (F := Ideal) scatter_S128_S100000x1_S100000_n_0_0_1 x idx upd (ix1 g)
      = x (ix1 g)
        + ∑ n ∈ Finset.univ.filter (fun n : Fin 100000 => (idx (ix2 n 0)).toInt = (g : ℤ)), upd (ix1 n) :=
  vecScatterAdd_apply _ rfl rfl rfl rfl x idx upd g

/-- The row gather read at (e, c): the operand's row at the clamped word, column c. -/
theorem rowGather_at {φ : FTy} (x : FVec Ideal S100000x128 φ) (idx : IVec S1700000x1 32) (e : Fin 1700000)
    (c : Fin 128) :
    Host.gather gather_S100000x128_S1700000x1_S1700000x128_1_0_n_n_0_1_1128 x idx (ix2 e c)
      = x (ix2 (rowOf (idx (ix2 e 0))) c) :=
  rowGather_apply _ rfl rfl rfl rfl rfl rfl rfl (by norm_num) x idx e c

end Kernel

/-! ## The records of the reference's program -/

namespace Reference

open Cert.ReferenceIdeal

variable [Cert.ReferenceIdeal.Facts₀]

/-- The row scatter: update (e, c') lands on (n, c) iff the word at (e, 0) is n and c' = c. -/
theorem rowScatter_iff (idx : IVec S1700000x1 32) (e : Fin 1700000) (c' : Fin 128) (n : Fin 100000) (c : Fin 128) :
    scatter_S100000x128_S1700000x1_S1700000x128_1_0_0_1.resultIdx? (ix2 e c') idx = some (ix2 n c)
      ↔ (idx (ix2 e 0)).toInt = (n : ℤ) ∧ c' = c :=
  rowScatter_resultIdx_iff _ rfl rfl rfl rfl idx e c' n c

/-- The updates that reach (n, c), re-indexed by the edge position. -/
theorem rowScatter_sum_eq {M : Type*} [AddCommMonoid M] (idx : IVec S1700000x1 32) (upd : S1700000x128.Idx → M)
    (n : Fin 100000) (c : Fin 128)
    {dp : DecidablePred fun j : S1700000x128.Idx =>
      scatter_S100000x128_S1700000x1_S1700000x128_1_0_0_1.resultIdx? j idx = some (ix2 n c)} :
    ∑ j ∈ Finset.univ.filter
        (fun j => scatter_S100000x128_S1700000x1_S1700000x128_1_0_0_1.resultIdx? j idx = some (ix2 n c)), upd j
      = ∑ e ∈ Finset.univ.filter (fun e : Fin 1700000 => (idx (ix2 e 0)).toInt = (n : ℤ)), upd (ix2 e c) :=
  rowScatter_sum _ rfl rfl rfl rfl idx upd n c

/-- The row scatter-add read at (n, c). -/
theorem rowScatterAdd_at {φ : FTy} (x : FVec Ideal S100000x128 φ) (idx : IVec S1700000x1 32)
    (upd : FVec Ideal S1700000x128 φ) (n : Fin 100000) (c : Fin 128) :
    Host.scatterAdd (F := Ideal) scatter_S100000x128_S1700000x1_S1700000x128_1_0_0_1 x idx upd (ix2 n c)
      = x (ix2 n c)
        + ∑ e ∈ Finset.univ.filter (fun e : Fin 1700000 => (idx (ix2 e 0)).toInt = (n : ℤ)), upd (ix2 e c) :=
  rowScatterAdd_apply _ rfl rfl rfl rfl x idx upd n c

/-- The vector scatter over the edge positions: update e lands on n iff the word at (e, 0) is n. -/
theorem edgeScatter_iff (idx : IVec S1700000x1 32) (e : Fin 1700000) (n : Fin 100000) :
    scatter_S100000_S1700000x1_S1700000_n_0_0_1.resultIdx? (ix1 e) idx = some (ix1 n)
      ↔ (idx (ix2 e 0)).toInt = (n : ℤ) :=
  vecScatter_resultIdx_iff _ rfl rfl rfl rfl idx e n

/-- The vector scatter-add over the edge positions read at n. -/
theorem edgeScatterAdd_at {φ : FTy} (x : FVec Ideal S100000 φ) (idx : IVec S1700000x1 32)
    (upd : FVec Ideal S1700000 φ) (n : Fin 100000) :
    Host.scatterAdd (F := Ideal) scatter_S100000_S1700000x1_S1700000_n_0_0_1 x idx upd (ix1 n)
      = x (ix1 n)
        + ∑ e ∈ Finset.univ.filter (fun e : Fin 1700000 => (idx (ix2 e 0)).toInt = (n : ℤ)), upd (ix1 e) :=
  vecScatterAdd_apply _ rfl rfl rfl rfl x idx upd n

/-- The vector scatter over the rows into the 128 groups: row n lands on group g iff the word at (n, 0) is g. -/
theorem groupScatter_iff (idx : IVec S100000x1 32) (n : Fin 100000) (g : Fin 128) :
    scatter_S128_S100000x1_S100000_n_0_0_1.resultIdx? (ix1 n) idx = some (ix1 g)
      ↔ (idx (ix2 n 0)).toInt = (g : ℤ) :=
  vecScatter_resultIdx_iff _ rfl rfl rfl rfl idx n g

/-- The vector scatter-add over the rows into the 128 groups read at g. -/
theorem groupScatterAdd_at {φ : FTy} (x : FVec Ideal S128 φ) (idx : IVec S100000x1 32)
    (upd : FVec Ideal S100000 φ) (g : Fin 128) :
    Host.scatterAdd (F := Ideal) scatter_S128_S100000x1_S100000_n_0_0_1 x idx upd (ix1 g)
      = x (ix1 g)
        + ∑ n ∈ Finset.univ.filter (fun n : Fin 100000 => (idx (ix2 n 0)).toInt = (g : ℤ)), upd (ix1 n) :=
  vecScatterAdd_apply _ rfl rfl rfl rfl x idx upd g

/-- The row gather read at (e, c): the operand's row at the clamped word, column c. -/
theorem rowGather_at {φ : FTy} (x : FVec Ideal S100000x128 φ) (idx : IVec S1700000x1 32) (e : Fin 1700000)
    (c : Fin 128) :
    Host.gather gather_S100000x128_S1700000x1_S1700000x128_1_0_n_n_0_1_1128 x idx (ix2 e c)
      = x (ix2 (rowOf (idx (ix2 e 0))) c) :=
  rowGather_apply _ rfl rfl rfl rfl rfl rfl rfl (by norm_num) x idx e c

/-- The pooling scatter: update (n, c') lands on (g, c) iff the word at (n, 0) is g and c' = c. -/
theorem poolScatter_iff (idx : IVec S100000x1 32) (n : Fin 100000) (c' : Fin 128) (g : Fin 128) (c : Fin 128) :
    scatter_S128x128_S100000x1_S100000x128_1_0_0_1.resultIdx? (ix2 n c') idx = some (ix2 g c)
      ↔ (idx (ix2 n 0)).toInt = (g : ℤ) ∧ c' = c :=
  rowScatter_resultIdx_iff _ rfl rfl rfl rfl idx n c' g c

/-- The updates that reach (g, c) of the pooled array, re-indexed by the row. -/
theorem poolScatter_sum_eq {M : Type*} [AddCommMonoid M] (idx : IVec S100000x1 32) (upd : S100000x128.Idx → M)
    (g : Fin 128) (c : Fin 128)
    {dp : DecidablePred fun j : S100000x128.Idx =>
      scatter_S128x128_S100000x1_S100000x128_1_0_0_1.resultIdx? j idx = some (ix2 g c)} :
    ∑ j ∈ Finset.univ.filter
        (fun j => scatter_S128x128_S100000x1_S100000x128_1_0_0_1.resultIdx? j idx = some (ix2 g c)), upd j
      = ∑ n ∈ Finset.univ.filter (fun n : Fin 100000 => (idx (ix2 n 0)).toInt = (g : ℤ)), upd (ix2 n c) :=
  rowScatter_sum _ rfl rfl rfl rfl idx upd g c

/-- The pooling scatter-add read at (g, c). -/
theorem poolScatterAdd_at {φ : FTy} (x : FVec Ideal S128x128 φ) (idx : IVec S100000x1 32)
    (upd : FVec Ideal S100000x128 φ) (g : Fin 128) (c : Fin 128) :
    Host.scatterAdd (F := Ideal) scatter_S128x128_S100000x1_S100000x128_1_0_0_1 x idx upd (ix2 g c)
      = x (ix2 g c)
        + ∑ n ∈ Finset.univ.filter (fun n : Fin 100000 => (idx (ix2 n 0)).toInt = (g : ℤ)), upd (ix2 n c) :=
  rowScatterAdd_apply _ rfl rfl rfl rfl x idx upd g c

/-- The vector gather read at e: the operand at the clamped word. -/
theorem vecGather_at {φ : FTy} (x : FVec Ideal S100000 φ) (idx : IVec S1700000x1 32) (e : Fin 1700000) :
    Host.gather gather_S100000_S1700000x1_S1700000_n_0_n_n_0_1_1 x idx (ix1 e)
      = x (ix1 (rowOf (idx (ix2 e 0)))) :=
  vecGather_apply _ rfl rfl rfl rfl rfl rfl rfl (by norm_num) x idx e

end Reference

end Cert.GcnPool.IndexDecode

end
-- ==== Proof.RefForm.lean ====
/-
  The reference program's result read at one index, at the ideal instance.

  The program: h = x · W; every edge position e (the 1600000 edges, then one self loop per row) carries a source word and
  a destination word; a row's normaliser is the inverse square root of its degree (or 0). The aggregation of row n is the
  sum, over the positions whose destination word is n, of h at the (normalised, clamped) source row times the normalisers
  of the two (normalised, clamped) end rows; the bias is added, the activation keeps a positive value and multiplies the
  others by the column's slope, the activated row is divided by its Euclidean norm floored at a small positive word, and
  the rows of each group are summed and divided by the group's divisor.

  Each operation is read at an index from the operands at an index, innermost first, so that every statement mentions
  the operands only through the named pieces below; the word arrays, the normaliser and the divisor stay the opaque
  terms of the operation-by-operation reading.
-/
import proofs.«402121_j67808943669372_2_alg».proof.Proof.ReadP
import proofs.«402121_j67808943669372_2_alg».proof.Proof.IndexDecode
import Idealize.ShloMosaic.Lib.ValueIdx
import Idealize.ShloMosaic.PureOps.Ideal.Laws

noncomputable section

open scoped BigOperators

namespace Cert.GcnPool.Ref

open Cert.ReferenceIdeal Idealize.ShloMosaic Idealize.ShloMosaic.ValueIdx Cert.GcnPool.IndexDecode

/-! ## The pieces -/

/-- The source words, one per edge position (the edges, then one self loop per row). -/
abbrev srcW (ei : IVec S2x1600000 32) : IVec S1700000 32 := ReadP.val_main_v4 (F := Ideal) ei
/-- The destination words. -/
abbrev dstW (ei : IVec S2x1600000 32) : IVec S1700000 32 := ReadP.val_main_v7 (F := Ideal) ei
/-- The normaliser of a row: the inverse square root of its degree, or 0. -/
abbrev dinvR (ei : IVec S2x1600000 32) : FVec Ideal S100000 .f32 := ReadP.val_main_v15 (F := Ideal) ei

/-- A word normalised before a gather: a negative word has 100000 added. -/
def normW (v : BitVec 32) : BitVec 32 := Scalar.select (IntOp.cmpi .slt v 0#32) (IntOp.addi v 100000#32) v
/-- The normalised source word of edge position e. -/
def srcN (ei : IVec S2x1600000 32) (e : Fin 1700000) : BitVec 32 := normW (srcW ei (ix1 e))
/-- The normalised destination word of edge position e. -/
def dstN (ei : IVec S2x1600000 32) (e : Fin 1700000) : BitVec 32 := normW (dstW ei (ix1 e))

/-- The transformed features: row n of x times column q of W. -/
def hR (x : FVec Ideal S100000x128 .f32) (W : FVec Ideal S128x128 .f32) (n : Fin 100000) (q : Fin 128) : EReal :=
  ∑ k : Fin 128, x (ix2 n k) * W (ix2 k q)

/-- The aggregated row n, column q: the sum over the edge positions whose destination word is n of the source row's
    transformed feature times the two normalisers, plus the bias. -/
def outR (x : FVec Ideal S100000x128 .f32) (ei : IVec S2x1600000 32) (W : FVec Ideal S128x128 .f32)
    (b : FVec Ideal S128 .f32) (n : Fin 100000) (q : Fin 128) : EReal :=
  (0 + ∑ e ∈ Finset.univ.filter (fun e : Fin 1700000 => (dstW ei (ix1 e)).toInt = (n : ℤ)),
      hR x W (rowOf (srcN ei e)) q * (dinvR ei (ix1 (rowOf (srcN ei e))) * dinvR ei (ix1 (rowOf (dstN ei e)))))
    + b (ix1 q)

/-- The activation: the value where it is positive, the slope of its column times the value elsewhere. -/
def actR (x : FVec Ideal S100000x128 .f32) (ei : IVec S2x1600000 32) (W : FVec Ideal S128x128 .f32)
    (b a : FVec Ideal S128 .f32) (n : Fin 100000) (q : Fin 128) : EReal :=
  Scalar.select (Ideal.cmp .ogt (outR x ei W b n q) 0) (outR x ei W b n q) (a (ix1 q) * outR x ei W b n q)

/-- The activated row divided by its Euclidean norm, the norm floored at the word 0x2B8CBCCC. -/
def unitR (x : FVec Ideal S100000x128 .f32) (ei : IVec S2x1600000 32) (W : FVec Ideal S128x128 .f32)
    (b a : FVec Ideal S128 .f32) (n : Fin 100000) (q : Fin 128) : EReal :=
  Ideal.div (actR x ei W b a n q)
    (max (Ideal.sqrt (0 + ∑ c : Fin 128, actR x ei W b a n c * actR x ei W b a n c))
      (Ideal.ofBits .f32 0x2B8CBCCC#32))

/-! ## The operations, one at a time -/

/-- The matrix product at (n, q) is the sum over k of x (n, k) times W (k, q). -/
theorem v0_at (x : FVec Ideal S100000x128 .f32) (W : FVec Ideal S128x128 .f32) (n : Fin 100000) (q : Fin 128) :
    ReadP.val_main_v0 (F := Ideal) x W (ix2 n q) = hR x W n q := by
  rw [ReadP.val_main_v0_apply]
  unfold hR
  refine Finset.sum_congr rfl fun k _ => ?_
  have hl : ReadP.lidx_main_v0 (ix2 n q) k = ix2 n k := by
    funext a; match a with
    | ⟨0, _⟩ => rfl
    | ⟨1, _⟩ => rfl
  have hr : ReadP.ridx_main_v0 (ix2 n q) k = ix2 k q := by
    funext a; match a with
    | ⟨0, _⟩ => rfl
    | ⟨1, _⟩ => rfl
  rw [hl, hr]

/-- The start-index column of the first normaliser gather, at (e, 0): the normalised source word of e. -/
theorem v21_at (ei : IVec S2x1600000 32) (e : Fin 1700000) :
    ReadP.val_main_v21 (F := Ideal) ei (ix2 e 0) = srcN ei e := by
  have hi : ReadP.idx_main_v21 (ix2 e 0) = ix1 e := by
    funext a; match a with
    | ⟨0, _⟩ => rfl
  rw [ReadP.val_main_v21_apply, hi, ReadP.val_main_v20_apply, ReadP.val_main_v17_apply, ReadP.val_main_v19_apply,
    ReadP.val_main_v16_apply, ReadP.val_main_v18_apply, ReadP.val_main_c_apply, ReadP.val_main_c_3_apply]
  rfl

/-- The start-index column of the second normaliser gather, at (e, 0): the normalised destination word of e. -/
theorem v28_at (ei : IVec S2x1600000 32) (e : Fin 1700000) :
    ReadP.val_main_v28 (F := Ideal) ei (ix2 e 0) = dstN ei e := by
  have hi : ReadP.idx_main_v28 (ix2 e 0) = ix1 e := by
    funext a; match a with
    | ⟨0, _⟩ => rfl
  rw [ReadP.val_main_v28_apply, hi, ReadP.val_main_v27_apply, ReadP.val_main_v24_apply, ReadP.val_main_v26_apply,
    ReadP.val_main_v23_apply, ReadP.val_main_v25_apply, ReadP.val_main_c_4_apply, ReadP.val_main_c_5_apply]
  rfl

/-- The start-index column of the row gather, at (e, 0): the normalised source word of e. -/
theorem v36_at (ei : IVec S2x1600000 32) (e : Fin 1700000) :
    ReadP.val_main_v36 (F := Ideal) ei (ix2 e 0) = srcN ei e := by
  have hi : ReadP.idx_main_v36 (ix2 e 0) = ix1 e := by
    funext a; match a with
    | ⟨0, _⟩ => rfl
  rw [ReadP.val_main_v36_apply, hi, ReadP.val_main_v35_apply, ReadP.val_main_v32_apply, ReadP.val_main_v34_apply,
    ReadP.val_main_v31_apply, ReadP.val_main_v33_apply, ReadP.val_main_c_6_apply, ReadP.val_main_c_7_apply]
  rfl

/-- The normaliser gathered at the source of e: read at the clamped normalised source word. -/
theorem v22_at (ei : IVec S2x1600000 32) (e : Fin 1700000) :
    ReadP.val_main_v22 (F := Ideal) ei (ix1 e) = dinvR ei (ix1 (rowOf (srcN ei e))) := by
  unfold ReadP.val_main_v22
  rw [Reference.vecGather_at (φ := .f32), v21_at]

/-- The normaliser gathered at the destination of e: read at the clamped normalised destination word. -/
theorem v29_at (ei : IVec S2x1600000 32) (e : Fin 1700000) :
    ReadP.val_main_v29 (F := Ideal) ei (ix1 e) = dinvR ei (ix1 (rowOf (dstN ei e))) := by
  unfold ReadP.val_main_v29
  rw [Reference.vecGather_at (φ := .f32), v28_at]

/-- The coefficient of edge position e: the product of the two normalisers. -/
theorem v30_at (ei : IVec S2x1600000 32) (e : Fin 1700000) :
    ReadP.val_main_v30 (F := Ideal) ei (ix1 e)
      = dinvR ei (ix1 (rowOf (srcN ei e))) * dinvR ei (ix1 (rowOf (dstN ei e))) := by
  rw [ReadP.val_main_v30_apply, Ideal.mulf_def, v22_at, v29_at]

/-- The coefficient laid along the 128 columns is, at (e, c), the coefficient of e. -/
theorem v39_at (ei : IVec S2x1600000 32) (e : Fin 1700000) (c : Fin 128) :
    ReadP.val_main_v39 (F := Ideal) ei (ix2 e c)
      = dinvR ei (ix1 (rowOf (srcN ei e))) * dinvR ei (ix1 (rowOf (dstN ei e))) := by
  have hi : ReadP.idx_main_v38 (ReadP.idx_main_v39 (ix2 e c)) = ix1 e := by
    funext a; match a with
    | ⟨0, _⟩ => rfl
  rw [ReadP.val_main_v39_apply, ReadP.val_main_v38_apply, hi, v30_at]

/-- The gathered row at (e, c): the transformed feature of the clamped normalised source row, column c. -/
theorem v37_at (x : FVec Ideal S100000x128 .f32) (ei : IVec S2x1600000 32) (W : FVec Ideal S128x128 .f32)
    (e : Fin 1700000) (c : Fin 128) :
    ReadP.val_main_v37 (F := Ideal) x ei W (ix2 e c) = hR x W (rowOf (srcN ei e)) c := by
  unfold ReadP.val_main_v37
  rw [Reference.rowGather_at (φ := .f32), v36_at, v0_at]

/-- The message of edge position e at column c: the gathered feature times the coefficient. -/
theorem v40_at (x : FVec Ideal S100000x128 .f32) (ei : IVec S2x1600000 32) (W : FVec Ideal S128x128 .f32)
    (e : Fin 1700000) (c : Fin 128) :
    ReadP.val_main_v40 (F := Ideal) x ei W (ix2 e c)
      = hR x W (rowOf (srcN ei e)) c
        * (dinvR ei (ix1 (rowOf (srcN ei e))) * dinvR ei (ix1 (rowOf (dstN ei e)))) := by
  rw [ReadP.val_main_v40_apply, Ideal.mulf_def, v37_at, v39_at]

/-- The scatter's operand is zero everywhere. -/
theorem v41_at (i : S100000x128.Idx) : ReadP.val_main_v41 (F := Ideal) i = 0 := by
  rw [ReadP.val_main_v41_apply, ReadP.val_main_cst_8_apply, Ideal.ofBits_def, Ideal.ofBits_zero_f32]

/-- The scatter-index column at (e, 0) is the destination word of e (not normalised). -/
theorem v42_at (ei : IVec S2x1600000 32) (e : Fin 1700000) :
    ReadP.val_main_v42 (F := Ideal) ei (ix2 e 0) = dstW ei (ix1 e) := by
  have hi : ReadP.idx_main_v42 (ix2 e 0) = ix1 e := by
    funext a; match a with
    | ⟨0, _⟩ => rfl
  rw [ReadP.val_main_v42_apply, hi]

/-- The aggregation at (n, q): zero plus the sum of the messages of the edge positions whose destination word is n. -/
theorem v43_at (x : FVec Ideal S100000x128 .f32) (ei : IVec S2x1600000 32) (W : FVec Ideal S128x128 .f32)
    (n : Fin 100000) (q : Fin 128) :
    ReadP.val_main_v43 (F := Ideal) x ei W (ix2 n q)
      = 0 + ∑ e ∈ Finset.univ.filter (fun e : Fin 1700000 => (dstW ei (ix1 e)).toInt = (n : ℤ)),
          hR x W (rowOf (srcN ei e)) q
            * (dinvR ei (ix1 (rowOf (srcN ei e))) * dinvR ei (ix1 (rowOf (dstN ei e)))) := by
  unfold ReadP.val_main_v43
  rw [Reference.rowScatterAdd_at (φ := .f32), v41_at]
  refine congrArg (0 + ·) (Finset.sum_congr (Finset.filter_congr fun e _ => by rw [v42_at]) fun e _ => v40_at x ei W e q)

/-- The bias laid along the rows is, at (n, q), the bias of column q. -/
theorem v45_at (b : FVec Ideal S128 .f32) (n : Fin 100000) (q : Fin 128) :
    ReadP.val_main_v45 (F := Ideal) b (ix2 n q) = b (ix1 q) := by
  have hi : ReadP.idx_main_v44 (ReadP.idx_main_v45 (ix2 n q)) = ix1 q := by
    funext a; match a with
    | ⟨0, _⟩ => rfl
  rw [ReadP.val_main_v45_apply, ReadP.val_main_v44_apply, hi]

/-- The aggregation plus the bias at (n, q). -/
theorem v46_at (x : FVec Ideal S100000x128 .f32) (ei : IVec S2x1600000 32) (W : FVec Ideal S128x128 .f32)
    (b : FVec Ideal S128 .f32) (n : Fin 100000) (q : Fin 128) :
    ReadP.val_main_v46 (F := Ideal) x ei W b (ix2 n q) = outR x ei W b n q := by
  rw [ReadP.val_main_v46_apply, Ideal.addf_def, v43_at, v45_at]
  rfl

/-- The activation's threshold is zero everywhere. -/
theorem v47_at (i : S100000x128.Idx) : ReadP.val_main_v47 (F := Ideal) i = 0 := by
  rw [ReadP.val_main_v47_apply, ReadP.val_main_cst_9_apply, Ideal.ofBits_def, Ideal.ofBits_zero_f32]

/-- The slope laid along the rows is, at (n, q), the slope of column q. -/
theorem v50_at (a : FVec Ideal S128 .f32) (n : Fin 100000) (q : Fin 128) :
    ReadP.val_main_v50 (F := Ideal) a (ix2 n q) = a (ix1 q) := by
  have hi : ReadP.idx_main_v49 (ReadP.idx_main_v50 (ix2 n q)) = ix1 q := by
    funext a; match a with
    | ⟨0, _⟩ => rfl
  rw [ReadP.val_main_v50_apply, ReadP.val_main_v49_apply, hi]

/-- The activation at (n, q). -/
theorem v52_at (x : FVec Ideal S100000x128 .f32) (ei : IVec S2x1600000 32) (W : FVec Ideal S128x128 .f32)
    (b a : FVec Ideal S128 .f32) (n : Fin 100000) (q : Fin 128) :
    ReadP.val_main_v52 (F := Ideal) x ei W b a (ix2 n q) = actR x ei W b a n q := by
  rw [ReadP.val_main_v52_apply, ReadP.val_main_v48_apply, ReadP.val_main_v51_apply, Ideal.mulf_def, Ideal.cmpf_def,
    v46_at, v47_at, v50_at]
  rfl

/-- The sum of squares of the activated row n: zero plus the sum over the 128 columns. -/
theorem v54_at (x : FVec Ideal S100000x128 .f32) (ei : IVec S2x1600000 32) (W : FVec Ideal S128x128 .f32)
    (b a : FVec Ideal S128 .f32) (n : Fin 100000) :
    ReadP.val_main_v54 (F := Ideal) x ei W b a (ix1 n)
      = 0 + ∑ c : Fin 128, actR x ei W b a n c * actR x ei W b a n c := by
  rw [ReadP.val_main_v54_apply, ReadP.val_main_cst_10_apply, Ideal.ofBits_def, Ideal.ofBits_zero_f32]
  refine congrArg (0 + ·) (Finset.sum_congr rfl fun c _ => ?_)
  have hi : ReadP.idx_main_v54 (ix1 n) c = ix2 n c := by
    funext a; match a with
    | ⟨0, _⟩ => rfl
    | ⟨1, _⟩ => rfl
  rw [hi, ReadP.val_main_v53_apply, Ideal.mulf_def, v52_at]

/-- The floored norm of the activated row n, laid along the columns. -/
theorem v59_at (x : FVec Ideal S100000x128 .f32) (ei : IVec S2x1600000 32) (W : FVec Ideal S128x128 .f32)
    (b a : FVec Ideal S128 .f32) (n : Fin 100000) (q : Fin 128) :
    ReadP.val_main_v59 (F := Ideal) x ei W b a (ix2 n q)
      = max (Ideal.sqrt (0 + ∑ c : Fin 128, actR x ei W b a n c * actR x ei W b a n c))
          (Ideal.ofBits .f32 0x2B8CBCCC#32) := by
  have hi : ReadP.idx_main_v55 (ReadP.idx_main_v59 (ix2 n q)) = ix1 n := by
    funext a; match a with
    | ⟨0, _⟩ => rfl
  rw [ReadP.val_main_v59_apply, ReadP.val_main_v58_apply, ReadP.val_main_v56_apply, ReadP.val_main_v55_apply, hi,
    ReadP.val_main_v57_apply, ReadP.val_main_cst_11_apply, Ideal.maximumf_def, Ideal.hostUnary_sqrt_def,
    Ideal.ofBits_def, v54_at]

/-- The normalised activated row at (n, q). -/
theorem v60_at (x : FVec Ideal S100000x128 .f32) (ei : IVec S2x1600000 32) (W : FVec Ideal S128x128 .f32)
    (b a : FVec Ideal S128 .f32) (n : Fin 100000) (q : Fin 128) :
    ReadP.val_main_v60 (F := Ideal) x ei W b a (ix2 n q) = unitR x ei W b a n q := by
  rw [ReadP.val_main_v60_apply, Ideal.hostDivf_def, v52_at, v59_at]
  rfl

/-- The pooling scatter's operand is zero everywhere. -/
theorem v65_at (i : S128x128.Idx) : ReadP.val_main_v65 (F := Ideal) i = 0 := by
  rw [ReadP.val_main_v65_apply, ReadP.val_main_cst_14_apply, Ideal.ofBits_def, Ideal.ofBits_zero_f32]

/-- The pooling scatter-index column at (n, 0) is the group word of row n. -/
theorem v66_at (bt : IVec S100000 32) (n : Fin 100000) :
    ReadP.val_main_v66 (F := Ideal) bt (ix2 n 0) = bt (ix1 n) := by
  have hi : ReadP.idx_main_v66 (ix2 n 0) = ix1 n := by
    funext a; match a with
    | ⟨0, _⟩ => rfl
  rw [ReadP.val_main_v66_apply, hi]

/-- The pooled sum at (g, q): zero plus the sum of the normalised activated rows whose group word is g. -/
theorem v67_at (x : FVec Ideal S100000x128 .f32) (ei : IVec S2x1600000 32) (bt : IVec S100000 32)
    (W : FVec Ideal S128x128 .f32) (b a : FVec Ideal S128 .f32) (g q : Fin 128) :
    ReadP.val_main_v67 (F := Ideal) x ei bt W b a (ix2 g q)
      = 0 + ∑ n ∈ Finset.univ.filter (fun n : Fin 100000 => (bt (ix1 n)).toInt = (g : ℤ)), unitR x ei W b a n q := by
  unfold ReadP.val_main_v67
  rw [Reference.poolScatterAdd_at (φ := .f32), v65_at]
  refine congrArg (0 + ·) (Finset.sum_congr (Finset.filter_congr fun n _ => by rw [v66_at]) fun n _ => v60_at x ei W b a n q)

/-! ## The result at (g, q) -/

/-- THE REFERENCE'S RESULT AT (g, q): the sum, over the rows n whose group word is g, of the normalised activated row at
    column q, divided by the group's divisor. -/
theorem result_at (x : FVec Ideal S100000x128 .f32) (ei : IVec S2x1600000 32) (bt : IVec S100000 32)
    (W : FVec Ideal S128x128 .f32) (b a : FVec Ideal S128 .f32) (g q : Fin 128) :
    ReadP.val_main_v72 (F := Ideal) x ei bt W b a (ix2 g q)
      = Ideal.div
          (0 + ∑ n ∈ Finset.univ.filter (fun n : Fin 100000 => (bt (ix1 n)).toInt = (g : ℤ)), unitR x ei W b a n q)
          (ReadP.val_main_v71 (F := Ideal) bt (ix2 g q)) := by
  rw [ReadP.val_main_v72_apply, Ideal.hostDivf_def, v67_at]

end Cert.GcnPool.Ref

end
-- ==== Proof.NormLaw.lean ====
/-
  Row normalisation with a floor on the norm, two spellings of one extended real.

  A row entry p is normalised by its row's Euclidean norm, floored at a small positive D. One program multiplies by the
  inverse square root of max(ss, D²), where ss is the row's sum of squares; the other divides by max(sqrt ss, D). The square
  root is monotone, so sqrt(max(ss, D²)) = max(sqrt ss, sqrt(D²)) = max(sqrt ss, D); the floor D > 0 keeps the divisor
  off zero, where the division's corner cases would sit. At ss = ⊤ both sides are p * 0: the inverse square root of ⊤
  is 0, and ⊤⁻¹ = 0. So the two agree for EVERY extended real p (infinite or junk included) and every ss ≥ 0.

  The floor is the single-precision word 0x2B8CBCCC: sign 0, exponent field 87, fraction field 834764, the real
  (2²³ + 834764) · 2^(87 − 127 − 23) = 9223372 · 2⁻⁶³ = 2305843 / 2⁶¹, and its square is 5316911940649 / 2¹²².

  A sum of squares of extended reals is nonnegative, because each square x * x is nonnegative (also ⊥ * ⊥ = ⊤).
-/
import Idealize.ShloMosaic.PureOps.Ideal.Laws
import Mathlib.Data.EReal.Operations
import Mathlib.Data.EReal.Inv
import Mathlib.Analysis.Real.Sqrt
import Mathlib.Algebra.BigOperators.Group.Finset.Basic
import Mathlib.Algebra.Order.BigOperators.Group.Finset

noncomputable section

namespace Cert.GcnPool

open Idealize.ShloMosaic

/-- The word 0x2B8CBCCC denotes the real 2305843 / 2⁶¹. -/
theorem eps_word : Ideal.ofBits .f32 0x2B8CBCCC#32 = ((2305843 / 2305843009213693952 : ℝ) : EReal) := by
  simp [Ideal.ofBits, Ideal.ieee, -EReal.coe_mul]; norm_num

/-- The embedding of the reals in the extended reals is monotone, so it carries a maximum to the maximum. -/
theorem coe_max_real (a b : ℝ) : ((max a b : ℝ) : EReal) = max (a : EReal) (b : EReal) :=
  EReal.coe_strictMono.monotone.map_max

/-- The law for any positive real floor d: p * rsqrt (max ss d²) = p / max (sqrt ss) d. -/
theorem norm_law_of_pos (p ss : EReal) (hss : 0 ≤ ss) (d : ℝ) (hd : 0 < d) :
    p * Ideal.rsqrt (max ss ((d ^ 2 : ℝ) : EReal)) = Ideal.div p (max (Ideal.sqrt ss) (d : EReal)) := by
  induction ss using EReal.rec with
  | bot => exact absurd hss (by simp)
  | top =>
    rw [max_eq_left le_top, Ideal.rsqrt_top, Ideal.sqrt_top, max_eq_left le_top, Ideal.div,
      if_neg EReal.top_ne_zero, EReal.inv_top]
  | coe s =>
    have hs : 0 ≤ s := by exact_mod_cast hss
    have hm : 0 < max s (d ^ 2) := lt_max_of_lt_right (pow_pos hd 2)
    have hq : Real.sqrt (max s (d ^ 2)) = max (Real.sqrt s) d := by
      rw [Real.sqrt_monotone.map_max, Real.sqrt_sq hd.le]
    rw [← coe_max_real, Ideal.rsqrt_coe, if_neg (not_lt.mpr hm.le), if_neg hm.ne', Ideal.sqrt_coe,
      if_neg (not_lt.mpr hs), ← coe_max_real, Ideal.div_coe (ne_of_gt (lt_max_of_lt_right hd)), hq, one_div]

/-- THE LAW at the programs' constants: the named constant D² under the inverse square root, the word of D under the
    division. -/
theorem norm_law (p ss : EReal) (hss : 0 ≤ ss) :
    p * Ideal.rsqrt (max ss ((5316911940649 / 5316911983139663491615228241121378304 : ℝ) : EReal))
      = Ideal.div p (max (Ideal.sqrt ss) (Ideal.ofBits .f32 0x2B8CBCCC#32)) := by
  have he : (5316911940649 / 5316911983139663491615228241121378304 : ℝ)
      = (2305843 / 2305843009213693952 : ℝ) ^ 2 := by norm_num
  rw [eps_word, he]
  exact norm_law_of_pos p ss hss _ (by norm_num)

/-- A square of an extended real is nonnegative. -/
theorem mul_self_nonneg' (x : EReal) : 0 ≤ x * x :=
  EReal.mul_nonneg_iff.mpr ((le_total 0 x).imp (fun h => ⟨h, h⟩) (fun h => ⟨h, h⟩))

/-- A finite sum of squares of extended reals is nonnegative. -/
theorem sum_mul_self_nonneg {ι : Type*} (s : Finset ι) (f : ι → EReal) : 0 ≤ ∑ i ∈ s, f i * f i :=
  Finset.sum_nonneg fun i _ => mul_self_nonneg' (f i)

end Cert.GcnPool

end
-- ==== Proof.FactorLaw.lean ====
/-
  Pulling a nonnegative real factor out of a sum of extended reals, and the degree normaliser as a nonnegative real.

  In the extended reals the product is associative and commutative, but it distributes over a sum only under a side
  condition. One that always suffices: the common factor is a nonnegative REAL r. Then (y + z) * r = y * r + z * r for
  all extended reals y and z, so a finite sum of terms a j * (u j * r) is the sum of the a j * u j, times r.

  The degree normaliser of a graph convolution is d ↦ 1 / sqrt d where 0 < d, and 0 elsewhere. Read in the extended reals
  it is a nonnegative real at every extended real d: at d = ⊤ the inverse square root is 0; at a positive real d it is
  the real (sqrt d)⁻¹; at every d ≤ 0 (⊥ included) the guard takes the other branch, 0.
-/
import Idealize.ShloMosaic.PureOps.Ideal.Laws
import Mathlib.Data.EReal.Operations
import Mathlib.Algebra.BigOperators.Group.Finset.Basic
import Mathlib.Analysis.Real.Sqrt

noncomputable section

namespace Cert.GcnPool

open Idealize.ShloMosaic

/-- A nonnegative real factor comes out of a finite sum on the right: Σ (f j * r) = (Σ f j) * r, whatever extended
    reals the f j are. -/
theorem sum_mul_coe_nonneg {ι : Type*} (s : Finset ι) (f : ι → EReal) (r : ℝ) (hr : 0 ≤ r) :
    ∑ j ∈ s, f j * (r : EReal) = (∑ j ∈ s, f j) * (r : EReal) := by
  classical
  have hr' : (0 : EReal) ≤ (r : EReal) := by exact_mod_cast hr
  induction s using Finset.induction_on with
  | empty => simp
  | insert a s ha ih =>
    rw [Finset.sum_insert ha, Finset.sum_insert ha, ih,
      EReal.right_distrib_of_nonneg_of_ne_top hr' (EReal.coe_ne_top r)]

/-- The same with a product inside: Σ a j * (u j * r) = (Σ a j * u j) * r for a nonnegative real r. -/
theorem sum_mul_mul_coe_nonneg {ι : Type*} (s : Finset ι) (a u : ι → EReal) (r : ℝ) (hr : 0 ≤ r) :
    ∑ j ∈ s, a j * (u j * (r : EReal)) = (∑ j ∈ s, a j * u j) * (r : EReal) := by
  rw [← sum_mul_coe_nonneg s (fun j => a j * u j) r hr]
  exact Finset.sum_congr rfl fun j _ => (mul_assoc (a j) (u j) (r : EReal)).symm

/-- The degree normaliser is a nonnegative real at every extended real degree. -/
theorem inv_sqrt_nonneg_real (deg : EReal) :
    ∃ r : ℝ, 0 ≤ r ∧ (if 0 < deg then Ideal.rsqrt deg else 0) = (r : EReal) := by
  induction deg using EReal.rec with
  | bot => exact ⟨0, le_refl 0, by simp⟩
  | top => exact ⟨0, le_refl 0, by simp⟩
  | coe d =>
    by_cases hd : 0 < d
    · refine ⟨(Real.sqrt d)⁻¹, inv_nonneg.mpr (Real.sqrt_nonneg d), ?_⟩
      have h0 : (0 : EReal) < (d : EReal) := by exact_mod_cast hd
      rw [if_pos h0, Ideal.rsqrt_coe, if_neg (not_lt.mpr hd.le), if_neg hd.ne']
    · refine ⟨0, le_refl 0, ?_⟩
      have h0 : ¬ (0 : EReal) < (d : EReal) := by exact_mod_cast hd
      rw [if_neg h0]; rfl

/-- A comparison "greater than" of extended reals, as the bit the ideal instance gives it, is set exactly where the
    strict inequality holds. -/
theorem cmp_ogt_eq_one_iff (x y : EReal) : Ideal.cmp .ogt x y = 1 ↔ y < x := by
  unfold Ideal.cmp
  by_cases h : y < x
  · simp [h]
  · simp [h]

/-- A select on the bit of "0 < deg" is the "if" on that inequality. -/
theorem select_cmp_ogt_zero {α : Type} (deg : EReal) (A B : α) :
    Scalar.select (Ideal.cmp .ogt deg 0) A B = if 0 < deg then A else B := by
  unfold Scalar.select
  by_cases h : 0 < deg
  · rw [if_pos ((cmp_ogt_eq_one_iff deg 0).mpr h), if_pos h]
  · rw [if_neg (fun h1 => h ((cmp_ogt_eq_one_iff deg 0).mp h1)), if_neg h]

/-- The degree normaliser as the programs spell it at one element — select (deg > 0) (rsqrt deg) 0 — is a nonnegative
    real at every extended real degree. -/
theorem dinv_entry_nonneg_real (deg : EReal) :
    ∃ r : ℝ, 0 ≤ r ∧ Scalar.select (Ideal.cmp .ogt deg 0) (Ideal.rsqrt deg) 0 = (r : EReal) := by
  rw [select_cmp_ogt_zero]
  exact inv_sqrt_nonneg_real deg

/-- The same before the zero word and the two operations are read at the ideal instance: the comparison against the
    word of +0.0, the host's inverse square root, and the word of +0.0 as the other branch. -/
theorem dinv_entry_nonneg_real_raw (deg : Ideal .f32) :
    ∃ r : ℝ, 0 ≤ r ∧
      Scalar.select (FloatOps.cmpf .ogt deg (Ideal.ofBits .f32 0x00000000#32))
        (FloatOps.hostUnary .rsqrt deg) (Ideal.ofBits .f32 0x00000000#32) = (r : EReal) := by
  rw [Ideal.cmpf_def, Ideal.hostUnary_rsqrt_def, Ideal.ofBits_zero_f32]
  exact dinv_entry_nonneg_real deg

end Cert.GcnPool

end
-- ==== Proof.Bridges.lean ====
/-
  Three bridges between two ways of computing one graph convolution with pooling, over plain functions of extended reals.

  (1) Scaling after the scatter or before it. One side sums the messages a j * u j that land on a node and multiplies
      the sum by the node's normaliser t afterwards; the other multiplies every message by u j * dn j first. On the edges
      that land on the node dn j = t, and t is a nonnegative real, which comes out of a sum of extended reals whatever
      the summands are.

  (2) A row of 128 entries divided by its floored Euclidean norm: the law of row normalisation at the row's own sum of
      squares, which is nonnegative; one side's sum carries an initial value 0.

  (3) Pooling by a one-hot mask. The mask of group g at a 32-bit word w is 1 where w is the word of g and 0 elsewhere;
      for g below 128 "w is the word of g" says the same as "w, read as a signed integer, is g". A mask times x is x or 0,
      so the masked sum over all nodes — taken in 20 blocks of 5000 — is the sum of x over the nodes of group g. A left fold
      that starts from 0 + f 0 and adds f (n + 1) at each step is the sum of f over 0 … n.
-/
import proofs.«402121_j67808943669372_2_alg».proof.Proof.NormLaw
import proofs.«402121_j67808943669372_2_alg».proof.Proof.FactorLaw
import Mathlib.Algebra.BigOperators.Fin
import Mathlib.Algebra.BigOperators.Group.Finset.Basic
import Mathlib.Algebra.BigOperators.Group.Finset.Sigma
import Mathlib.Data.Fintype.BigOperators

noncomputable section

namespace Cert.GcnPool

open Idealize.ShloMosaic

/-! ### (1) the normaliser after the scatter, or on every message -/

/-- Scaling the scattered sum by the node's normaliser t equals scaling every message by the normaliser dn j of its
    target, where dn j = t on the edges summed and t is a nonnegative real. Both sums carry an initial value 0 and
    both sides then add bq. -/
theorem scaled_scatter_eq {ι : Type*} (s : Finset ι) (a u dn : ι → EReal) (t bq : EReal)
    (ht : ∃ r : ℝ, 0 ≤ r ∧ t = (r : EReal)) (hdn : ∀ j ∈ s, dn j = t) :
    (0 + ∑ j ∈ s, a j * u j) * t + bq = (0 + ∑ j ∈ s, a j * (u j * dn j)) + bq := by
  obtain ⟨r, hr, rfl⟩ := ht
  rw [zero_add, zero_add, ← sum_mul_mul_coe_nonneg s a u r hr]
  congr 1
  exact Finset.sum_congr rfl fun j hj => by rw [hdn j hj]

/-! ### (2) a row over its floored norm -/

/-- A row entry times the inverse square root of the floored sum of squares is the entry divided by the floored norm,
    the second sum of squares carrying an initial value 0. -/
theorem unit_row_eq (r : Fin 128 → EReal) (q : Fin 128) :
    r q * Ideal.rsqrt (max (∑ c, r c * r c) ((5316911940649 / 5316911983139663491615228241121378304 : ℝ) : EReal))
      = Ideal.div (r q) (max (Ideal.sqrt (0 + ∑ c, r c * r c)) (Ideal.ofBits .f32 0x2B8CBCCC#32)) := by
  rw [zero_add]
  exact norm_law (r q) _ (sum_mul_self_nonneg Finset.univ r)

/-! ### (3) pooling by a one-hot mask -/

/-- The one-hot mask of group g at the word w: 1 where w is the 32-bit word of g, else 0. -/
def hotWord (g : Fin 128) (w : BitVec 32) : EReal := if BitVec.ofNat 32 g.val = w then 1 else 0

@[simp] theorem hotWord_of_eq {g : Fin 128} {w : BitVec 32} (h : BitVec.ofNat 32 g.val = w) : hotWord g w = 1 :=
  if_pos h

@[simp] theorem hotWord_of_ne {g : Fin 128} {w : BitVec 32} (h : ¬ BitVec.ofNat 32 g.val = w) : hotWord g w = 0 :=
  if_neg h

/-- The mask is 1 exactly at the word of g. -/
theorem hotWord_eq_one_iff (g : Fin 128) (w : BitVec 32) : hotWord g w = 1 ↔ BitVec.ofNat 32 g.val = w := by
  by_cases h : BitVec.ofNat 32 g.val = w
  · simp [hotWord_of_eq h, h]
  · simp [hotWord_of_ne h, h]

/-- The word of a number below 128, read as a signed integer, is that number. -/
theorem toInt_ofNat_small (g : Fin 128) : (BitVec.ofNat 32 g.val).toInt = (g.val : ℤ) := by
  have hg := g.isLt
  rw [BitVec.toInt_eq_toNat_cond, BitVec.toNat_ofNat]
  have hm : g.val % 2 ^ 32 = g.val := Nat.mod_eq_of_lt (by omega)
  rw [hm, if_pos (by omega)]

/-- For g below 128, a word is the word of g exactly where its signed reading is g. -/
theorem ofNat_eq_iff_toInt_eq (g : Fin 128) (w : BitVec 32) : BitVec.ofNat 32 g.val = w ↔ w.toInt = (g.val : ℤ) := by
  constructor
  · rintro rfl; exact toInt_ofNat_small g
  · intro h; exact BitVec.eq_of_toInt_eq ((toInt_ofNat_small g).trans h.symm)

/-- A mask times x is x where the word's signed reading is g, else 0. -/
theorem hot_mul (g : Fin 128) (w : BitVec 32) (x : EReal) :
    hotWord g w * x = if w.toInt = (g.val : ℤ) then x else 0 := by
  by_cases h : BitVec.ofNat 32 g.val = w
  · rw [hotWord_of_eq h, if_pos ((ofNat_eq_iff_toInt_eq g w).mp h), one_mul]
  · rw [hotWord_of_ne h, if_neg (fun h' => h ((ofNat_eq_iff_toInt_eq g w).mpr h')), zero_mul]

/-- 20 blocks of 5000 are the 100000 nodes: (t, k) ↦ 5000 t + k. -/
def blockEquiv : Fin 20 × Fin 5000 ≃ Fin 100000 where
  toFun p := ⟨5000 * p.1.val + p.2.val, by omega⟩
  invFun n := (⟨n.val / 5000, by omega⟩, ⟨n.val % 5000, by omega⟩)
  left_inv p := by
    refine Prod.ext (Fin.ext ?_) (Fin.ext ?_)
    · show (5000 * p.1.val + p.2.val) / 5000 = p.1.val
      omega
    · show (5000 * p.1.val + p.2.val) % 5000 = p.2.val
      omega
  right_inv n := by
    refine Fin.ext ?_
    show 5000 * (n.val / 5000) + n.val % 5000 = n.val
    omega

/-- A sum over the 100000 nodes, taken block by block. -/
theorem sum_blocks (F : Fin 100000 → EReal) :
    ∑ t : Fin 20, ∑ k : Fin 5000, F ⟨5000 * t.val + k.val, by omega⟩ = ∑ n : Fin 100000, F n := by
  rw [← Fintype.sum_prod_type' (fun (t : Fin 20) (k : Fin 5000) => F ⟨5000 * t.val + k.val, by omega⟩)]
  exact Fintype.sum_equiv blockEquiv _ _ fun _ => rfl

/-- THE POOLED SUM: the masked sum over all nodes, block by block, is the sum over the nodes of group g. -/
theorem pool_blocks_eq (U : Fin 100000 → EReal) (bw : Fin 100000 → BitVec 32) (g : Fin 128) :
    ∑ t : Fin 20, ∑ k : Fin 5000,
        hotWord g (bw ⟨5000 * t.val + k.val, by omega⟩) * U ⟨5000 * t.val + k.val, by omega⟩
      = ∑ n ∈ Finset.univ.filter (fun n : Fin 100000 => (bw n).toInt = (g.val : ℤ)), U n := by
  rw [sum_blocks (fun n => hotWord g (bw n) * U n), Finset.sum_filter]
  exact Finset.sum_congr rfl fun n _ => hot_mul g (bw n) (U n)

/-- A left fold from 0 + f 0 that adds f (n + 1) at step n + 1 holds the sum of f over 0 … n after step n. -/
theorem fold_eq_sum (f : ℕ → EReal) (acc : ℕ → EReal) (h0 : acc 0 = 0 + f 0)
    (hs : ∀ n, acc (n + 1) = acc n + f (n + 1)) (n : ℕ) : acc n = ∑ i ∈ Finset.range (n + 1), f i := by
  induction n with
  | zero => rw [h0, zero_add, Finset.sum_range_one]
  | succ n ih => rw [hs n, ih, ← Finset.sum_range_succ]

end Cert.GcnPool

end
-- ==== Proof.Spec.lean ====
/-
  The whole computation over plain functions, two ways, and their equality.

  A graph convolution layer with pooling, at extended reals. Node n has a feature row h n, a normaliser dinv n (a
  nonnegative real) and a group word bw n; edge e goes from node srcRow e to the node whose number is the signed reading
  of the word dstW e, which is also dstRow e. Per node n and feature q:

    pre   the messages h (src) q, normalised, summed over the edges that land on n, plus the bias b q. One way
          multiplies each message by dinv (src) and the sum by dinv n; the other multiplies each message by
          dinv (src) * dinv (dst). Equal, since a nonnegative real comes out of a sum of extended reals.
    act   x ↦ x where 0 < x, else a q * x.
    unit  the activated row over its Euclidean norm floored at D: times the inverse square root of max(ss, D²) one way,
          divided by max(sqrt ss, D) the other. Equal at every extended real.
    pool  per group g, the sum of the unit rows of the nodes of the group: a one-hot mask times the row, summed over
          all nodes in 20 blocks of 5000, one way; the sum over the nodes whose word reads g, from an initial 0, the
          other.
-/
import proofs.«402121_j67808943669372_2_alg».proof.Proof.Bridges

noncomputable section

namespace Cert.GcnPool

open Idealize.ShloMosaic

/-- The pre-activation, the node's normaliser applied after the sum over the edges that land on the node. -/
def preK (h : Fin 100000 → Fin 128 → EReal) (dinv : Fin 100000 → EReal) (srcRow : Fin 1700000 → Fin 100000)
    (dstW : Fin 1700000 → BitVec 32) (b : Fin 128 → EReal) (n : Fin 100000) (q : Fin 128) : EReal :=
  (0 + ∑ e ∈ Finset.univ.filter (fun e : Fin 1700000 => (dstW e).toInt = (n.val : ℤ)),
      h (srcRow e) q * dinv (srcRow e)) * dinv n + b q

/-- The pre-activation, both normalisers applied to every message. -/
def preR (h : Fin 100000 → Fin 128 → EReal) (dinv : Fin 100000 → EReal) (srcRow dstRow : Fin 1700000 → Fin 100000)
    (dstW : Fin 1700000 → BitVec 32) (b : Fin 128 → EReal) (n : Fin 100000) (q : Fin 128) : EReal :=
  (0 + ∑ e ∈ Finset.univ.filter (fun e : Fin 1700000 => (dstW e).toInt = (n.val : ℤ)),
      h (srcRow e) q * (dinv (srcRow e) * dinv (dstRow e))) + b q

/-- The activation: the identity above zero, the slope a q elsewhere. -/
def act (a : Fin 128 → EReal) (pre : Fin 100000 → Fin 128 → EReal) (n : Fin 100000) (q : Fin 128) : EReal :=
  if 0 < pre n q then pre n q else a q * pre n q

/-- The activated row over its floored norm, as a product with the inverse square root. -/
def unitK (a : Fin 128 → EReal) (pre : Fin 100000 → Fin 128 → EReal) (n : Fin 100000) (q : Fin 128) : EReal :=
  act a pre n q * Ideal.rsqrt (max (∑ c, act a pre n c * act a pre n c)
    ((5316911940649 / 5316911983139663491615228241121378304 : ℝ) : EReal))

/-- The activated row over its floored norm, as a division. -/
def unitR (a : Fin 128 → EReal) (pre : Fin 100000 → Fin 128 → EReal) (n : Fin 100000) (q : Fin 128) : EReal :=
  Ideal.div (act a pre n q) (max (Ideal.sqrt (0 + ∑ c, act a pre n c * act a pre n c))
    (Ideal.ofBits .f32 0x2B8CBCCC#32))

/-- The pooled rows, a one-hot mask summed over the nodes block by block. -/
def pooledK (U : Fin 100000 → Fin 128 → EReal) (bw : Fin 100000 → BitVec 32) (g q : Fin 128) : EReal :=
  ∑ t : Fin 20, ∑ k : Fin 5000,
    hotWord g (bw ⟨5000 * t.val + k.val, by omega⟩) * U ⟨5000 * t.val + k.val, by omega⟩ q

/-- The pooled rows, the sum over the nodes of the group from an initial 0. -/
def pooledR (U : Fin 100000 → Fin 128 → EReal) (bw : Fin 100000 → BitVec 32) (g q : Fin 128) : EReal :=
  0 + ∑ n ∈ Finset.univ.filter (fun n : Fin 100000 => (bw n).toInt = (g.val : ℤ)), U n q

section
variable (h : Fin 100000 → Fin 128 → EReal) (dinv : Fin 100000 → EReal) (srcRow dstRow : Fin 1700000 → Fin 100000)
  (dstW : Fin 1700000 → BitVec 32) (b a : Fin 128 → EReal) (bw : Fin 100000 → BitVec 32)

/-- The two pre-activations agree where every normaliser is a nonnegative real and an edge's target row is the node
    its target word reads as. -/
theorem pre_eq (hd : ∀ n, ∃ r : ℝ, 0 ≤ r ∧ dinv n = (r : EReal))
    (hrow : ∀ e n, (dstW e).toInt = (n.val : ℤ) → dstRow e = n) :
    preK h dinv srcRow dstW b = preR h dinv srcRow dstRow dstW b := by
  funext n q
  unfold preK preR
  refine scaled_scatter_eq _ (fun e => h (srcRow e) q) (fun e => dinv (srcRow e)) (fun e => dinv (dstRow e))
    (dinv n) (b q) (hd n) ?_
  intro e he
  rw [hrow e n (Finset.mem_filter.mp he).2]

/-- The two unit rows agree, at every pre-activation. -/
theorem unit_eq (pre : Fin 100000 → Fin 128 → EReal) : unitK a pre = unitR a pre := by
  funext n q
  exact unit_row_eq (fun c => act a pre n c) q

/-- The two pooled sums agree, at every family of rows. -/
theorem pooled_eq (U : Fin 100000 → Fin 128 → EReal) (g q : Fin 128) : pooledK U bw g q = pooledR U bw g q := by
  unfold pooledK pooledR
  rw [zero_add]
  exact pool_blocks_eq (fun n => U n q) bw g

/-- THE EQUIVALENCE over plain functions: pooled unit rows of the one pre-activation are those of the other. -/
theorem spec_eq (hd : ∀ n, ∃ r : ℝ, 0 ≤ r ∧ dinv n = (r : EReal))
    (hrow : ∀ e n, (dstW e).toInt = (n.val : ℤ) → dstRow e = n) (g q : Fin 128) :
    pooledK (unitK a (preK h dinv srcRow dstW b)) bw g q
      = pooledR (unitR a (preR h dinv srcRow dstRow dstW b)) bw g q := by
  rw [pre_eq h dinv srcRow dstRow dstW b hd hrow, unit_eq, pooled_eq]

end

end Cert.GcnPool

end
-- ==== Proof.RefSpec.lean ====
/-
  The reference's result at one index, restated in the shared specification's terms: the aggregation, the activation, the
  normalised row and the pooled sum are the specification's functions of the transformed features, the normaliser, the
  clamped source and destination rows, the destination words, the bias, the slope and the group words. A select on the
  bit of "0 < v" is the "if" on that inequality; everything else agrees term by term. Also: an edge position whose
  destination word is the row n has n as its clamped, normalised destination row.
-/
import proofs.«402121_j67808943669372_2_alg».proof.Proof.RefForm
import proofs.«402121_j67808943669372_2_alg».proof.Proof.Spec
import proofs.«402121_j67808943669372_2_alg».proof.Proof.FactorLaw

noncomputable section

open scoped BigOperators

namespace Cert.GcnPool.Ref

open Cert.ReferenceIdeal Idealize.ShloMosaic Idealize.ShloMosaic.ValueIdx Cert.GcnPool.IndexDecode

/-- The specification's pre-activation at the reference's pieces. -/
abbrev preS (x : FVec Ideal S100000x128 .f32) (ei : IVec S2x1600000 32) (W : FVec Ideal S128x128 .f32)
    (b : FVec Ideal S128 .f32) : Fin 100000 → Fin 128 → EReal :=
  Cert.GcnPool.preR (fun n q => hR x W n q) (fun n => dinvR ei (ix1 n)) (fun e => rowOf (srcN ei e))
    (fun e => rowOf (dstN ei e)) (fun e => dstW ei (ix1 e)) (fun q => b (ix1 q))

/-- The aggregation plus bias is the specification's pre-activation. -/
theorem outR_eq (x : FVec Ideal S100000x128 .f32) (ei : IVec S2x1600000 32) (W : FVec Ideal S128x128 .f32)
    (b : FVec Ideal S128 .f32) (n : Fin 100000) (q : Fin 128) :
    outR x ei W b n q = preS x ei W b n q := rfl

/-- The activation is the specification's. -/
theorem actR_eq (x : FVec Ideal S100000x128 .f32) (ei : IVec S2x1600000 32) (W : FVec Ideal S128x128 .f32)
    (b a : FVec Ideal S128 .f32) (n : Fin 100000) (q : Fin 128) :
    actR x ei W b a n q = Cert.GcnPool.act (fun q => a (ix1 q)) (preS x ei W b) n q := by
  unfold actR Cert.GcnPool.act
  rw [select_cmp_ogt_zero, outR_eq]

/-- The normalised activated row is the specification's. -/
theorem unitR_eq (x : FVec Ideal S100000x128 .f32) (ei : IVec S2x1600000 32) (W : FVec Ideal S128x128 .f32)
    (b a : FVec Ideal S128 .f32) (n : Fin 100000) (q : Fin 128) :
    unitR x ei W b a n q = Cert.GcnPool.unitR (fun q => a (ix1 q)) (preS x ei W b) n q := by
  unfold unitR Cert.GcnPool.unitR
  simp only [actR_eq]

/-- THE REFERENCE'S RESULT AT (g, q) in the specification's terms. -/
theorem result_spec (x : FVec Ideal S100000x128 .f32) (ei : IVec S2x1600000 32) (bt : IVec S100000 32)
    (W : FVec Ideal S128x128 .f32) (b a : FVec Ideal S128 .f32) (g q : Fin 128) :
    ReadP.val_main_v72 (F := Ideal) x ei bt W b a (ix2 g q)
      = Ideal.div
          (Cert.GcnPool.pooledR
            (Cert.GcnPool.unitR (fun q => a (ix1 q))
              (Cert.GcnPool.preR (fun n q => hR x W n q) (fun n => dinvR ei (ix1 n)) (fun e => rowOf (srcN ei e))
                (fun e => rowOf (dstN ei e)) (fun e => dstW ei (ix1 e)) (fun q => b (ix1 q))))
            (fun n => bt (ix1 n)) g q)
          (ReadP.val_main_v71 (F := Ideal) bt (ix2 g q)) := by
  rw [result_at]
  unfold Cert.GcnPool.pooledR
  simp only [unitR_eq]

/-- An edge position whose destination word is the row n has n as its clamped, normalised destination row: the word is
    non-negative, so the normalisation leaves it, and it is below 100000, so the clamp leaves it. -/
theorem dst_row (ei : IVec S2x1600000 32) (e : Fin 1700000) (n : Fin 100000)
    (h : (dstW ei (ix1 e)).toInt = (n.val : ℤ)) : rowOf (dstN ei e) = n := by
  have h0 : 0 ≤ (dstW ei (ix1 e)).toInt := by rw [h]; exact Int.natCast_nonneg _
  have h1 : (dstW ei (ix1 e)).toInt < 100000 := by rw [h]; have := n.isLt; omega
  have hn : dstN ei e = dstW ei (ix1 e) := normIdx_of_nonneg _ _ h0
  rw [hn]
  exact (rowOf_eq_iff _ h0 h1 n).2 h

end Cert.GcnPool.Ref

end
-- ==== Proof.HostK.lean ====
/-
  The host stretches of the program with the two kernels, read as values at the extended reals.

  Between and around its two kernel launches the program runs plain array operations. Over an arbitrary valuation of the
  device's buffers each stretch's result buffers are read here as functions of the stretch's inputs, then at an index:
    * before the first launch: the source and destination words of the edge list with the self loops appended, and the
      degree normaliser d ↦ 1 / sqrt d (0 where d ≤ 0) as a column;
    * between the launches: the aggregation, at node n and lane q the sum over the edges e into n of the first launch's
      row at the (normalised, clamped) source of e; and three reshapes of arguments;
    * after the second launch: the quotient of the pooled sums by the broadcast group sizes.
-/
import proofs.«402121_j67808943669372_2_alg».proof.Proof.Gen.KernelIdeal.Regions
import proofs.«402121_j67808943669372_2_alg».proof.Proof.IndexDecode
import proofs.«402121_j67808943669372_2_alg».proof.Proof.FactorLaw
import Idealize.ShloMosaic.Lib.StableHlo.Run
import Idealize.ShloMosaic.Lib.ValueIdx
import Idealize.ShloMosaic.Lib.ValueLayout

noncomputable section

open scoped BigOperators

namespace Cert.GcnPool.HostK

open Idealize.ShloMosaic Idealize.ShloMosaic.ValueIdx Idealize.ShloMosaic.TcCoe
open Cert.KernelIdeal Cert.KernelIdeal.Gen
open Cert.GcnPool.IndexDecode

/-! ## The buffers the stretches read, at their literal types -/

/-- The edge list. -/
abbrev bufEdges (V : Valuation τ sig (Elt Ideal)) : IVec S2x1600000 32 := V main_arg1
/-- The batch numbers. -/
abbrev bufBatch (V : Valuation τ sig (Elt Ideal)) : IVec S100000 32 := V main_arg2
/-- The bias. -/
abbrev bufBias (V : Valuation τ sig (Elt Ideal)) : FVec Ideal S128 .f32 := V main_arg4
/-- The slope. -/
abbrev bufSlope (V : Valuation τ sig (Elt Ideal)) : FVec Ideal S128 .f32 := V main_arg5
/-- The source words. -/
abbrev bufSrc (V : Valuation τ sig (Elt Ideal)) : IVec S1700000 32 := V main_v3
/-- The destination words. -/
abbrev bufDst (V : Valuation τ sig (Elt Ideal)) : IVec S1700000 32 := V main_v6
/-- The first launch's output rows. -/
abbrev bufRows (V : Valuation τ sig (Elt Ideal)) : FVec Ideal S100000x128 .bf16 := V main_v16
/-- The second launch's output, the pooled sums. -/
abbrev bufPool (V : Valuation τ sig (Elt Ideal)) : FVec Ideal S128x128 .f32 := V main_v31

/-! ## Buffers a stretch does not write keep their contents -/

theorem kept0 (V : Valuation τ sig (Elt Ideal)) (r : Ref sig .tc) (h : r ∉ hostOps0_W) :
    StableHlo.after (hostOps0 (F := Ideal)) V r = V r :=
  StableHlo.after_of_writes_sub hostOps0 V hostOps0_writes h
theorem kept0_1 (V : Valuation τ sig (Elt Ideal)) (r : Ref sig .tc) (h : r ∉ hostOps0_1_W) :
    StableHlo.after (hostOps0_1 (F := Ideal)) V r = V r :=
  StableHlo.after_of_writes_sub hostOps0_1 V hostOps0_1_writes h
theorem kept0_2 (V : Valuation τ sig (Elt Ideal)) (r : Ref sig .tc) (h : r ∉ hostOps0_2_W) :
    StableHlo.after (hostOps0_2 (F := Ideal)) V r = V r :=
  StableHlo.after_of_writes_sub hostOps0_2 V hostOps0_2_writes h
theorem kept1 (V : Valuation τ sig (Elt Ideal)) (r : Ref sig .tc) (h : r ∉ hostOps1_W) :
    StableHlo.after (hostOps1 (F := Ideal)) V r = V r :=
  StableHlo.after_of_writes_sub hostOps1 V hostOps1_writes h
theorem kept2 (V : Valuation τ sig (Elt Ideal)) (r : Ref sig .tc) (h : r ∉ hostOps2_W) :
    StableHlo.after (hostOps2 (F := Ideal)) V r = V r :=
  StableHlo.after_of_writes_sub hostOps2 V hostOps2_writes h

/-! ## Before the first launch: the edge words with the self loops, and the degree normaliser -/

/-- The source words: the edge list's first row, then the node numbers (the self loops). -/
def srcWords (ei : IVec S2x1600000 32) : IVec S1700000 32 :=
  concatenate S1700000 0
    [⟨S1600000, shapeCast S1600000 (extractStridedSlice S1x1600000 ![0, 0] ei slices_S2x1600000_S1x1600000_0_0)
        shapeCasts_S1x1600000_S1600000⟩,
      ⟨S100000, iotaInDim S100000 32 0⟩]
    concatenates_S1600000_S100000_S1700000_d0

/-- The destination words: the edge list's second row, then the node numbers (the self loops). -/
def dstWords (ei : IVec S2x1600000 32) : IVec S1700000 32 :=
  concatenate S1700000 0
    [⟨S1600000, shapeCast S1600000 (extractStridedSlice S1x1600000 ![1, 0] ei slices_S2x1600000_S1x1600000_1_0)
        shapeCasts_S1x1600000_S1600000⟩,
      ⟨S100000, iotaInDim S100000 32 0⟩]
    concatenates_S1600000_S100000_S1700000_d0

/-- The degrees: ones scatter-added at the destination words into the zero vector. -/
def degVec (ei : IVec S2x1600000 32) : FVec Ideal S100000 .f32 :=
  Host.scatterAdd scatter_S100000_S1700000x1_S1700000_n_0_0_1
    (broadcastInDim S100000 ![] bcast_S_S100000 (constant (F := Ideal) S_ .f32 0x00000000#32))
    (broadcastInDim S1700000x1 ![0] bcast_S1700000_S1700000x1_0 (dstWords ei))
    (broadcastInDim S1700000 ![] bcast_S_S1700000 (constant (F := Ideal) S_ .f32 0x3F800000#32))

/-- The normaliser of a vector of degrees: the inverse square root where the degree is above zero, else zero. -/
def dinvOf (deg : FVec Ideal S100000 .f32) : FVec Ideal S100000 .f32 :=
  select (cmpf .ogt deg (broadcastInDim S100000 ![] bcast_S_S100000 (constant (F := Ideal) S_ .f32 0x00000000#32)))
    (Host.rsqrt deg) (broadcastInDim S100000 ![] bcast_S_S100000 (constant (F := Ideal) S_ .f32 0x00000000#32))

/-- The degree normaliser as a function of the edge list. -/
def dinvVec (ei : IVec S2x1600000 32) : FVec Ideal S100000 .f32 := dinvOf (degVec ei)

/-- The three stretches before the first launch leave the source words at their buffer. -/
theorem srcWords_eq (V0 : Valuation τ sig (Elt Ideal)) :
    (StableHlo.after (hostOps0_2 (F := Ideal)) (StableHlo.after (hostOps0_1 (F := Ideal))
        (StableHlo.after (hostOps0 (F := Ideal)) V0)) main_v3 : IVec S1700000 32) = srcWords (bufEdges V0) := by
  show StableHlo.after hostOps0_2 (StableHlo.after hostOps0_1 (StableHlo.after hostOps0 V0)) (Proc.devRef .tc main_v3) = _
  after_results
  rfl

/-- … and the destination words at theirs. -/
theorem dstWords_eq (V0 : Valuation τ sig (Elt Ideal)) :
    (StableHlo.after (hostOps0_2 (F := Ideal)) (StableHlo.after (hostOps0_1 (F := Ideal))
        (StableHlo.after (hostOps0 (F := Ideal)) V0)) main_v6 : IVec S1700000 32) = dstWords (bufEdges V0) := by
  show StableHlo.after hostOps0_2 (StableHlo.after hostOps0_1 (StableHlo.after hostOps0 V0)) (Proc.devRef .tc main_v6) = _
  after_results
  rfl

/-- The first stretch leaves the degrees, … -/
theorem deg_eq (V0 : Valuation τ sig (Elt Ideal)) :
    (StableHlo.after (hostOps0 (F := Ideal)) V0 main_v10 : FVec Ideal S100000 .f32) = degVec (bufEdges V0) := by
  show StableHlo.after hostOps0 V0 (Proc.devRef .tc main_v10) = _
  after_results
  rfl

/-- … the mask of the positive degrees, … -/
theorem degPos_eq (V0 : Valuation τ sig (Elt Ideal)) :
    (StableHlo.after (hostOps0 (F := Ideal)) V0 main_v12 : IVec S100000 1)
      = cmpf .ogt (degVec (bufEdges V0))
          (broadcastInDim S100000 ![] bcast_S_S100000 (constant (F := Ideal) S_ .f32 0x00000000#32)) := by
  show StableHlo.after hostOps0 V0 (Proc.devRef .tc main_v12) = _
  after_results
  rfl

/-- … their inverse square roots, … -/
theorem degRsqrt_eq (V0 : Valuation τ sig (Elt Ideal)) :
    (StableHlo.after (hostOps0 (F := Ideal)) V0 main_v13 : FVec Ideal S100000 .f32)
      = Host.rsqrt (degVec (bufEdges V0)) := by
  show StableHlo.after hostOps0 V0 (Proc.devRef .tc main_v13) = _
  after_results
  rfl

/-- … and a zero. -/
theorem zero_eq (V0 : Valuation τ sig (Elt Ideal)) :
    (StableHlo.after (hostOps0 (F := Ideal)) V0 main_cst_2 : FVec Ideal S_ .f32)
      = constant (F := Ideal) S_ .f32 0x00000000#32 := by
  show StableHlo.after hostOps0 V0 (Proc.devRef .tc main_cst_2) = _
  after_results

/-- The second stretch selects, from any valuation, between its inputs. -/
theorem where_eq (V : Valuation τ sig (Elt Ideal)) :
    (StableHlo.after (hostOps0_1 (F := Ideal)) V main_v14 : FVec Ideal S100000 .f32)
      = select (V main_v12 : IVec S100000 1) (V main_v13 : FVec Ideal S100000 .f32)
          (broadcastInDim S100000 ![] bcast_S_S100000 (V main_cst_2 : FVec Ideal S_ .f32)) := by
  show StableHlo.after hostOps0_1 V (Proc.devRef .tc main_v14) = _
  after_results
  rfl

/-- The third stretch casts, from any valuation, its input to a column. -/
theorem col_eq (V : Valuation τ sig (Elt Ideal)) :
    (StableHlo.after (hostOps0_2 (F := Ideal)) V main_v15 : FVec Ideal S100000x1 .f32)
      = shapeCast S100000x1 (V main_v14 : FVec Ideal S100000 .f32) shapeCasts_S100000_S100000x1 := by
  show StableHlo.after hostOps0_2 V (Proc.devRef .tc main_v15) = _
  after_results
  rfl

/-- Together: the degree normaliser, as a column, at its buffer. -/
theorem dinvCol_eq (V0 : Valuation τ sig (Elt Ideal)) :
    (StableHlo.after (hostOps0_2 (F := Ideal)) (StableHlo.after (hostOps0_1 (F := Ideal))
        (StableHlo.after (hostOps0 (F := Ideal)) V0)) main_v15 : FVec Ideal S100000x1 .f32)
      = shapeCast S100000x1 (dinvVec (bufEdges V0)) shapeCasts_S100000_S100000x1 := by
  unfold dinvVec dinvOf
  rw [col_eq, where_eq, degPos_eq, degRsqrt_eq, zero_eq]

/-- A vector cast to a column reads, at `(i, u)`, the vector at `i`. -/
theorem shapeCast_col_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- THE NORMALISER COLUMN AT NODE n. -/
theorem dinvCol_at (V0 : Valuation τ sig (Elt Ideal)) (n : Fin 100000) :
    (StableHlo.after (hostOps0_2 (F := Ideal)) (StableHlo.after (hostOps0_1 (F := Ideal))
        (StableHlo.after (hostOps0 (F := Ideal)) V0)) main_v15 : FVec Ideal S100000x1 .f32) (ix2 n 0)
      = dinvVec (bufEdges V0) (ix1 n) :=
  (congrFun (dinvCol_eq V0) (ix2 n 0)).trans
    (shapeCast_col_apply (dinvVec (bufEdges V0)) shapeCasts_S100000_S100000x1 n 0)

/-- The normaliser of a vector of degrees at a node, in scalar form. -/
theorem dinvOf_at (deg : FVec Ideal S100000 .f32) (n : Fin 100000) :
    dinvOf deg (ix1 n)
      = Scalar.select (FloatOps.cmpf .ogt (deg (ix1 n)) (Ideal.ofBits .f32 0x00000000#32))
          (FloatOps.hostUnary .rsqrt (deg (ix1 n))) (Ideal.ofBits .f32 0x00000000#32) := rfl

/-- The normaliser is a nonnegative real at every node, whatever the edge list. -/
theorem dinvVec_nonneg_real (ei : IVec S2x1600000 32) (n : Fin 100000) :
    ∃ r : ℝ, 0 ≤ r ∧ dinvVec ei (ix1 n) = (r : EReal) := by
  obtain ⟨r, hr, he⟩ := Cert.GcnPool.dinv_entry_nonneg_real_raw (degVec ei (ix1 n))
  exact ⟨r, hr, (dinvOf_at (degVec ei) n).trans he⟩

/-- The degree at node n: zero plus one for every destination word that is n. -/
theorem degVec_at (ei : IVec S2x1600000 32) (n : Fin 100000) :
    degVec ei (ix1 n)
      = Ideal.ofBits .f32 0x00000000#32
        + ∑ _e ∈ Finset.univ.filter (fun e : Fin 1700000 => (dstWords ei (ix1 e)).toInt = (n.val : ℤ)),
            Ideal.ofBits .f32 0x3F800000#32 := by
  unfold degVec
  rw [Kernel.edgeScatterAdd_at]
  refine congrArg (fun z : EReal => Ideal.ofBits .f32 0x00000000#32 + z) ?_
  exact Finset.sum_congr (Finset.filter_congr fun e _ => by rw [bcastCol_apply]) fun e _ => rfl

/-! ## Between the launches: the aggregation over the edges, and three reshapes -/

/-- A source word as the gather reads it: a negative word wraps round by the number of rows. -/
abbrev normWord (w : BitVec 32) : BitVec 32 :=
  Scalar.select (IntOp.cmpi .slt w 0#32) (IntOp.addi w 100000#32) w

/-- The normalised source word of edge `e`. -/
abbrev srcN (V : Valuation τ sig (Elt Ideal)) (e : Fin 1700000) : BitVec 32 :=
  normWord (bufSrc V (ix1 e))

/-- The aggregation as a function of the source words, the destination words and the rows to aggregate: the rows
    gathered at the normalised sources, scatter-added at the destinations into the zero array. -/
def aggTerm (src dst : IVec S1700000 32) (y : FVec Ideal S100000x128 .bf16) : FVec Ideal S100000x128 .f32 :=
  Host.scatterAdd scatter_S100000x128_S1700000x1_S1700000x128_1_0_0_1
    (broadcastInDim S100000x128 ![] bcast_S_S100000x128 (constant (F := Ideal) S_ .f32 0x00000000#32))
    (broadcastInDim S1700000x1 ![0] bcast_S1700000_S1700000x1_0 dst)
    (extf .f32
      (Host.gather gather_S100000x128_S1700000x1_S1700000x128_1_0_n_n_0_1_1128 y
        (broadcastInDim S1700000x1 ![0] bcast_S1700000_S1700000x1_0
          (select (cmpi .slt src (broadcastInDim S1700000 ![] bcast_S_S1700000 (constantI S_ 32 0#32)))
            (addi src (broadcastInDim S1700000 ![] bcast_S_S1700000 (constantI S_ 32 100000#32))) src)))
      bitsLt_bf16_f32)

/-- The stretch's aggregation buffer is that function of the buffers it reads. -/
theorem agg_eq (V : Valuation τ sig (Elt Ideal)) :
    (StableHlo.after (hostOps1 (F := Ideal)) V main_v27 : FVec Ideal S100000x128 .f32)
      = aggTerm (bufSrc V) (bufDst V) (bufRows V) := by
  show StableHlo.after hostOps1 V (Proc.devRef .tc main_v27) = _
  after_results
  rfl

/-- The aggregation at node `n`, lane `q`: zero plus the sum, over the edges whose destination word is `n`, of the row
    at the edge's normalised, clamped source. -/
theorem aggTerm_at (src dst : IVec S1700000 32) (y : FVec Ideal S100000x128 .bf16) (n : Fin 100000) (q : Fin 128) :
    aggTerm src dst y (ix2 n q)
      = 0 + ∑ e ∈ Finset.univ.filter (fun e : Fin 1700000 => (dst (ix1 e)).toInt = (n.val : ℤ)),
          y (ix2 (rowOf (normWord (src (ix1 e)))) q) := by
  unfold aggTerm
  rw [Kernel.rowScatterAdd_at]
  have h0 : broadcastInDim S100000x128 ![] bcast_S_S100000x128 (constant (F := Ideal) S_ .f32 0x00000000#32) (ix2 n q)
      = (0 : EReal) := Ideal.ofBits_zero_f32
  rw [h0]
  refine congrArg (fun z : EReal => 0 + z) ?_
  refine Finset.sum_congr (Finset.filter_congr fun e _ => by rw [bcastCol_apply]) fun e _ => ?_
  rw [extf_apply, Kernel.rowGather_at, bcastCol_apply]
  rfl

/-- THE AGGREGATION BUFFER AT (n, q). -/
theorem agg_at (V : Valuation τ sig (Elt Ideal)) (n : Fin 100000) (q : Fin 128) :
    (StableHlo.after (hostOps1 (F := Ideal)) V main_v27 : FVec Ideal S100000x128 .f32) (ix2 n q)
      = 0 + ∑ e ∈ Finset.univ.filter (fun e : Fin 1700000 => (bufDst V (ix1 e)).toInt = (n.val : ℤ)),
          bufRows V (ix2 (rowOf (srcN V e)) q) :=
  (congrFun (agg_eq V) (ix2 n q)).trans (aggTerm_at (bufSrc V) (bufDst V) (bufRows V) n q)

/-- The bias as a row. -/
theorem bias_eq (V : Valuation τ sig (Elt Ideal)) :
    (StableHlo.after (hostOps1 (F := Ideal)) V main_v28 : FVec Ideal S1x128 .f32)
      = shapeCast S1x128 (bufBias V) shapeCasts_S128_S1x128 := by
  show StableHlo.after hostOps1 V (Proc.devRef .tc main_v28) = _
  after_results
  rfl
/-- … at lane `q`. -/
theorem bias_at (V : Valuation τ sig (Elt Ideal)) (q : Fin 128) :
    (StableHlo.after (hostOps1 (F := Ideal)) V main_v28 : FVec Ideal S1x128 .f32) (ix2 0 q) = bufBias V (ix1 q) :=
  (congrFun (bias_eq V) (ix2 0 q)).trans (shapeCast_a_1a_apply (bufBias V) shapeCasts_S128_S1x128 0 q)

/-- The slope as a row. -/
theorem slope_eq (V : Valuation τ sig (Elt Ideal)) :
    (StableHlo.after (hostOps1 (F := Ideal)) V main_v29 : FVec Ideal S1x128 .f32)
      = shapeCast S1x128 (bufSlope V) shapeCasts_S128_S1x128 := by
  show StableHlo.after hostOps1 V (Proc.devRef .tc main_v29) = _
  after_results
  rfl
/-- … at lane `q`. -/
theorem slope_at (V : Valuation τ sig (Elt Ideal)) (q : Fin 128) :
    (StableHlo.after (hostOps1 (F := Ideal)) V main_v29 : FVec Ideal S1x128 .f32) (ix2 0 q) = bufSlope V (ix1 q) :=
  (congrFun (slope_eq V) (ix2 0 q)).trans (shapeCast_a_1a_apply (bufSlope V) shapeCasts_S128_S1x128 0 q)

/-- A vector of 100000 cast to twenty blocks of 5000 reads, at block `t`, place `k`, the vector at 5000 t + k. -/
theorem shapeCast_blocks_apply {α : Type} (x : S100000.Idx → α) (h : S100000.ShapeCasts S20x1x5000)
    (t : Fin 20) (u : Fin 1) (k : Fin 5000) :
    shapeCast S20x1x5000 x h (ix3 t u k)
      = x (ix1 ⟨5000 * t.val + k.val, by have := t.isLt; have := k.isLt; omega⟩) := by
  refine shapeCast_apply (s := S100000) (t := S20x1x5000) x h _ _ ?_
  have hu : u.val = 0 := by omega
  rw [Shape.rowMajor_val_one, Shape.rowMajor_val_three]
  show 5000 * t.val + k.val = (t.val * 1 + u.val) * 5000 + k.val
  omega

/-- The batch numbers as twenty blocks of 5000. -/
theorem batch_eq (V : Valuation τ sig (Elt Ideal)) :
    (StableHlo.after (hostOps1 (F := Ideal)) V main_v30 : IVec S20x1x5000 32)
      = shapeCast S20x1x5000 (bufBatch V) shapeCasts_S100000_S20x1x5000 := by
  show StableHlo.after hostOps1 V (Proc.devRef .tc main_v30) = _
  after_results
  rfl
/-- … at block `t`, place `k`. -/
theorem batch_at (V : Valuation τ sig (Elt Ideal)) (t : Fin 20) (k : Fin 5000) :
    (StableHlo.after (hostOps1 (F := Ideal)) V main_v30 : IVec S20x1x5000 32) (ix3 t 0 k)
      = bufBatch V (ix1 ⟨5000 * t.val + k.val, by have := t.isLt; have := k.isLt; omega⟩) :=
  (congrFun (batch_eq V) (ix3 t 0 k)).trans (shapeCast_blocks_apply (bufBatch V) shapeCasts_S100000_S20x1x5000 t 0 k)

/-! ## After the second launch: the quotient by the group sizes -/

/-- The host's quotient at an index is the extended reals' division of the elements. -/
theorem hostDivf_apply {s : Shape} {φ : FTy} (a b : FVec Ideal s φ) (i : s.Idx) :
    Host.divf a b i = Ideal.div (a i) (b i) := rfl

/-- The group sizes, floored at one, broadcast over the lanes: the divisor of the pooled sums, as a function of the
    batch numbers. -/
def cntDiv (bt : IVec S100000 32) : FVec Ideal S128x128 .f32 :=
  broadcastInDim S128x128 ![0, 1] bcast_S128x1_S128x128_0_1
    (broadcastInDim S128x1 ![0] bcast_S128_S128x1_0
      (maximumf
        (Host.scatterAdd scatter_S128_S100000x1_S100000_n_0_0_1
          (broadcastInDim S128 ![] bcast_S_S128 (constant (F := Ideal) S_ .f32 0x00000000#32))
          (broadcastInDim S100000x1 ![0] bcast_S100000_S100000x1_0 bt)
          (broadcastInDim S100000 ![] bcast_S_S100000 (constant (F := Ideal) S_ .f32 0x3F800000#32)))
        (broadcastInDim S128 ![] bcast_S_S128 (constant (F := Ideal) S_ .f32 0x3F800000#32))))

/-- The last stretch's result buffer: the second launch's output divided by the broadcast group sizes. -/
theorem result_eq (V : Valuation τ sig (Elt Ideal)) :
    (StableHlo.after (hostOps2 (F := Ideal)) V main_v40 : FVec Ideal S128x128 .f32)
      = Host.divf (F := Ideal) (bufPool V) (cntDiv (bufBatch V)) := by
  show StableHlo.after hostOps2 V (Proc.devRef .tc main_v40) = _
  after_results
  rfl

/-- THE RESULT BUFFER AT (g, q). -/
theorem result_at (V : Valuation τ sig (Elt Ideal)) (g q : Fin 128) :
    (StableHlo.after (hostOps2 (F := Ideal)) V main_v40 : FVec Ideal S128x128 .f32) (ix2 g q)
      = Ideal.div (bufPool V (ix2 g q)) (cntDiv (bufBatch V) (ix2 g q)) :=
  (congrFun (result_eq V) (ix2 g q)).trans (hostDivf_apply (bufPool V) (cntDiv (bufBatch V)) (ix2 g q))

end Cert.GcnPool.HostK

end
-- ==== Proof.LibMatmul.lean ====
/-
  The plain matrix product read at an index.

  For the dimension numbers of an M×K by K×N product (contract the left operand's second axis with the right operand's
  first; no batch axes), the kernel's product into a zero accumulator and the host's dot_general both read, at (p, q), the
  sum over k of the left operand at (p, k) times the right operand at (k, q).
-/
import Idealize.ShloMosaic.PureOps.Ideal.Laws
import Idealize.ShloMosaic.Lib.ValueIdx

noncomputable section

namespace Cert.Matmul

open Idealize.ShloMosaic Idealize.ShloMosaic.ValueIdx

/-- The left operand's index at output (p, q) and contraction k is (p, k). -/
theorem lhsIdx_plain {M K N : Nat} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index at output (p, q) and contraction k is (k, q). -/
theorem rhsIdx_plain {M K N : Nat} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- THE KERNEL'S PRODUCT INTO THE ZERO CONSTANT, READ AT (p, q). -/
theorem matmul_plain_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [lhsIdx_plain, rhsIdx_plain]

/-- THE HOST'S dot_general, READ AT (p, q). -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  refine Finset.sum_congr rfl fun k _ => ?_
  rw [lhsIdx_plain, rhsIdx_plain]

end Cert.Matmul

end
-- ==== Proof.Payload0.lean ====
/-
  The first kernel body's arithmetic read at an index, at the extended reals.

  The body loads a 5000×128 block of features, the 128×128 weight matrix and a 5000×1 column of scales, multiplies the
  block by the weights and scales each row of the product by that row's scale. Read at the extended reals the narrowing
  format changes are the identity, so the element the body stores at (p, q) is
      (∑ k, x (p, k) * w (k, q)) * d (p, 0).
-/
import proofs.«402121_j67808943669372_2_alg».proof.Proof.Gen.KernelIdeal.Skeleton
import proofs.«402121_j67808943669372_2_alg».proof.Proof.LibMatmul
import Idealize.ShloMosaic.Lib.ValueLayout

noncomputable section

open scoped BigOperators

namespace Cert.GcnPool

open Idealize.ShloMosaic Idealize.ShloMosaic.ValueIdx Cert.KernelIdeal

/-! ## A column broadcast over many columns -/

/-- An `[a, 1]` column broadcast to `[a, b]` reads, at `(p, c)`, the column's entry at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two products' dimension numbers are the plain ones -/

/-- The first body's product contracts the block's columns with the weights' rows: the plain 5000×128 by 128×128 product. -/
theorem dot0_eq_plain : dot_S5000x128_S128x128_S5000x128_1_0_0_1_n_n = DotDims.plain 5000 128 128 := rfl

/-- The second body's product contracts the 128×5000 indicator's columns with the rows of the 5000×128 block: the plain
    128×5000 by 5000×128 product. -/
theorem dot1_eq_plain : dot_S128x5000_S5000x128_S128x128_1_0_0_1_n_n = DotDims.plain 128 5000 128 := rfl

/-! ## The first body's stored element -/

/-- THE FIRST BODY'S PAYLOAD AT (p, q): the row of features times the column of weights, scaled by the row's scale. -/
theorem pay0_apply (x0 : Vec Ideal S5000x128 .f32) (w : Vec Ideal S128x128 .f32) (dv : Vec Ideal S5000x1 .f32)
    (p : Fin 5000) (q : Fin 128) :
    Cert.KernelIdeal.Gen.k0_pay1 (F := Ideal) x0 w dv (ix2 p q)
      = (∑ k : Fin 128, x0 (ix2 p k) * w (ix2 k q)) * dv (ix2 p 0) := by
  unfold Cert.KernelIdeal.Gen.k0_pay1
  rw [truncf_apply, mulf_apply]
  rw [broadcastTo_a1_ab_apply, shapeCast_self]
  simp only [matmul]
  rw [dot0_eq_plain]
  rw [Cert.Matmul.matmul_plain_apply]
  rfl

end Cert.GcnPool

end
-- ==== Proof.Payload1.lean ====
/-
  The second kernel body's arithmetic read at an index, at the extended reals.

  The body loads a 5000×128 block of aggregated features, a 5000×1 column of scales, the bias and slope rows and the
  block's 5000 batch numbers. Each row is scaled and biased, passed through the sloped activation and divided by its
  length (the squared length floored at a small named constant); the rows are then summed per batch number by a product
  with the 128×5000 indicator of "row k has batch number g". Read at the extended reals the narrowing format changes are
  the identity, so the product's element at (g, c) is
      ∑ k, [g = batch k] * unit k c.
  The accumulator's update is a sum with the product, and its reset is the zero splat.
-/
import proofs.«402121_j67808943669372_2_alg».proof.Proof.Payload0
import Idealize.ShloMosaic.Lib.StableHlo.Predicate
import Idealize.ShloMosaic.PureOps.IdealRules

noncomputable section

open scoped BigOperators

namespace Cert.GcnPool

open Idealize.ShloMosaic Idealize.ShloMosaic.ValueIdx Cert.KernelIdeal

/-! ## The specification: one row of the block, activated and normalised; the one-hot batch indicator -/

/-- The pre-activation at row `k`, lane `c`: the aggregated feature scaled by the row's scale, plus the bias. -/
def rowPre (s : Vec Ideal S5000x128 .f32) (dv : Vec Ideal S5000x1 .f32) (b : Vec Ideal S1x128 .f32)
    (k : Fin 5000) (c : Fin 128) : EReal :=
  s (ix2 k c) * dv (ix2 k 0) + b (ix2 0 c)

/-- The activation: the pre-activation `r` itself where `r > 0`, else the lane's slope times `r`. -/
def rowAct (s : Vec Ideal S5000x128 .f32) (dv : Vec Ideal S5000x1 .f32) (b a : Vec Ideal S1x128 .f32)
    (k : Fin 5000) (c : Fin 128) : EReal :=
  if 0 < rowPre s dv b k c then rowPre s dv b k c else a (ix2 0 c) * rowPre s dv b k c

/-- The squared length of the activated row `k`. -/
def rowSq (s : Vec Ideal S5000x128 .f32) (dv : Vec Ideal S5000x1 .f32) (b a : Vec Ideal S1x128 .f32)
    (k : Fin 5000) : EReal :=
  ∑ c : Fin 128, rowAct s dv b a k c * rowAct s dv b a k c

/-- The activated row divided by its length, the squared length floored at the small constant. -/
def rowUnit (s : Vec Ideal S5000x128 .f32) (dv : Vec Ideal S5000x1 .f32) (b a : Vec Ideal S1x128 .f32)
    (k : Fin 5000) (c : Fin 128) : EReal :=
  rowAct s dv b a k c
    * Ideal.rsqrt (max (rowSq s dv b a k) ((5316911940649 / 5316911983139663491615228241121378304 : ℝ) : EReal))

/-- The batch indicator: `1` where the word `w` is the number `g`, else `0`. -/
def hot (g : Fin 128) (w : BitVec 32) : EReal := if BitVec.ofNat 32 g.val = w then 1 else 0

/-! ## The small constant -/

/-- The named floor of the squared length denotes its rational at the extended reals, by the certificate's table. -/
theorem eps_sq_value :
    Named.named (F := Ideal) Cert.KernelIdeal.κ "eps_sq" (φ := .f32) 0x179ABE15#32
      = ((5316911940649 / 5316911983139663491615228241121378304 : ℝ) : EReal) :=
  IdealRules.named_const.ideal_named_scalar _ _ _ _ rfl

/-! ## Operations read at an index -/

/-- An integer comparison at an index compares the elements. -/
theorem cmpi_apply {s : Shape} {w : Nat} (p : CmpIPredicate) (x y : IVec s w) (i : s.Idx) :
    cmpi p x y i = IntOp.cmpi p (x i) (y i) := rfl

/-- A reciprocal square root at an index is the extended reals' reciprocal square root of the element. -/
theorem rsqrt_apply {s : Shape} {φ : FTy} (x : FVec Ideal s φ) (i : s.Idx) : rsqrt x i = Ideal.rsqrt (x i) := rfl

/-- An `[a]` array cast to the column `[a, 1]` reads, at `(i, u)`, the operand at `i`, whatever the unit coordinate. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A sum along the lanes of an `[a, b]` array reads, at row `k`, the sum over the lanes of that row. -/
theorem rowsum_apply {a b : ℕ} (src : FVec Ideal ⟨2, ![a, b]⟩ .f32) (h : (⟨2, ![a, b]⟩ : Shape).Reduces [1] ⟨1, ![a]⟩)
    (hφ : FTy.f32 = FTy.f32 ∨ FTy.f32 = FTy.bf16) (hacc : @Eq (BitVec FTy.f32.bits) 0x00000000#32 0x00000000#32)
    (k : Fin a) :
    multiReduction .add [1] ⟨1, ![a]⟩ src 0x00000000#32 h hφ hacc (ix1 k) = ∑ c : Fin b, src (ix2 k c) := by
  refine (Ideal.multiReduction_add_single src 0x00000000#32 h hφ hacc (ix1 k)).trans ?_
  refine Finset.sum_congr rfl fun c _ => congrArg src ?_
  funext ax
  refine Fin.ext ?_
  match ax with
  | ⟨0, _⟩ => rfl
  | ⟨1, _⟩ => rfl

/-- A counter along the rows of an `[a, b]` array reads, at `(g, k)`, the row's number. -/
theorem iota_rows_apply {a b : ℕ} (h : (⟨2, ![a, b]⟩ : Shape).Iotas .tc 32 [0]) (g : Fin a) (k : Fin b) :
    iota .tc ⟨2, ![a, b]⟩ 32 [0] h (ix2 g k) = BitVec.ofNat 32 g.val :=
  iota_single_apply _ _ _ _ h _

/-! ## Scalars -/

/-- The widened, converted equality bit of two words is `1` where they are equal, else `0`. -/
theorem sitofp_extui_cmpi_eq (x w : BitVec 32) :
    FloatOps.sitofp (F := Ideal) .f32 (BitVec.setWidth 32 (IntOp.cmpi .eq x w)) = if x = w then 1 else 0 := by
  show (((BitVec.setWidth 32 (IntOp.cmpi .eq x w)).toInt : ℝ) : EReal) = _
  by_cases h : x = w
  · have h1 : IntOp.cmpi .eq x w = 1#1 := StableHlo.Predicate.cmpi_eq_iff.mpr h
    have h2 : (BitVec.setWidth 32 1#1).toInt = 1 := by decide
    rw [if_pos h, h1, h2]; simp
  · have h0 : IntOp.cmpi .eq x w = 0#1 := eq_zero_of_ne_one fun h1 => h (StableHlo.Predicate.cmpi_eq_iff.mp h1)
    have h2 : (BitVec.setWidth 32 0#1).toInt = 0 := by decide
    rw [if_neg h, h0, h2]; simp

/-- A select on "greater than the zero word" is the `if` on positivity. -/
theorem select_ogt_zero (r y : EReal) :
    Scalar.select (FloatOps.cmpf (F := Ideal) (φ := .f32) .ogt r (FloatOps.ofBits .f32 0x00000000#32)) r y
      = if 0 < r then r else y := by
  show Scalar.select (Ideal.cmp .ogt r (Ideal.ofBits .f32 0x00000000#32)) r y = _
  rw [Ideal.ofBits_zero_f32]
  unfold Ideal.cmp Scalar.select
  by_cases h : 0 < r <;> simp [h]

/-! ## The second body's accumulated product -/

/-- THE SECOND BODY'S PRODUCT AT (g, c): the sum, over the block's rows that carry batch number `g`, of the activated,
    normalised row at lane `c`. -/
theorem pay3_apply (s : Vec Ideal S5000x128 .f32) (dv : Vec Ideal S5000x1 .f32) (b a : Vec Ideal S1x128 .f32)
    (bt : Vec Ideal S1x1x5000 .i32) (g c : Fin 128) :
    Cert.KernelIdeal.Gen.k1_pay3 (F := Ideal) s dv b a bt (ix2 g c)
      = ∑ k : Fin 5000, hot g (bt (ix3 0 0 k)) * rowUnit s dv b a k c := by
  unfold Cert.KernelIdeal.Gen.k1_pay3
  simp only [matmul]
  rw [dot1_eq_plain, Cert.Matmul.matmul_plain_apply]
  refine Finset.sum_congr rfl fun k _ => ?_
  simp only [truncf_apply, mulf_apply, addf_apply, select_apply, cmpf_apply, broadcast_apply, sitofp_apply, extui_apply,
    maximumf_apply, rsqrt_apply, cmpi_apply, broadcastTo_a1_ab_apply, broadcastTo_1b_ab_apply, shapeCast_self,
    shapeCast_a_a1_apply, shapeCast_1ab_ab_apply, eps_sq_value, sitofp_extui_cmpi_eq, select_ogt_zero]
  rw [iota_rows_apply, rowsum_apply]
  simp only [mulf_apply, addf_apply, select_apply, cmpf_apply, broadcast_apply, broadcastTo_a1_ab_apply,
    broadcastTo_1b_ab_apply, select_ogt_zero]
  rfl

/-! ## The accumulator's update and reset -/

/-- The accumulator's update at an index: what was accumulated plus the product. -/
theorem pay1_apply (v39 v40 : FVec Ideal S128x128 .f32) (i : S128x128.Idx) :
    Cert.KernelIdeal.Gen.k1_pay1 (F := Ideal) v39 v40 i = v40 i + v39 i := by
  unfold Cert.KernelIdeal.Gen.k1_pay1
  rw [shapeCast_self]
  rfl

/-- The accumulator's reset at an index: zero. -/
theorem pay2_apply (i : S128x128.Idx) : Cert.KernelIdeal.Gen.k1_pay2 (F := Ideal) i = 0 := by
  unfold Cert.KernelIdeal.Gen.k1_pay2
  rw [shapeCast_self]
  exact Ideal.ofBits_zero_f32

end Cert.GcnPool

end
-- ==== Proof.BlockReads.lean ====
/-
  The second kernel's windows, read at coordinates.

  The pooling kernel runs on a grid of 20 points. At point t its windows name these blocks of their arrays:

    window 0   the node rows, 5000 × 128 of 100000 × 128, block index (t, 0): block entry (k, q) is array entry (5000 t + k, q);
    window 1   the normaliser column, 5000 × 1 of 100000 × 1, block index (t, 0): entry (k, 0) is array entry (5000 t + k, 0);
    windows 2, 3   the bias and the slope, 1 × 128, the whole array at every point;
    window 4   the group words, 1 × 1 × 5000 of 20 × 1 × 5000, block index (t, 0, 0): entry (0, 0, k) is array entry (t, 0, k);
    window 5   the pooled result, 128 × 128, the whole array at every point, written back at the last point only.

  A block's coordinate on an axis is always (block index) × (block size) + 1 × (the coordinate inside the block). The block
  indices are the printed index maps at the point's coordinates; each is decided once over the 20 points. The result
  window's one write-back, at point 19, covers every index of its array.
-/
import proofs.«402121_j67808943669372_2_alg».proof.Proof.Gen.KernelIdeal.Points
import Idealize.ShloMosaic.Lib.Pipeline.Value
import Idealize.ShloMosaic.Lib.ValueIdx

noncomputable section

namespace Cert.GcnPool.Blocks

open Cert.KernelIdeal Cert.KernelIdeal.Gen Idealize.ShloMosaic Idealize.ShloMosaic.ValueIdx Idealize.ShloMosaic.TcCoe

variable {Val : EltTy → Type}

/-- The grid has 20 points. -/
theorem N1_eq : cfg1.N = 20 := rfl

/-- Row k of block t is a row of the 100000. -/
theorem row_lt (t : Fin cfg1.N) (k : Fin 5000) : 5000 * t.val + k.val < 100000 := by
  have ht : t.val < 20 := t.isLt
  have hk := k.isLt
  omega

/-- A point is a block of the 20. -/
theorem point_lt (t : Fin cfg1.N) : t.val < 20 := t.isLt

/-! ### The block indices, decided over the grid -/

/-- Window 0's block index at point t is (t, 0). -/
theorem idx1_0 : ∀ t : Fin cfg1.N, win1_0.index t (0 : Fin 2) = t.val ∧ win1_0.index t (1 : Fin 2) = 0 :=
  (by decide +kernel : ∀ t : Fin grid1.N, _)

/-- Window 1's block index at point t is (t, 0). -/
theorem idx1_1 : ∀ t : Fin cfg1.N, win1_1.index t (0 : Fin 2) = t.val ∧ win1_1.index t (1 : Fin 2) = 0 :=
  (by decide +kernel : ∀ t : Fin grid1.N, _)

/-- Window 2's block index is (0, 0) at every point. -/
theorem idx1_2 : ∀ t : Fin cfg1.N, win1_2.index t (0 : Fin 2) = 0 ∧ win1_2.index t (1 : Fin 2) = 0 :=
  (by decide +kernel : ∀ t : Fin grid1.N, _)

/-- Window 3's block index is (0, 0) at every point. -/
theorem idx1_3 : ∀ t : Fin cfg1.N, win1_3.index t (0 : Fin 2) = 0 ∧ win1_3.index t (1 : Fin 2) = 0 :=
  (by decide +kernel : ∀ t : Fin grid1.N, _)

/-- Window 4's block index at point t is (t, 0, 0). -/
theorem idx1_4 : ∀ t : Fin cfg1.N, win1_4.index t (0 : Fin 3) = t.val ∧ win1_4.index t (1 : Fin 3) = 0
    ∧ win1_4.index t (2 : Fin 3) = 0 :=
  (by decide +kernel : ∀ t : Fin grid1.N, _)

/-- Window 5's block index is (0, 0) at every point. -/
theorem idx1_5 : ∀ t : Fin cfg1.N, win1_5.index t (0 : Fin 2) = 0 ∧ win1_5.index t (1 : Fin 2) = 0 :=
  (by decide +kernel : ∀ t : Fin grid1.N, _)

/-! ### The blocks read at coordinates -/

/-- Window 0: entry (k, q) of block t is entry (5000 t + k, q) of the node rows. -/
theorem blk1_0_read (A : S100000x128.Idx → Val .f32) (t : Fin cfg1.N) (k : Fin 5000) (q : Fin 128) :
    ((cfg1.win 0).blk t).view.read Val A (ix2 k q) = A (ix2 ⟨5000 * t.val + k.val, row_lt t k⟩ q) := by
  obtain ⟨e0, e1⟩ := idx1_0 t
  show A (((cfg1.win 0).blk t).view.emb (ix2 k q)) = _
  refine congrArg A (funext fun a => Fin.ext ?_)
  match a with
  | ⟨0, _⟩ => show win1_0.index t (0 : Fin 2) * 5000 + 1 * k.val = 5000 * t.val + k.val; omega
  | ⟨1, _⟩ => show win1_0.index t (1 : Fin 2) * 128 + 1 * q.val = q.val; omega

/-- Window 1: entry (k, z) of block t is entry (5000 t + k, z) of the normaliser column (z is 0). -/
theorem blk1_1_read (A : S100000x1.Idx → Val .f32) (t : Fin cfg1.N) (k : Fin 5000) (z : Fin 1) :
    ((cfg1.win 1).blk t).view.read Val A (ix2 k z) = A (ix2 ⟨5000 * t.val + k.val, row_lt t k⟩ z) := by
  obtain ⟨e0, e1⟩ := idx1_1 t
  show A (((cfg1.win 1).blk t).view.emb (ix2 k z)) = _
  refine congrArg A (funext fun a => Fin.ext ?_)
  match a with
  | ⟨0, _⟩ => show win1_1.index t (0 : Fin 2) * 5000 + 1 * k.val = 5000 * t.val + k.val; omega
  | ⟨1, _⟩ => show win1_1.index t (1 : Fin 2) * 1 + 1 * z.val = z.val; omega

/-- Window 2: the block is the whole bias row at every point. -/
theorem blk1_2_read (A : S1x128.Idx → Val .f32) (t : Fin cfg1.N) (z : Fin 1) (q : Fin 128) :
    ((cfg1.win 2).blk t).view.read Val A (ix2 z q) = A (ix2 z q) := by
  obtain ⟨e0, e1⟩ := idx1_2 t
  show A (((cfg1.win 2).blk t).view.emb (ix2 z q)) = _
  refine congrArg A (funext fun a => Fin.ext ?_)
  match a with
  | ⟨0, _⟩ => show win1_2.index t (0 : Fin 2) * 1 + 1 * z.val = z.val; omega
  | ⟨1, _⟩ => show win1_2.index t (1 : Fin 2) * 128 + 1 * q.val = q.val; omega

/-- Window 3: the block is the whole slope row at every point. -/
theorem blk1_3_read (A : S1x128.Idx → Val .f32) (t : Fin cfg1.N) (z : Fin 1) (q : Fin 128) :
    ((cfg1.win 3).blk t).view.read Val A (ix2 z q) = A (ix2 z q) := by
  obtain ⟨e0, e1⟩ := idx1_3 t
  show A (((cfg1.win 3).blk t).view.emb (ix2 z q)) = _
  refine congrArg A (funext fun a => Fin.ext ?_)
  match a with
  | ⟨0, _⟩ => show win1_3.index t (0 : Fin 2) * 1 + 1 * z.val = z.val; omega
  | ⟨1, _⟩ => show win1_3.index t (1 : Fin 2) * 128 + 1 * q.val = q.val; omega

/-- Window 4: entry (z, z', k) of block t is entry (t, z', k) of the group words (z and z' are 0). -/
theorem blk1_4_read (A : S20x1x5000.Idx → Val .i32) (t : Fin cfg1.N) (z z' : Fin 1) (k : Fin 5000) :
    ((cfg1.win 4).blk t).view.read Val A (ix3 z z' k) = A (ix3 ⟨t.val, point_lt t⟩ z' k) := by
  obtain ⟨e0, e1, e2⟩ := idx1_4 t
  show A (((cfg1.win 4).blk t).view.emb (ix3 z z' k)) = _
  refine congrArg A (funext fun a => Fin.ext ?_)
  match a with
  | ⟨0, _⟩ => show win1_4.index t (0 : Fin 3) * 1 + 1 * z.val = t.val; omega
  | ⟨1, _⟩ => show win1_4.index t (1 : Fin 3) * 1 + 1 * z'.val = z'.val; omega
  | ⟨2, _⟩ => show win1_4.index t (2 : Fin 3) * 5000 + 1 * k.val = k.val; omega

/-- Window 5: the block is the whole pooled array at every point. -/
theorem blk1_5_read (A : S128x128.Idx → Val .f32) (t : Fin cfg1.N) (p q : Fin 128) :
    ((cfg1.win 5).blk t).view.read Val A (ix2 p q) = A (ix2 p q) := by
  obtain ⟨e0, e1⟩ := idx1_5 t
  show A (((cfg1.win 5).blk t).view.emb (ix2 p q)) = _
  refine congrArg A (funext fun a => Fin.ext ?_)
  match a with
  | ⟨0, _⟩ => show win1_5.index t (0 : Fin 2) * 128 + 1 * p.val = p.val; omega
  | ⟨1, _⟩ => show win1_5.index t (1 : Fin 2) * 128 + 1 * q.val = q.val; omega

/-! ### The result window's cover -/

/-- An index of the pooled array is in point t's block iff each coordinate is in the block's range on its axis. -/
theorem mem_blk1_5 (t : Fin cfg1.N) (i : S128x128.Idx) :
    i ∈ ((cfg1.win 5).blk t).view.set ↔ ∀ a : Fin 2, win1_5.index t a * S128x128.size a ≤ (i a).val
      ∧ (i a).val < win1_5.index t a * S128x128.size a + S128x128.size a := by
  show i ∈ ((View.whole main_v31).slice (win1_5.rect t)).set ↔ _
  rw [View.set_slice_whole, Rect.mem_set_unit]
  exact Iff.rfl

/-- The last point, the one that writes the result back. -/
abbrev lastPoint : Fin cfg1.N := ⟨19, by rw [N1_eq]; omega⟩

/-- THE COVER: the write-back at the last point covers every index of the pooled array. -/
theorem cover1_5 : ∀ i : S128x128.Idx, ∃ t : Fin cfg1.N, (cfg1.win 5).flush t = true ∧ i ∈ ((cfg1.win 5).blk t).view.set := by
  intro i
  refine ⟨lastPoint, (flush1_5 lastPoint).mpr rfl, ?_⟩
  rw [mem_blk1_5]
  obtain ⟨e0, e1⟩ := idx1_5 lastPoint
  have h0 : (i 0).val < 128 := (i 0).isLt
  have h1 : (i 1).val < 128 := (i 1).isLt
  intro a
  match a with
  | ⟨0, _⟩ => show win1_5.index lastPoint (0 : Fin 2) * 128 ≤ (i 0).val ∧ (i 0).val < win1_5.index lastPoint (0 : Fin 2) * 128 + 128; omega
  | ⟨1, _⟩ => show win1_5.index lastPoint (1 : Fin 2) * 128 ≤ (i 1).val ∧ (i 1).val < win1_5.index lastPoint (1 : Fin 2) * 128 + 128; omega

/-- The points that write the result back are the last one alone. -/
theorem flush1_5_iff_last (t : Fin cfg1.N) : (cfg1.win 5).flush t = true ↔ t = lastPoint := by
  rw [flush1_5]
  have ht : t.val < 20 := t.isLt
  constructor
  · intro h; exact Fin.ext (by show t.val = 19; omega)
  · rintro rfl; rfl

end Cert.GcnPool.Blocks

end
-- ==== Proof.Value1.lean ====
/-
  The pooled array the second kernel leaves, read at an index at the extended reals.

  The kernel visits the 100000 nodes in 20 blocks of 5000. At block t its body forms, for group g and feature q, the sum
  over the block's rows k of [row k is of group g] * (the unit row of node 5000 t + k at q), and adds it to an accumulator
  that the first block resets to zero. The unit row of a node is its pre-activation (aggregated feature times the node's
  normaliser, plus the bias), activated, over the floored length of the activated row. So after the last block the
  accumulator at (g, q) is the masked sum over all nodes, block by block.
-/
import proofs.«402121_j67808943669372_2_alg».proof.Proof.Payload1
import proofs.«402121_j67808943669372_2_alg».proof.Proof.BlockReads
import proofs.«402121_j67808943669372_2_alg».proof.Proof.Spec
import proofs.«402121_j67808943669372_2_alg».proof.Proof.KI.Dat1
import Mathlib.Algebra.BigOperators.Fin

noncomputable section

namespace Cert.GcnPool.KV

open Cert.KernelIdeal Cert.KernelIdeal.Gen Idealize.ShloMosaic Idealize.ShloMosaic.ValueIdx Idealize.ShloMosaic.TcCoe
open Cert.GcnPool Cert.GcnPool.Blocks
open Idealize.SL Idealize.SL.RA
open Idealize.ShloMosaic.Pipeline (Dat)

/-! ### The accumulator after the last block is the sum of the blocks' contributions -/

/-- An accumulator reset to zero before the first contribution and increased by each later one holds, after step n,
    the sum of the contributions 0 … n (at every index). -/
theorem acc_eq_sum_range (contrib : Fin 20 → FVec Ideal S128x128 .f32) (acc : ℕ → FVec Ideal S128x128 .f32)
    (h0 : acc 0 = k1_pay1 (F := Ideal) (contrib ⟨0, by omega⟩) (k1_pay2 (F := Ideal)))
    (hs : ∀ n (h : n + 1 < 20), acc (n + 1) = k1_pay1 (F := Ideal) (contrib ⟨n + 1, h⟩) (acc n))
    (i : S128x128.Idx) :
    ∀ n (_ : n < 20), acc n i = ∑ j ∈ Finset.range (n + 1), (if h : j < 20 then contrib ⟨j, h⟩ i else 0) := by
  intro n
  induction n with
  | zero =>
    intro _
    rw [h0, pay1_apply, pay2_apply, zero_add, Finset.sum_range_one, dif_pos (by omega)]
  | succ n ih =>
    intro hn
    rw [hs n hn, pay1_apply, ih (by omega), Finset.sum_range_succ _ (n + 1), dif_pos hn]

/-- After the last of the 20 steps the accumulator is the sum of all 20 contributions. -/
theorem acc_last_eq_sum (contrib : Fin 20 → FVec Ideal S128x128 .f32) (acc : ℕ → FVec Ideal S128x128 .f32)
    (h0 : acc 0 = k1_pay1 (F := Ideal) (contrib ⟨0, by omega⟩) (k1_pay2 (F := Ideal)))
    (hs : ∀ n (h : n + 1 < 20), acc (n + 1) = k1_pay1 (F := Ideal) (contrib ⟨n + 1, h⟩) (acc n))
    (i : S128x128.Idx) : acc 19 i = ∑ t : Fin 20, contrib t i := by
  rw [acc_eq_sum_range contrib acc h0 hs i 19 (by omega),
    ← Fin.sum_univ_eq_sum_range (fun j => if h : j < 20 then contrib ⟨j, h⟩ i else 0) 20]
  exact Finset.sum_congr rfl fun t _ => dif_pos t.isLt

/-! ### One block's contribution, in the specification's terms -/

/-- The body's unit row at block row k is the specification's unit row at node n, where the block's pre-activation at
    row k is the specification's at n and the block's slope row is the specification's. -/
theorem rowUnit_eq_unitK (s : Vec Ideal S5000x128 .f32) (dv : Vec Ideal S5000x1 .f32) (b a : Vec Ideal S1x128 .f32)
    (a' : Fin 128 → EReal) (pre' : Fin 100000 → Fin 128 → EReal) (n : Fin 100000) (k : Fin 5000)
    (hpre : ∀ c, s (ix2 k c) * dv (ix2 k 0) + b (ix2 0 c) = pre' n c) (ha : ∀ c, a (ix2 0 c) = a' c) (q : Fin 128) :
    rowUnit s dv b a k q = unitK a' pre' n q := by
  have hact : ∀ c, rowAct s dv b a k c = act a' pre' n c := by
    intro c
    unfold rowAct act rowPre
    rw [hpre c, ha c]
  unfold rowUnit rowSq unitK
  simp only [hact]

/-- THE CONTRIBUTION OF BLOCK t at (g, q): over the block's rows, the group mask of the row's word times the unit row of
    node 5000 t + k — the arrays being plain functions read through the windows' blocks at t. -/
theorem contrib_at (S : S100000x128.Idx → EReal) (DV : S100000x1.Idx → EReal) (B2 A2 : S1x128.Idx → EReal)
    (BT : S20x1x5000.Idx → BitVec 32) (t : Fin cfg1.N) (g q : Fin 128) :
    k1_pay3 (F := Ideal) (((cfg1.win 0).blk t).view.read (Elt Ideal) S) (((cfg1.win 1).blk t).view.read (Elt Ideal) DV)
        (((cfg1.win 2).blk t).view.read (Elt Ideal) B2) (((cfg1.win 3).blk t).view.read (Elt Ideal) A2)
        (((cfg1.win 4).blk t).view.read (Elt Ideal) BT) (ix2 g q)
      = ∑ k : Fin 5000, hotWord g (BT (ix3 ⟨t.val, point_lt t⟩ 0 k))
          * unitK (fun c => A2 (ix2 0 c)) (fun n c => S (ix2 n c) * DV (ix2 n 0) + B2 (ix2 0 c))
              ⟨5000 * t.val + k.val, row_lt t k⟩ q := by
  rw [pay3_apply]
  refine Finset.sum_congr rfl fun k _ => ?_
  rw [blk1_4_read (Val := Elt Ideal) BT t 0 0 k]
  refine congrArg (fun x => hotWord g (BT (ix3 ⟨t.val, point_lt t⟩ 0 k)) * x) ?_
  refine rowUnit_eq_unitK _ _ _ _ _ _ ⟨5000 * t.val + k.val, row_lt t k⟩ k (fun c => ?_) (fun c => ?_) q
  · rw [blk1_0_read (Val := Elt Ideal) S t k c, blk1_1_read (Val := Elt Ideal) DV t k 0,
      blk1_2_read (Val := Elt Ideal) B2 t 0 c]
  · rw [blk1_3_read (Val := Elt Ideal) A2 t 0 c]

/-- THE POOLED SUM OF THE BLOCKS: the 20 contributions at (g, q) add up to the specification's pooled unit rows, where the
    group words are bw, node by node. -/
theorem sum_contrib_eq_pooledK (S : S100000x128.Idx → EReal) (DV : S100000x1.Idx → EReal) (B2 A2 : S1x128.Idx → EReal)
    (BT : S20x1x5000.Idx → BitVec 32) (bw : Fin 100000 → BitVec 32)
    (hbt : ∀ (t : Fin 20) (k : Fin 5000), BT (ix3 t 0 k) = bw ⟨5000 * t.val + k.val, by omega⟩) (g q : Fin 128) :
    ∑ t : Fin 20, k1_pay3 (F := Ideal) (((cfg1.win 0).blk t).view.read (Elt Ideal) S)
        (((cfg1.win 1).blk t).view.read (Elt Ideal) DV) (((cfg1.win 2).blk t).view.read (Elt Ideal) B2)
        (((cfg1.win 3).blk t).view.read (Elt Ideal) A2) (((cfg1.win 4).blk t).view.read (Elt Ideal) BT) (ix2 g q)
      = pooledK (unitK (fun c => A2 (ix2 0 c)) (fun n c => S (ix2 n c) * DV (ix2 n 0) + B2 (ix2 0 c))) bw g q := by
  unfold pooledK
  refine Finset.sum_congr rfl fun t _ => ?_
  rw [contrib_at S DV B2 A2 BT t g q]
  refine Finset.sum_congr rfl fun k _ => ?_
  rw [hbt t k]

/-! ### The pooled array after the run -/

/-- The result window's block at any point, read at any index of the pooled array, is the array there. -/
theorem blk1_5_read_idx (A : S128x128.Idx → EReal) (t : Fin cfg1.N) (j : S128x128.Idx) :
    ((cfg1.win 5).blk t).view.read (Elt Ideal) A j = A j := by
  obtain ⟨e0, e1⟩ := idx1_5 t
  show A (((cfg1.win 5).blk t).view.emb j) = _
  refine congrArg A (funext fun a => Fin.ext ?_)
  match a with
  | ⟨0, _⟩ => show win1_5.index t (0 : Fin 2) * 128 + 1 * (j 0).val = (j 0).val; omega
  | ⟨1, _⟩ => show win1_5.index t (1 : Fin 2) * 128 + 1 * (j 1).val = (j 1).val; omega

/-- The result window is written back once, at the last point, and that block is its whole array: so the array ends
    holding what the body left for it at the last point. -/
theorem arrAt5_eq_of_after_last {Ix Name U Lvl : Type} [DecidableEq Ix] [DecidableEq Name] [URA U] {c : Dev nD}
    (dat : Dat τ (Elt Ideal) Ix Name U Lvl cfg1 c) (G : FVec Ideal S128x128 .f32)
    (h : dat.after 5 lastPoint = G) : dat.arrAt 5 cfg1.N = G := by
  refine dat.arrAt_eq_of_cover 5 G (fun t hf => ?_) cover1_5
  obtain rfl := (flush1_5_iff_last t).mp hf
  show (cfg1.win 5).cut (grid1.coords lastPoint) (dat.after 5 lastPoint) = _
  rw [h]
  funext j
  exact (blk1_5_read_idx G lastPoint j).symm

/-- THE POOLED ARRAY AT (g, q), for any run record whose result at the last point is the accumulator after 20 steps, the
    accumulator being reset before the first block's contribution and increased by each later block's, and block t's
    contribution being the body's product of the five arrays' blocks at t: the specification's pooled unit rows. -/
theorem out1_assembly {Ix Name U Lvl : Type} [DecidableEq Ix] [DecidableEq Name] [URA U] {c : Dev nD}
    (dat : Dat τ (Elt Ideal) Ix Name U Lvl cfg1 c)
    (S : S100000x128.Idx → EReal) (DV : S100000x1.Idx → EReal) (B2 A2 : S1x128.Idx → EReal)
    (BT : S20x1x5000.Idx → BitVec 32)
    (contrib : Fin 20 → FVec Ideal S128x128 .f32) (acc : ℕ → FVec Ideal S128x128 .f32)
    (hc : ∀ t : Fin 20, contrib t = k1_pay3 (F := Ideal) (((cfg1.win 0).blk t).view.read (Elt Ideal) S)
      (((cfg1.win 1).blk t).view.read (Elt Ideal) DV) (((cfg1.win 2).blk t).view.read (Elt Ideal) B2)
      (((cfg1.win 3).blk t).view.read (Elt Ideal) A2) (((cfg1.win 4).blk t).view.read (Elt Ideal) BT))
    (h0 : acc 0 = k1_pay1 (F := Ideal) (contrib ⟨0, by omega⟩) (k1_pay2 (F := Ideal)))
    (hs : ∀ n (h : n + 1 < 20), acc (n + 1) = k1_pay1 (F := Ideal) (contrib ⟨n + 1, h⟩) (acc n))
    (hafter : dat.after 5 lastPoint = acc 19)
    (bw : Fin 100000 → BitVec 32)
    (hbt : ∀ (t : Fin 20) (k : Fin 5000), BT (ix3 t 0 k) = bw ⟨5000 * t.val + k.val, by omega⟩) (g q : Fin 128) :
    dat.arrAt 5 cfg1.N (ix2 g q)
      = pooledK (unitK (fun c => A2 (ix2 0 c)) (fun n c => S (ix2 n c) * DV (ix2 n 0) + B2 (ix2 0 c))) bw g q := by
  have h1 : dat.arrAt 5 cfg1.N = acc 19 := arrAt5_eq_of_after_last dat (acc 19) hafter
  have h2 : acc 19 (ix2 g q) = ∑ t : Fin 20, contrib t (ix2 g q) := acc_last_eq_sum contrib acc h0 hs (ix2 g q)
  have h3 : ∑ t : Fin 20, contrib t (ix2 g q)
      = ∑ t : Fin 20, k1_pay3 (F := Ideal) (((cfg1.win 0).blk t).view.read (Elt Ideal) S)
        (((cfg1.win 1).blk t).view.read (Elt Ideal) DV) (((cfg1.win 2).blk t).view.read (Elt Ideal) B2)
        (((cfg1.win 3).blk t).view.read (Elt Ideal) A2) (((cfg1.win 4).blk t).view.read (Elt Ideal) BT) (ix2 g q) :=
    Finset.sum_congr rfl fun t _ => congrFun (hc t) (ix2 g q)
  exact (congrFun h1 (ix2 g q)).trans (h2.trans (h3.trans (sum_contrib_eq_pooledK S DV B2 A2 BT bw hbt g q)))

/-! ### At the run's record -/

/-- The five arrays the second kernel's input windows stage, as plain functions of an index. -/
abbrev arrS (V : Dev nD → Valuation τ sig (Elt Ideal)) (c : Dev nD) : FVec Ideal S100000x128 .f32 := V c main_v27
abbrev arrDv (V : Dev nD → Valuation τ sig (Elt Ideal)) (c : Dev nD) : FVec Ideal S100000x1 .f32 := V c main_v15
abbrev arrB2 (V : Dev nD → Valuation τ sig (Elt Ideal)) (c : Dev nD) : FVec Ideal S1x128 .f32 := V c main_v28
abbrev arrA2 (V : Dev nD → Valuation τ sig (Elt Ideal)) (c : Dev nD) : FVec Ideal S1x128 .f32 := V c main_v29
abbrev arrBt (V : Dev nD → Valuation τ sig (Elt Ideal)) (c : Dev nD) : IVec S20x1x5000 32 := V c main_v30

/-- THE POOLED ARRAY AFTER THE RUN, at (g, q): the specification's pooled unit rows of the pre-activation "aggregated
    feature times the node's normaliser plus the bias", the group words being bw node by node. -/
theorem out1_at (V : Dev nD → Valuation τ sig (Elt Ideal)) (c : Dev nD) (bw : Fin 100000 → BitVec 32)
    (hbt : ∀ (t : Fin 20) (k : Fin 5000), arrBt V c (ix3 t 0 k) = bw ⟨5000 * t.val + k.val, by omega⟩)
    (g q : Fin 128) :
    (Cert.GcnPool.KI.dat1 (F := Ideal) V c).arrAt 5 cfg1.N (ix2 g q)
      = pooledK (unitK (fun q => arrA2 V c (ix2 0 q))
          (fun n q => arrS V c (ix2 n q) * arrDv V c (ix2 n 0) + arrB2 V c (ix2 0 q))) bw g q :=
  out1_assembly (Cert.GcnPool.KI.dat1 (F := Ideal) V c) (arrS V c) (arrDv V c) (arrB2 V c) (arrA2 V c) (arrBt V c)
    (fun t => Cert.GcnPool.KI.contrib1 (F := Ideal) (V c) t) (Cert.GcnPool.KI.acc1 (F := Ideal) (V c))
    (fun _ => rfl) (Cert.GcnPool.KI.acc1_zero (V c)) (fun n h => Cert.GcnPool.KI.acc1_succ (V c) n h)
    (Cert.GcnPool.KI.dat1_after5_last V c) bw hbt g q

end Cert.GcnPool.KV

end
-- ==== Proof.Value0.lean ====
/- Region 0's output array after the region, at the extended reals.

   Each grid point writes back one block of 5000 rows; the element the body stores at row p, column q of its block is the
   row of features times the column of weights, scaled by the row's scale. Point t's blocks of the features, the scale
   column and the output are the t-th blocks of rows and the weights' block is the whole matrix, so point t writes
   block t of the scaled product of the whole arrays; the twenty blocks cover the output array (row r lies in block
   r / 5000), so the array ends as the scaled product everywhere. -/
import proofs.«402121_j67808943669372_2_alg».proof.Proof.KI.Dat0
import proofs.«402121_j67808943669372_2_alg».proof.Proof.Payload0
import Idealize.ShloMosaic.Lib.Pipeline.Value
import Idealize.ShloMosaic.Lib.ValueIdx

set_option maxRecDepth 16384

noncomputable section

open scoped BigOperators

namespace Cert.GcnPool.KV

open Cert.KernelIdeal Cert.KernelIdeal.Gen Cert.GcnPool.KI
open Idealize.ShloMosaic Idealize.ShloMosaic.TcCoe Idealize.ShloMosaic.ValueIdx Idealize.SL.Sem
open Idealize.ShloMosaic.Pipeline (Dat)

/-- The scaled product, index by index: row `i 0` of the features times column `i 1` of the weights, scaled by the
    row's entry of the scale column. -/
def G0 (X : FVec Ideal S100000x128 .f32) (Wt : FVec Ideal S128x128 .f32) (DV : FVec Ideal S100000x1 .f32) :
    S100000x128.Idx → EReal :=
  fun i => (∑ k : Fin 128, X (ix2 (i 0) k) * Wt (ix2 k (i 1))) * DV (ix2 (i 0) 0)

/-- The block indices over the grid: at point `t` the features', the scale column's and the output's block is the
    `t`-th block of rows, and the weights' block is the whole matrix. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The three arrays region 0 reads, typed as the vectors they are: the features, the weights, the scale column. -/
abbrev arrX (V : Dev nD → Valuation τ sig (Elt Ideal)) (c : Dev nD) : FVec Ideal S100000x128 .f32 := V c main_arg0
abbrev arrW (V : Dev nD → Valuation τ sig (Elt Ideal)) (c : Dev nD) : FVec Ideal S128x128 .f32 := V c main_arg3
abbrev arrD (V : Dev nD → Valuation τ sig (Elt Ideal)) (c : Dev nD) : FVec Ideal S100000x1 .f32 := V c main_v15

/-- WHAT POINT `t` WRITES BACK is block `t` of the scaled product of the arrays the region finds. -/
theorem flushed3_eq (V : Dev nD → Valuation τ sig (Elt Ideal)) (c : Dev nD) (t : Fin cfg0.N) :
    (dat0 (F := Ideal) V c).flushed 3 t
      = ((cfg0.win 3).blk t).view.read (Elt Ideal) (G0 (arrX V c) (arrW V c) (arrD V c)) := by
  show (cfg0.win 3).cut (grid0.coords t) ((dat0 (F := Ideal) V c).after 3 t) = _
  rw [dat0_after_3]
  obtain ⟨e00, e01, e10, e11, e20, e21, e30, e31⟩ := block_index t
  funext j
  obtain ⟨p, q, rfl⟩ : ∃ (p : Fin 5000) (q : Fin 128), j = ix2 p q := ⟨j 0, j 1, eq_ix2 j⟩
  show k0_pay1 (F := Ideal) (iblk0 (V c) 0 t) (iblk0 (V c) 1 t) (iblk0 (V c) 2 t) (ix2 p q)
    = G0 (arrX V c) (arrW V c) (arrD V c) (((cfg0.win 3).blk t).view.emb (ix2 p q))
  rw [Cert.GcnPool.pay0_apply]
  -- the row of the array that row `p` of block `t` is
  have h0 : ∀ k : Fin 128, (((cfg0.win 0).blk t).view.emb (ix2 p k) : S100000x128.Idx)
      = ix2 (n0 := 100000) (n1 := 128) ((((cfg0.win 3).blk t).view.emb (ix2 p q) : S100000x128.Idx) 0) k := fun k => by
    funext a; apply Fin.ext
    match a with
    | ⟨0, _⟩ => show win0_0.index t (0 : Fin 2) * 5000 + 1 * p.val = win0_3.index t (0 : Fin 2) * 5000 + 1 * p.val; omega
    | ⟨1, _⟩ => show win0_0.index t (1 : Fin 2) * 128 + 1 * k.val = k.val; omega
  have h1 : ∀ k : Fin 128, (((cfg0.win 1).blk t).view.emb (ix2 k q) : S128x128.Idx)
      = ix2 (n0 := 128) (n1 := 128) k ((((cfg0.win 3).blk t).view.emb (ix2 p q) : S100000x128.Idx) 1) := fun k => by
    funext a; apply Fin.ext
    match a with
    | ⟨0, _⟩ => show win0_1.index t (0 : Fin 2) * 128 + 1 * k.val = k.val; omega
    | ⟨1, _⟩ => show win0_1.index t (1 : Fin 2) * 128 + 1 * q.val = win0_3.index t (1 : Fin 2) * 128 + 1 * q.val; omega
  have h2 : (((cfg0.win 2).blk t).view.emb (ix2 p (0 : Fin 1)) : S100000x1.Idx)
      = ix2 (n0 := 100000) (n1 := 1) ((((cfg0.win 3).blk t).view.emb (ix2 p q) : S100000x128.Idx) 0) (0 : Fin 1) := by
    funext a; apply Fin.ext
    match a with
    | ⟨0, _⟩ => show win0_2.index t (0 : Fin 2) * 5000 + 1 * p.val = win0_3.index t (0 : Fin 2) * 5000 + 1 * p.val; omega
    | ⟨1, _⟩ => show win0_2.index t (1 : Fin 2) * 1 + 1 * 0 = 0; omega
  show (∑ k : Fin 128, arrX V c (((cfg0.win 0).blk t).view.emb (ix2 p k)) * arrW V c (((cfg0.win 1).blk t).view.emb (ix2 k q)))
      * arrD V c (((cfg0.win 2).blk t).view.emb (ix2 p (0 : Fin 1)))
    = (∑ k : Fin 128, arrX V c (ix2 (n0 := 100000) (n1 := 128) ((((cfg0.win 3).blk t).view.emb (ix2 p q) : S100000x128.Idx) 0) k)
          * arrW V c (ix2 (n0 := 128) (n1 := 128) k ((((cfg0.win 3).blk t).view.emb (ix2 p q) : S100000x128.Idx) 1)))
      * arrD V c (ix2 (n0 := 100000) (n1 := 1) ((((cfg0.win 3).blk t).view.emb (ix2 p q) : S100000x128.Idx) 0) (0 : Fin 1))
  rw [h2]
  congr 1
  exact Finset.sum_congr rfl fun k _ => by rw [h0 k, h1 k]

/-- An index of the output array is in point `t`'s block iff each coordinate is in the block's range on its axis. -/
theorem mem_blk3 (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v16).slice (win0_3.rect t)).set ↔ _
  rw [View.set_slice_whole, Rect.mem_set_unit]
  exact Iff.rfl

/-- Every index of the output array is in some point's block: row `r` is in the block of point `r / 5000`. -/
theorem cover3 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have ht : (i 0).val / 5000 < cfg0.N := by show _ < grid0.N; rw [N_0]; omega
  obtain ⟨-, -, -, -, -, -, e30, e31⟩ := block_index ⟨(i 0).val / 5000, ht⟩
  refine ⟨⟨(i 0).val / 5000, ht⟩, flush0_3 _, ?_⟩
  rw [mem_blk3]
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    rw [e30]; show (i 0).val / 5000 * 5000 ≤ (i 0).val ∧ (i 0).val < (i 0).val / 5000 * 5000 + 5000; omega
  | ⟨1, _⟩ =>
    show win0_3.index ⟨(i 0).val / 5000, ht⟩ (1 : Fin 2) * 128 ≤ (i 1).val
      ∧ (i 1).val < win0_3.index ⟨(i 0).val / 5000, ht⟩ (1 : Fin 2) * 128 + 128
    rw [e31]; omega

/-- THE OUTPUT ARRAY after the region: the scaled product of the arrays the region finds, everywhere. -/
theorem out0_eq (V : Dev nD → Valuation τ sig (Elt Ideal)) (c : Dev nD) :
    (dat0 (F := Ideal) V c).arrAt 3 cfg0.N = G0 (arrX V c) (arrW V c) (arrD V c) :=
  (dat0 (F := Ideal) V c).arrAt_eq_of_cover 3 (G0 (arrX V c) (arrW V c) (arrD V c)) (fun t _ => flushed3_eq V c t) cover3

/-- and read at row `n`, column `q`. -/
theorem out0_at (V : Dev nD → Valuation τ sig (Elt Ideal)) (c : Dev nD) (n : Fin 100000) (q : Fin 128) :
    (dat0 (F := Ideal) V c).arrAt 3 cfg0.N (ix2 n q)
      = (∑ k : Fin 128, arrX V c (ix2 n k) * arrW V c (ix2 k q)) * arrD V c (ix2 n 0) :=
  congrFun (out0_eq V c) (ix2 n q)

end Cert.GcnPool.KV

end
-- ==== Proof.KernelReads.lean ====
/- What region 1 finds in its five input arrays, read at an index, in terms of the six launch arguments.

   Between the launch and region 1 the program runs three host stretches, region 0 and a fourth stretch. A buffer
   that an item does not write reads through it unchanged, so the bias, the slope and the batch numbers region 1
   reads are the launch arguments reshaped; the scale column is the normaliser of the degrees in the edge list; and
   the aggregated rows are, over the edges into a node, the sum of region 0's output rows at the edges' sources —
   each such row the row of features times the weights, scaled by the row's normaliser. -/
import proofs.«402121_j67808943669372_2_alg».proof.Proof.KI.Launch
import proofs.«402121_j67808943669372_2_alg».proof.Proof.Value0
import proofs.«402121_j67808943669372_2_alg».proof.Proof.Value1
import proofs.«402121_j67808943669372_2_alg».proof.Proof.HostK
import Idealize.ShloMosaic.Lib.ValueIdx

set_option maxRecDepth 16384

noncomputable section

open scoped BigOperators

namespace Cert.GcnPool.KV

open Cert.KernelIdeal Cert.KernelIdeal.Gen Cert.GcnPool.KI Cert.GcnPool.IndexDecode
open Idealize.ShloMosaic Idealize.ShloMosaic.TcCoe Idealize.ShloMosaic.ValueIdx Idealize.SL.Sem

variable (m : (ℓ : Loc nD τ sig) → Buf (Elt Ideal) ℓ) (c : Dev nD)

/-! ## The launch arguments, at their literal types -/

/-- The features. -/
abbrev argX : FVec Ideal S100000x128 .f32 := m ((c : Thread nD τ).loc main_arg0)
/-- The edge list. -/
abbrev argE : IVec S2x1600000 32 := m ((c : Thread nD τ).loc main_arg1)
/-- The batch numbers. -/
abbrev argT : IVec S100000 32 := m ((c : Thread nD τ).loc main_arg2)
/-- The weights. -/
abbrev argW : FVec Ideal S128x128 .f32 := m ((c : Thread nD τ).loc main_arg3)
/-- The bias. -/
abbrev argB : FVec Ideal S128 .f32 := m ((c : Thread nD τ).loc main_arg4)
/-- The slope. -/
abbrev argA : FVec Ideal S128 .f32 := m ((c : Thread nD τ).loc main_arg5)

/-! ## Reading back through the stretches -/

/-- A buffer other than the first region's output holds after that region what it held before it. -/
theorem W4_of (r : Ref sig .tc) (h : r ≠ main_v16) : W4 (F := Ideal) m c r = V3 m c r := by
  unfold W4
  exact Function.update_of_ne (StableHlo.devRef_ne_of_ne h) _ _

/-- A buffer nothing before the second region writes holds there what the launch gave it. -/
theorem W4_launch (r : Ref sig .tc) (h : r ≠ main_v16) (h0 : r ∉ hostOps0_W) (h1 : r ∉ hostOps0_1_W)
    (h2 : r ∉ hostOps0_2_W) : W4 (F := Ideal) m c r = m ((c : Thread nD τ).loc r) :=
  (W4_of m c r h).trans <| (V3_of m c r h2).trans <| (V2_of m c r h1).trans <| (V1_of m c r h0).trans rfl

/-! ## Region 1's small inputs -/

/-- The bias row region 1 reads is the bias argument. -/
theorem inB2_at (q : Fin 128) : arrB2 (W5 (F := Ideal) m) c (ix2 0 q) = argB m c (ix1 q) :=
  (HostK.bias_at (W4 m c) q).trans
    (congrFun (W4_launch m c main_arg4 (by decide) (by decide) (by decide) (by decide)) (ix1 q))

/-- The slope row region 1 reads is the slope argument. -/
theorem inA2_at (q : Fin 128) : arrA2 (W5 (F := Ideal) m) c (ix2 0 q) = argA m c (ix1 q) :=
  (HostK.slope_at (W4 m c) q).trans
    (congrFun (W4_launch m c main_arg5 (by decide) (by decide) (by decide) (by decide)) (ix1 q))

/-- The batch numbers region 1 reads, block `t`, place `k`: the batch argument at 5000 t + k. -/
theorem inBt_at (t : Fin 20) (k : Fin 5000) :
    arrBt (W5 (F := Ideal) m) c (ix3 t 0 k)
      = argT m c (ix1 ⟨5000 * t.val + k.val, by have := t.isLt; have := k.isLt; omega⟩) :=
  (HostK.batch_at (W4 m c) t k).trans
    (congrFun (W4_launch m c main_arg2 (by decide) (by decide) (by decide) (by decide)) (ix1 _))

/-! ## The scale column -/

/-- The scale column region 1 reads is the one the three first stretches computed: neither the first region nor
    the stretch after it writes it. -/
theorem W5_scale : W5 (F := Ideal) m c main_v15
    = StableHlo.after (hostOps0_2 (F := Ideal)) (StableHlo.after (hostOps0_1 (F := Ideal))
        (StableHlo.after (hostOps0 (F := Ideal)) (V0 m c))) main_v15 :=
  (HostK.kept1 (W4 m c) main_v15 (by decide)).trans (W4_of m c main_v15 (by decide))

/-- The scale column region 1 reads, at node `n`: the normaliser of the node's degree in the edge list. -/
theorem inDv_at (n : Fin 100000) : arrDv (W5 (F := Ideal) m) c (ix2 n 0) = HostK.dinvVec (argE m c) (ix1 n) :=
  (congrFun (W5_scale m c) (ix2 n 0)).trans (HostK.dinvCol_at (V0 m c) n)

/-! ## The aggregated rows -/

/-- The destination words the aggregation reads are the edge list's. -/
theorem W4_dst : HostK.bufDst (W4 (F := Ideal) m c) = HostK.dstWords (argE m c) :=
  (W4_of m c main_v6 (by decide)).trans (HostK.dstWords_eq (V0 m c))

/-- The source words the aggregation reads are the edge list's. -/
theorem W4_src : HostK.bufSrc (W4 (F := Ideal) m c) = HostK.srcWords (argE m c) :=
  (W4_of m c main_v3 (by decide)).trans (HostK.srcWords_eq (V0 m c))

/-- The first region's output, by name. -/
theorem out0_def : out0 (F := Ideal) m c = (dat0 (F := Ideal) (V3 m) c).arrAt 3 cfg0.N := by
  unfold out0; rfl

/-- The rows the aggregation gathers are the first region's output: at row `r`, column `q` the row of features
    times the column of weights, scaled by the row's normaliser. -/
theorem W4_rows (r : Fin 100000) (q : Fin 128) :
    HostK.bufRows (W4 (F := Ideal) m c) (ix2 r q)
      = (∑ k : Fin 128, argX m c (ix2 r k) * argW m c (ix2 k q)) * HostK.dinvVec (argE m c) (ix1 r) := by
  have h := out0_at (V3 m) c r q
  have hx : arrX (V3 m) c = argX m c :=
    (V3_of m c main_arg0 (by decide)).trans <| (V2_of m c main_arg0 (by decide)).trans <|
      (V1_of m c main_arg0 (by decide)).trans rfl
  have hw : arrW (V3 m) c = argW m c :=
    (V3_of m c main_arg3 (by decide)).trans <| (V2_of m c main_arg3 (by decide)).trans <|
      (V1_of m c main_arg3 (by decide)).trans rfl
  have hd : arrD (V3 m) c (ix2 r 0) = HostK.dinvVec (argE m c) (ix1 r) := HostK.dinvCol_at (V0 m c) r
  rw [hx, hw, hd] at h
  exact (congrFun ((W4_out m c).trans (out0_def m c)) (ix2 r q)).trans h

/-- The aggregated rows region 1 reads, at node `n`, column `q`: over the edges into `n`, the sum of the first
    region's rows at the edges' sources. -/
theorem inS_at (n : Fin 100000) (q : Fin 128) :
    arrS (W5 (F := Ideal) m) c (ix2 n q)
      = 0 + ∑ e ∈ Finset.univ.filter (fun e : Fin 1700000 => (HostK.dstWords (argE m c) (ix1 e)).toInt = (n.val : ℤ)),
          (∑ k : Fin 128, argX m c (ix2 (rowOf (HostK.normWord (HostK.srcWords (argE m c) (ix1 e)))) k) * argW m c (ix2 k q))
            * HostK.dinvVec (argE m c) (ix1 (rowOf (HostK.normWord (HostK.srcWords (argE m c) (ix1 e))))) := by
  refine (HostK.agg_at (W4 m c) n q).trans ?_
  rw [W4_dst m c]
  refine congrArg (0 + ·) (Finset.sum_congr rfl fun e _ => ?_)
  show HostK.bufRows (W4 m c) (ix2 (rowOf (HostK.normWord (HostK.bufSrc (W4 m c) (ix1 e)))) q) = _
  rw [W4_src m c]
  exact W4_rows m c _ q

end Cert.GcnPool.KV

end
-- ==== Proof.KernelForm.lean ====
/-
  The program with the two kernels: its result buffer after the whole run, read at one index, in the specification's
  terms.

  The last host stretch divides the second launch's output by the broadcast group sizes; the batch numbers it counts are
  an argument no stretch or launch writes. The second launch's output at (g, q) is the specification's pooled unit rows
  of the pre-activation "aggregated feature times the node's normaliser plus the bias", read from its five input arrays;
  each of those, at an index, is a function of the launch arguments: the aggregation over the edges into a node of the
  first launch's rows (transformed feature times the source's normaliser), the normaliser column, the bias and slope rows,
  and the batch numbers block by block. Put together, the pre-activation is the specification's, function for function.
-/
import proofs.«402121_j67808943669372_2_alg».proof.Proof.KI.Launch
import proofs.«402121_j67808943669372_2_alg».proof.Proof.HostK
import proofs.«402121_j67808943669372_2_alg».proof.Proof.Value1
import proofs.«402121_j67808943669372_2_alg».proof.Proof.KernelReads
import proofs.«402121_j67808943669372_2_alg».proof.Proof.Spec
import Idealize.ShloMosaic.Lib.StableHlo.Run

noncomputable section

open scoped BigOperators

namespace Cert.GcnPool.KV
open Idealize.ShloMosaic Idealize.ShloMosaic.ValueIdx Idealize.ShloMosaic.TcCoe Idealize.SL.Sem
open Cert.KernelIdeal Cert.KernelIdeal.Gen Cert.GcnPool.KI Cert.GcnPool.IndexDecode

variable (m : (ℓ : Loc nD τ sig) → Buf (Elt Ideal) ℓ) (c : Dev nD)

/-- The batch numbers are an argument: no stretch and no launch writes them, so the last valuation still holds the
    launch's. -/
theorem batch_kept : HostK.bufBatch (W6 (F := Ideal) m c) = argT m c := by
  show W6 (F := Ideal) m c main_arg2 = _
  unfold W6
  rw [Function.update_of_ne (StableHlo.devRef_ne_of_ne (by decide))]
  show StableHlo.after (hostOps1 (F := Ideal)) (W4 (F := Ideal) m c) main_arg2 = _
  rw [HostK.kept1 _ _ (by decide)]
  unfold W4
  rw [Function.update_of_ne (StableHlo.devRef_ne_of_ne (by decide))]
  rw [V3_of m c _ (by decide), V2_of m c _ (by decide), V1_of m c _ (by decide)]

/-- The pre-activation the second launch forms from its input arrays is the specification's: the aggregated feature
    times the node's normaliser, plus the bias. -/
theorem pre_eq_preK :
    (fun (n : Fin 100000) (q : Fin 128) =>
        arrS (W5 (F := Ideal) m) c (ix2 n q) * arrDv (W5 (F := Ideal) m) c (ix2 n 0)
          + arrB2 (W5 (F := Ideal) m) c (ix2 0 q))
      = preK (fun n q => ∑ k : Fin 128, argX m c (ix2 n k) * argW m c (ix2 k q))
          (fun n => HostK.dinvVec (argE m c) (ix1 n))
          (fun e => rowOf (HostK.normWord (HostK.srcWords (argE m c) (ix1 e))))
          (fun e => HostK.dstWords (argE m c) (ix1 e)) (fun q => argB m c (ix1 q)) := by
  funext n q
  rw [inS_at, inDv_at, inB2_at]
  rfl

/-- THE KERNEL PROGRAM'S RESULT AT (g, q), in the specification's terms. -/
theorem kernel_spec (g q : Fin 128) :
    (Cert.GcnPool.KI.W7 (F := Ideal) m c main_v40 : FVec Ideal S128x128 .f32) (ix2 g q)
      = Ideal.div
          (pooledK
            (unitK (fun q => argA m c (ix1 q))
              (preK (fun n q => ∑ k : Fin 128, argX m c (ix2 n k) * argW m c (ix2 k q))
                (fun n => HostK.dinvVec (argE m c) (ix1 n))
                (fun e => rowOf (HostK.normWord (HostK.srcWords (argE m c) (ix1 e))))
                (fun e => HostK.dstWords (argE m c) (ix1 e)) (fun q => argB m c (ix1 q))))
            (fun n => argT m c (ix1 n)) g q)
          (HostK.cntDiv (argT m c) (ix2 g q)) := by
  have h1 := HostK.result_at (W6 (F := Ideal) m c) g q
  rw [batch_kept] at h1
  have h2 : HostK.bufPool (W6 (F := Ideal) m c) (ix2 g q)
      = pooledK (unitK (fun q => arrA2 (W5 (F := Ideal) m) c (ix2 0 q))
          (fun n q => arrS (W5 (F := Ideal) m) c (ix2 n q) * arrDv (W5 (F := Ideal) m) c (ix2 n 0)
            + arrB2 (W5 (F := Ideal) m) c (ix2 0 q))) (fun n => argT m c (ix1 n)) g q := by
    show W6 (F := Ideal) m c main_v31 (ix2 g q) = _
    rw [W6_out]
    exact out1_at (W5 (F := Ideal) m) c (fun n => argT m c (ix1 n)) (fun t k => inBt_at m c t k) g q
  rw [h2, pre_eq_preK] at h1
  have h3 : (fun q : Fin 128 => arrA2 (W5 (F := Ideal) m) c (ix2 0 q)) = fun q => argA m c (ix1 q) :=
    funext fun q => inA2_at m c q
  rw [h3] at h1
  exact h1

end Cert.GcnPool.KV

end
-- ==== Proof.Final.lean ====
/-
  The two programs end with equal results.

  From memories agreeing on the six arguments, the reference's result at (g, q) is the pooled sum of the normalised
  activated rows over the group's divisor, with both normalisers applied to every message; the other program's is the
  same with the destination's normaliser applied after the sum over the edges, the row norm taken through an inverse
  square root and the pooling done block by block. The two programs build the source words, the destination words, the
  degree normaliser and the divisor by the same operations on the same arguments, so those are equal outright; the rest
  is the specification's equivalence, which needs the normaliser to be a nonnegative real and an edge whose destination
  word is a row to have that row as its destination.
-/
import proofs.«402121_j67808943669372_2_alg».proof.Proof.RefSpec
import proofs.«402121_j67808943669372_2_alg».proof.Proof.KernelForm
import proofs.«402121_j67808943669372_2_alg».proof.Proof.HostK
import proofs.«402121_j67808943669372_2_alg».proof.Proof.Spec

noncomputable section

open scoped BigOperators

namespace Cert.GcnPool
open Idealize.ShloMosaic Idealize.ShloMosaic.ValueIdx Idealize.ShloMosaic.TcCoe Idealize.SL.Sem
open Cert.GcnPool.IndexDecode

/-! ## The shared chains: the two programs apply the same operations to the edge list and to the batch numbers -/

/-- The source words of the one program are the other's. -/
theorem chain_src (ei : IVec Cert.KernelIdeal.S2x1600000 32) :
    HostK.srcWords ei = Cert.ReferenceIdeal.ReadP.val_main_v4 (F := Ideal) ei := rfl
/-- The destination words likewise. -/
theorem chain_dst (ei : IVec Cert.KernelIdeal.S2x1600000 32) :
    HostK.dstWords ei = Cert.ReferenceIdeal.ReadP.val_main_v7 (F := Ideal) ei := rfl
/-- The degree normaliser likewise. -/
theorem chain_dinv (ei : IVec Cert.KernelIdeal.S2x1600000 32) :
    HostK.dinvVec ei = Cert.ReferenceIdeal.ReadP.val_main_v15 (F := Ideal) ei := rfl
/-- The divisor of the pooled sums likewise. -/
theorem chain_cnt (bt : IVec Cert.KernelIdeal.S100000 32) :
    HostK.cntDiv bt = Cert.ReferenceIdeal.ReadP.val_main_v71 (F := Ideal) bt := rfl

/-- THE TWO RESULTS ARE EQUAL. -/
theorem result_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (c : Dev Cert.KernelIdeal.nD) :
    Cert.ReferenceIdeal.ValueP.res_main_v72 (F := Ideal) m' c
      = Cert.GcnPool.KI.W7 (F := Ideal) m c Cert.KernelIdeal.main_v40 := by
  obtain ⟨h0, h1, h2, h3, h4, h5⟩ := hagree c
  rw [Cert.ReferenceIdeal.ReadP.val_main_v72_eq, h0, h1, h2, h3, h4, h5]
  show Cert.ReferenceIdeal.ReadP.val_main_v72 (F := Ideal) (KV.argX m c) (KV.argE m c) (KV.argT m c) (KV.argW m c)
      (KV.argB m c) (KV.argA m c)
    = (Cert.GcnPool.KI.W7 (F := Ideal) m c Cert.KernelIdeal.main_v40 : FVec Ideal Cert.KernelIdeal.S128x128 .f32)
  funext i
  obtain ⟨g, q, rfl⟩ : ∃ (g q : Fin 128), i = ix2 g q := ⟨i 0, i 1, eq_ix2 i⟩
  rw [Ref.result_spec, KV.kernel_spec, chain_cnt, chain_src, chain_dst, chain_dinv]
  have key := spec_eq (fun n q => ∑ k : Fin 128, KV.argX m c (ix2 n k) * KV.argW m c (ix2 k q))
    (fun n => Cert.ReferenceIdeal.ReadP.val_main_v15 (F := Ideal) (KV.argE m c) (ix1 n))
    (fun e => rowOf (HostK.normWord (Cert.ReferenceIdeal.ReadP.val_main_v4 (F := Ideal) (KV.argE m c) (ix1 e))))
    (fun e => rowOf (Ref.dstN (KV.argE m c) e))
    (fun e => Cert.ReferenceIdeal.ReadP.val_main_v7 (F := Ideal) (KV.argE m c) (ix1 e))
    (fun q => KV.argB m c (ix1 q)) (fun q => KV.argA m c (ix1 q)) (fun n => KV.argT m c (ix1 n))
    (fun n => by
      obtain ⟨r, hr0, hr⟩ := HostK.dinvVec_nonneg_real (KV.argE m c) n
      exact ⟨r, hr0, by rw [← hr, chain_dinv]⟩)
    (fun e n h => Ref.dst_row (KV.argE m c) e n h) g q
  rw [key]
  rfl

end Cert.GcnPool

end
-- ==== Proof.lean ====
/-
  A graph-convolution layer with mean pooling, computed by two pipelined kernels, against its plain formulation.

  Both programs form, from the edge list with one self loop added per node, the degree deg(n) of every node and the
  normaliser dinv(n) = deg(n)^(-1/2) (0 where the degree is not positive), and the transformed features h = x · W.
  THE REFERENCE scales every message first: out(n, q) = Σ_{e : dst e = n} h(src e, q) · (dinv(src e) · dinv(dst e)) + b(q);
  applies the per-column leaky slope a(q) to the non-positive entries; divides every row by its Euclidean norm floored
  at D (the word 0x2B8CBCCC, D = 2305843 / 2^61); and averages the rows of each graph (the sum of the rows whose batch
  word is the graph's number, over the count floored at 1).
  THE KERNELS compute h · dinv row by row (region 0, twenty blocks of 5000 rows), add the rows over the edges on the
  host, then, block by block (region 1), scale the sums by dinv(n), add b, apply the slope, multiply every row by
  rsqrt(max(‖row‖², E)) with the named constant E = D² (the rational 5316911940649 / 2^122), and add the block's
  contribution Σ_k [batch(k) = g] · row(k) to a 128 × 128 accumulator kept across the twenty grid points, which is
  written out after the last one; the division by the counts is done on the host.

  At the ideal instance the two agree, for EVERY extended-real input (the finiteness precondition is never opened):
  · dinv(n) is always a nonnegative REAL, and a nonnegative real distributes over any extended-real sum, so the
    factor dinv(dst e) = dinv(n), constant on the edges that land on n, moves out of the sum;
  · for ss ≥ 0 (a sum of squares), p · rsqrt(max(ss, D²)) = p / max(sqrt ss, D): sqrt is monotone and sqrt(D²) = D,
    and both sides are p · 0 at ss = ⊤;
  · Σ_k [batch(k) = g] · u(k) over the twenty blocks is the sum of u over the rows whose batch word is g.
  The frames of the two kernel programs are the library's several-regions launch over the two regions' proof data
  (region 1's invariant carries the accumulator as the fold of the contributions so far); the reference's frame is
  its run with the result dropped. The one ledger entry says that the named constant denotes D².
-/
import proofs.«402121_j67808943669372_2_alg».proof.Defs
import proofs.«402121_j67808943669372_2_alg».proof.Proof.Gen.Pre_finite_inputs
import proofs.«402121_j67808943669372_2_alg».proof.Proof.Gen.ReferenceIdeal
import proofs.«402121_j67808943669372_2_alg».proof.Proof.K.Launch
import proofs.«402121_j67808943669372_2_alg».proof.Proof.KI.Launch
import proofs.«402121_j67808943669372_2_alg».proof.Proof.RunP
import proofs.«402121_j67808943669372_2_alg».proof.Proof.Final

noncomputable section

namespace Cert.Proof

open Idealize.ShloMosaic Idealize.ShloMosaic.TcCoe Idealize.SL.Sem

/-- The word-level kernel program runs to its end from any memory and leaves its six arguments as launched. -/
theorem frame_k : Cert.frame_Kernel := fun m ρ _ => Cert.GcnPool.K.frame (F := Bits) m ρ

/-- So does the idealized kernel program. -/
theorem frame_ki : Cert.frame_KernelIdeal := fun m ρ _ => Cert.GcnPool.KI.frame (F := Ideal) m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ledger's one entry: the table gives the floor of the squared norm the value D², and the printed constant is
    that value at the ideal instance. -/
theorem preserves : Cert.preserves_Kernel_KernelIdeal :=
  IdealRules.named_const.statement Cert.KernelIdeal.κ "eps_sq" .f32 0x179ABE15#32
    ((5316911940649 / 5316911983139663491615228241121378304 : ℝ) : EReal) rfl

/-- From memories that agree on the six arguments both programs run to their ends, the kernel program's result buffer
    at the last valuation's value and the reference's at its composed term: one and the same array. -/
theorem algebraic : Cert.algebraic_KernelIdeal_ReferenceIdeal := by
  intro m ρ m' ρ' _ hagree
  refine ⟨fun c => Cert.GcnPool.KI.W7 (F := Ideal) m c Cert.KernelIdeal.main_v40, Cert.GcnPool.KI.run_result (F := Ideal) m ρ, ?_⟩
  exact (θ_run Cert.ReferenceIdeal.defs _ _).mono
    (fun _ h c => ⟨(h c).1.trans (Cert.GcnPool.result_eq m m' hagree c), (h c).2⟩)
    (Cert.ReferenceIdeal.ValueP.run (F := Ideal) m' ρ')

theorem claim : Cert.Claim := ⟨Cert.Kernel.Gen.facts, Cert.KernelIdeal.Gen.facts, Cert.ReferenceIdeal.Gen.facts,
  Cert.Pre_finite_inputs.Gen.facts, frame_k, frame_ki, frame_ri, preserves, algebraic⟩

end Cert.Proof

end
